-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S1600000x2 : Shape := ⟨2, ![1600000, 2]⟩
abbrev S1x6 : Shape := ⟨2, ![1, 6]⟩
abbrev S1x2 : Shape := ⟨2, ![1, 2]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S1600000x2 : S_.BroadcastsInDim S1600000x2 (![] : Fin 0 → Fin S1600000x2.rank)
  reducesTo_S1600000x2_S_d0_1 : S1600000x2.ReducesTo [0, 1] S_
  bcast_S_S1x6 : S_.BroadcastsInDim S1x6 (![] : Fin 0 → Fin S1x6.rank)
  reducesTo_S1x6_S_d0_1 : S1x6.ReducesTo [0, 1] S_
  bcast_S_S1x2 : S_.BroadcastsInDim S1x2 (![] : Fin 0 → Fin S1x2.rank)
  reducesTo_S1x2_S_d0_1 : S1x2.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_v33 : IVec S_ 1) : IVec S_ 1 :=
  let main_c_12 : IVec S_ 32 := constantI S_ 32 0#32
  let main_v34 : IVec S2x1600000 32 := broadcastInDim S2x1600000 ![] bcast_S_S2x1600000 main_c_12
  let main_v35 : IVec S2x1600000 1 := cmpi .sge main_arg1 main_v34
  let main_c_13 : IVec S_ 32 := constantI S_ 32 100000#32
  let main_v36 : IVec S2x1600000 32 := broadcastInDim S2x1600000 ![] bcast_S_S2x1600000 main_c_13
  let main_v37 : IVec S2x1600000 1 := cmpi .slt main_arg1 main_v36
  let main_v38 : IVec S2x1600000 1 := andi main_v35 main_v37
  let main_c_14 : IVec S_ 1 := constantI S_ 1 1#1
  let main_v39 : IVec S_ 1 := (fun x v => Host.reduce IntOp.andi x v reducesTo_S2x1600000_S_d0_1 h_S_) main_v38 main_c_14
  let main_v40 : IVec S_ 1 := andi main_v33 main_v39
  main_v40

def fn_part1 {F : FTy → Type} [FloatOps F] (main_arg1 : IVec S2x1600000 32) (main_arg5 : FVec F S1x6 .f32) (main_arg6 : FVec F S1x2 .f32) (main_arg7 : FVec F S1x2 .f32) (main_v13 : IVec S_ 1) (main_v16 : IVec S1x6 1) : IVec S_ 1 :=
  let main_c_5 : IVec S_ 1 := constantI S_ 1 1#1
  let main_v17 : IVec S_ 1 := (fun x v => Host.reduce IntOp.andi x v reducesTo_S1x6_S_d0_1 h_S_) main_v16 main_c_5
  let main_v18 : IVec S_ 1 := andi main_v13 main_v17
  let main_v19 : FVec F S1x6 .f32 := Host.absf main_arg5
  let main_cst_6 : FVec F S_ .f32 := constant S_ .f32 0x7F800000#32
  let main_v20 : FVec F S1x6 .f32 := broadcastInDim S1x6 ![] bcast_S_S1x6 main_cst_6
  let main_v21 : IVec S1x6 1 := cmpf .olt main_v19 main_v20
  let main_c_7 : IVec S_ 1 := constantI S_ 1 1#1
  let main_v22 : IVec S_ 1 := (fun x v => Host.reduce IntOp.andi x v reducesTo_S1x6_S_d0_1 h_S_) main_v21 main_c_7
  let main_v23 : IVec S_ 1 := andi main_v18 main_v22
  let main_v24 : FVec F S1x2 .f32 := Host.absf main_arg6
  let main_cst_8 : FVec F S_ .f32 := constant S_ .f32 0x7F800000#32
  let main_v25 : FVec F S1x2 .f32 := broadcastInDim S1x2 ![] bcast_S_S1x2 main_cst_8
  let main_v26 : IVec S1x2 1 := cmpf .olt main_v24 main_v25
  let main_c_9 : IVec S_ 1 := constantI S_ 1 1#1
  let main_v27 : IVec S_ 1 := (fun x v => Host.reduce IntOp.andi x v reducesTo_S1x2_S_d0_1 h_S_) main_v26 main_c_9
  let main_v28 : IVec S_ 1 := andi main_v23 main_v27
  let main_v29 : FVec F S1x2 .f32 := Host.absf main_arg7
  let main_cst_10 : FVec F S_ .f32 := constant S_ .f32 0x7F800000#32
  let main_v30 : FVec F S1x2 .f32 := broadcastInDim S1x2 ![] bcast_S_S1x2 main_cst_10
  let main_v31 : IVec S1x2 1 := cmpf .olt main_v29 main_v30
  let main_c_11 : IVec S_ 1 := constantI S_ 1 1#1
  let main_v32 : IVec S_ 1 := (fun x v => Host.reduce IntOp.andi x v reducesTo_S1x2_S_d0_1 h_S_) main_v31 main_c_11
  let main_v33 : IVec S_ 1 := andi main_v28 main_v32
  fn_part2 (F := F) main_arg1 main_v33

def fn {F : FTy → Type} [FloatOps F] (main_arg0 : FVec F S100000x6 .f32) (main_arg1 : IVec S2x1600000 32) (main_arg2 : FVec F S1600000x2 .f32) (main_arg3 : FVec F S100000x6 .f32) (main_arg4 : FVec F S1x6 .f32) (main_arg5 : FVec F S1x6 .f32) (main_arg6 : FVec F S1x2 .f32) (main_arg7 : FVec F S1x2 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S1600000x2 .f32 := Host.absf main_arg2
  let main_cst_0 : FVec F S_ .f32 := constant S_ .f32 0x7F800000#32
  let main_v5 : FVec F S1600000x2 .f32 := broadcastInDim S1600000x2 ![] bcast_S_S1600000x2 main_cst_0
  let main_v6 : IVec S1600000x2 1 := cmpf .olt main_v4 main_v5
  let main_c_1 : IVec S_ 1 := constantI S_ 1 1#1
  let main_v7 : IVec S_ 1 := (fun x v => Host.reduce IntOp.andi x v reducesTo_S1600000x2_S_d0_1 h_S_) main_v6 main_c_1
  let main_v8 : IVec S_ 1 := andi main_v3 main_v7
  let main_v9 : FVec F S100000x6 .f32 := Host.absf main_arg3
  let main_cst_2 : FVec F S_ .f32 := constant S_ .f32 0x7F800000#32
  let main_v10 : FVec F S100000x6 .f32 := broadcastInDim S100000x6 ![] bcast_S_S100000x6 main_cst_2
  let main_v11 : IVec S100000x6 1 := cmpf .olt main_v9 main_v10
  let main_c_3 : IVec S_ 1 := constantI S_ 1 1#1
  let main_v12 : IVec S_ 1 := (fun x v => Host.reduce IntOp.andi x v reducesTo_S100000x6_S_d0_1 h_S_) main_v11 main_c_3
  let main_v13 : IVec S_ 1 := andi main_v8 main_v12
  let main_v14 : FVec F S1x6 .f32 := Host.absf main_arg4
  let main_cst_4 : FVec F S_ .f32 := constant S_ .f32 0x7F800000#32
  let main_v15 : FVec F S1x6 .f32 := broadcastInDim S1x6 ![] bcast_S_S1x6 main_cst_4
  let main_v16 : IVec S1x6 1 := cmpf .olt main_v14 main_v15
  fn_part1 (F := F) main_arg1 main_arg5 main_arg6 main_arg7 main_v13 main_v16
-- ==== Kernel.lean ====
abbrev S100000x6 : Shape := ⟨2, ![100000, 6]⟩
abbrev S2x1600000 : Shape := ⟨2, ![2, 1600000]⟩
abbrev S1600000x2 : Shape := ⟨2, ![1600000, 2]⟩
abbrev S1x6 : Shape := ⟨2, ![1, 6]⟩
abbrev S1x2 : Shape := ⟨2, ![1, 2]⟩
abbrev S1x1600000 : Shape := ⟨2, ![1, 1600000]⟩
abbrev S1600000 : Shape := ⟨1, ![1600000]⟩
abbrev S100000x1 : Shape := ⟨2, ![100000, 1]⟩
abbrev S100000 : Shape := ⟨1, ![100000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S12500x128 : Shape := ⟨2, ![12500, 128]⟩
abbrev S1568x128 : Shape := ⟨2, ![1568, 128]⟩
abbrev S3200000x2 : Shape := ⟨2, ![3200000, 2]⟩
abbrev S3200000 : Shape := ⟨1, ![3200000]⟩
abbrev S100000x2 : Shape := ⟨2, ![100000, 2]⟩
abbrev S3200000x1 : Shape := ⟨2, ![3200000, 1]⟩

abbrev nBuf : Space → Nat
  | .hbm => 172
  | .vmem => 20
  | .smem => 0
  | _ => 0

abbrev hbmTy0_0 (i : Nat) : BufTy := match i % 128 with
  | 0 => ⟨S100000x6, .f32⟩
  | 1 => ⟨S2x1600000, .i32⟩
  | 2 => ⟨S1600000x2, .f32⟩
  | 3 => ⟨S100000x6, .f32⟩
  | 4 => ⟨S1x6, .f32⟩
  | 5 => ⟨S1x6, .f32⟩
  | 6 => ⟨S1x2, .f32⟩
  | 7 => ⟨S1x2, .f32⟩
  | 8 => ⟨S1x1600000, .i32⟩
  | 9 => ⟨S1600000, .i32⟩
  | 10 => ⟨S1x1600000, .i32⟩
  | 11 => ⟨S1600000, .i32⟩
  | 12 => ⟨S100000x6, .f32⟩
  | 13 => ⟨S100000x6, .f32⟩
  | 14 => ⟨S100000x6, .f32⟩
  | 15 => ⟨S100000x6, .f32⟩
  | 16 => ⟨S1600000x2, .f32⟩
  | 17 => ⟨S1600000x2, .f32⟩
  | 18 => ⟨S1600000x2, .f32⟩
  | 19 => ⟨S1600000x2, .f32⟩
  | 20 => ⟨S100000x1, .f32⟩
  | 21 => ⟨S100000, .f32⟩
  | 22 => ⟨S100000x1, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1, .i32⟩
  | 33 => ⟨S_, .i32⟩
  | 34 => ⟨S1600000x1, .i32⟩
  | 35 => ⟨S1600000x1, .i1⟩
  | 36 => ⟨S1x1, .i32⟩
  | 37 => ⟨S1600000x1, .i32⟩
  | 38 => ⟨S1600000x1, .i1⟩
  | 39 => ⟨S1600000x1, .i1⟩
  | 40 => ⟨S_, .i1⟩
  | 41 => ⟨S1600000, .i1⟩
  | 42 => ⟨S1600000, .f32⟩
  | 43 => ⟨S_, .f32⟩
  | 44 => ⟨S1600000, .f32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1, .i32⟩
  | 55 => ⟨S_, .i32⟩
  | 56 => ⟨S1600000x1, .i32⟩
  | 57 => ⟨S1600000x1, .i1⟩
  | 58 => ⟨S1x1, .i32⟩
  | 59 => ⟨S1600000x1, .i32⟩
  | 60 => ⟨S1600000x1, .i1⟩
  | 61 => ⟨S1600000x1, .i1⟩
  | 62 => ⟨S_, .i1⟩
  | 63 => ⟨S1600000, .i1⟩
  | 64 => ⟨S1600000, .f32⟩
  | 65 => ⟨S_, .f32⟩
  | 66 => ⟨S1600000, .f32⟩
  | 67 => ⟨S1600000, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1, .i32⟩
  | 77 => ⟨S_, .i32⟩
  | 78 => ⟨S1600000x1, .i32⟩
  | 79 => ⟨S1600000x1, .i1⟩
  | 80 => ⟨S1x1, .i32⟩
  | 81 => ⟨S1600000x1, .i32⟩
  | 82 => ⟨S1600000x1, .i1⟩
  | 83 => ⟨S1600000x1, .i1⟩
  | 84 => ⟨S_, .i1⟩
  | 85 => ⟨S1600000, .i1⟩
  | 86 => ⟨S1600000, .f32⟩
  | 87 => ⟨S_, .f32⟩
  | 88 => ⟨S1600000, .f32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1, .i32⟩
  | 99 => ⟨S_, .i32⟩
  | 100 => ⟨S1600000x1, .i32⟩
  | 101 => ⟨S1600000x1, .i1⟩
  | 102 => ⟨S1x1, .i32⟩
  | 103 => ⟨S1600000x1, .i32⟩
  | 104 => ⟨S1600000x1, .i1⟩
  | 105 => ⟨S1600000x1, .i1⟩
  | 106 => ⟨S_, .i1⟩
  | 107 => ⟨S1600000, .i1⟩
  | 108 => ⟨S1600000, .f32⟩
  | 109 => ⟨S_, .f32⟩
  | 110 => ⟨S1600000, .f32⟩
  | 111 => ⟨S1600000, .f32⟩
  | 112 => ⟨S1600000x1, .f32⟩
  | 113 => ⟨S1600000, .f32⟩
  | 114 => ⟨S1600000x1, .f32⟩
  | 115 => ⟨S1600000, .f32⟩
  | 116 => ⟨S12500x128, .f32⟩
  | 117 => ⟨S12500x128, .f32⟩
  | 118 => ⟨S12500x128, .f32⟩
  | 119 => ⟨S12500x128, .f32⟩
  | 120 => ⟨S12500x128, .f32⟩
  | 121 => ⟨S12500x128, .f32⟩
  | 122 => ⟨S12500x128, .f32⟩
  | 123 => ⟨S12500x128, .f32⟩
  | 124 => ⟨S12500x128, .f32⟩
  | 125 => ⟨S12500x128, .f32⟩
  | 126 => ⟨S1600000, .f32⟩
  | 127 => ⟨S1600000, .f32⟩
  | _ => ⟨S100000x6, .f32⟩

abbrev hbmTy0_1 (i : Nat) : BufTy := match i % 128 with
  | 0 => ⟨S1600000, .f32⟩
  | 1 => ⟨S1600000, .f32⟩
  | 2 => ⟨S1600000x1, .f32⟩
  | 3 => ⟨S1600000x1, .f32⟩
  | 4 => ⟨S1600000x2, .f32⟩
  | 5 => ⟨S1600000x1, .f32⟩
  | 6 => ⟨S1600000x1, .f32⟩
  | 7 => ⟨S1600000x2, .f32⟩
  | 8 => ⟨S3200000x2, .f32⟩
  | 9 => ⟨S3200000, .i32⟩
  | 10 => ⟨S_, .f32⟩
  | 11 => ⟨S100000x2, .f32⟩
  | 12 => ⟨S3200000x1, .i32⟩
  | 13 => ⟨S100000x2, .f32⟩
  | 14 => ⟨S100000x1, .f32⟩
  | 15 => ⟨S100000, .f32⟩
  | 16 => ⟨S100000, .f32⟩
  | 17 => ⟨S100000x1, .f32⟩
  | 18 => ⟨S100000, .f32⟩
  | 19 => ⟨S100000, .f32⟩
  | 20 => ⟨S100000x1, .f32⟩
  | 21 => ⟨S100000, .f32⟩
  | 22 => ⟨S100000, .f32⟩
  | 23 => ⟨S100000x1, .f32⟩
  | 24 => ⟨S100000, .f32⟩
  | 25 => ⟨S100000, .f32⟩
  | 26 => ⟨S100000, .f32⟩
  | 27 => ⟨S100000, .f32⟩
  | 28 => ⟨S100000, .f32⟩
  | 29 => ⟨S_, .f32⟩
  | 30 => ⟨S_, .f32⟩
  | 31 => ⟨S_, .f32⟩
  | 32 => ⟨S_, .f32⟩
  | 33 => ⟨S100000x6, .f32⟩
  | 34 => ⟨S100000x6, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | .local _ .vmem, ⟨0, _⟩ => ⟨S1568x128, .f32⟩
  | .local _ .vmem, ⟨1, _⟩ => ⟨S1568x128, .f32⟩
  | .local _ .vmem, ⟨2, _⟩ => ⟨S1568x128, .f32⟩
  | .local _ .vmem, ⟨3, _⟩ => ⟨S1568x128, .f32⟩
  | .local _ .vmem, ⟨4, _⟩ => ⟨S1568x128, .f32⟩
  | .local _ .vmem, ⟨5, _⟩ => ⟨S1568x128, .f32⟩
  | .local _ .vmem, ⟨6, _⟩ => ⟨S1568x128, .f32⟩
  | .local _ .vmem, ⟨7, _⟩ => ⟨S1568x128, .f32⟩
  | .local _ .vmem, ⟨8, _⟩ => ⟨S1568x128, .f32⟩
  | .local _ .vmem, ⟨9, _⟩ => ⟨S1568x128, .f32⟩
  | .local _ .vmem, ⟨10, _⟩ => ⟨S1568x128, .f32⟩
  | .local _ .vmem, ⟨11, _⟩ => ⟨S1568x128, .f32⟩
  | .local _ .vmem, ⟨12, _⟩ => ⟨S1568x128, .f32⟩
  | .local _ .vmem, ⟨13, _⟩ => ⟨S1568x128, .f32⟩
  | .local _ .vmem, ⟨14, _⟩ => ⟨S1568x128, .f32⟩
  | .local _ .vmem, ⟨15, _⟩ => ⟨S1568x128, .f32⟩
  | .local _ .vmem, ⟨16, _⟩ => ⟨S1568x128, .f32⟩
  | .local _ .vmem, ⟨17, _⟩ => ⟨S1568x128, .f32⟩
  | .local _ .vmem, ⟨18, _⟩ => ⟨S1568x128, .f32⟩
  | .local _ .vmem, ⟨19, _⟩ => ⟨S1568x128, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v16 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v17 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_cst : Ref sig .tc := ⟨.hbm, 87, rfl⟩
abbrev main_call2_v14 : Ref sig .tc := ⟨.hbm, 88, rfl⟩
abbrev main_v18 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_cst : Ref sig .tc := ⟨.hbm, 109, rfl⟩
abbrev main_call3_v14 : Ref sig .tc := ⟨.hbm, 110, rfl⟩
abbrev main_v19 : Ref sig .tc := ⟨.hbm, 111, rfl⟩
abbrev main_v20 : Ref sig .tc := ⟨.hbm, 112, rfl⟩
abbrev main_v21 : Ref sig .tc := ⟨.hbm, 113, rfl⟩
abbrev main_v22 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_v27 : Ref sig .tc := ⟨.hbm, 119, rfl⟩
abbrev main_v28 : Ref sig .tc := ⟨.hbm, 120, rfl⟩
abbrev main_v29 : Ref sig .tc := ⟨.hbm, 121, rfl⟩
abbrev main_v30_0 : Ref sig .tc := ⟨.hbm, 122, rfl⟩
abbrev main_v30_1 : Ref sig .tc := ⟨.hbm, 123, rfl⟩
abbrev main_v30_2 : Ref sig .tc := ⟨.hbm, 124, rfl⟩
abbrev main_v30_3 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_v40 : Ref sig .tc := ⟨.hbm, 135, rfl⟩
abbrev main_v41 : Ref sig .tc := ⟨.hbm, 136, rfl⟩
abbrev main_v42 : Ref sig .tc := ⟨.hbm, 137, rfl⟩
abbrev main_cst : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_cst_0 : Ref sig .tc := ⟨.hbm, 157, rfl⟩
abbrev main_v61 : Ref sig .tc := ⟨.hbm, 158, rfl⟩
abbrev main_cst_1 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_cst_2 : Ref sig .tc := ⟨.hbm, 163, rfl⟩
abbrev main_v65 : Ref sig .tc := ⟨.hbm, 164, rfl⟩
abbrev main_cst_3 : Ref sig .tc := ⟨.hbm, 165, rfl⟩
abbrev main_v66 : Ref sig .tc := ⟨.hbm, 166, rfl⟩
abbrev main_cst_4 : Ref sig .tc := ⟨.hbm, 167, rfl⟩
abbrev main_v67 : Ref sig .tc := ⟨.hbm, 168, rfl⟩
abbrev main_cst_5 : Ref sig .tc := ⟨.hbm, 169, rfl⟩
abbrev main_v68 : Ref sig .tc := ⟨.hbm, 170, rfl⟩
abbrev main_v69 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1568x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1568x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1568x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1568x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1568x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1568x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1568x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1568x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1568x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1568x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1x6_S100000x6_0_1 : S1x6.BroadcastsInDim S100000x6 (![0, 1] : Fin 2 → Fin S100000x6.rank)
  bcast_S1x2_S1600000x2_0_1 : S1x2.BroadcastsInDim S1600000x2 (![0, 1] : Fin 2 → Fin S1600000x2.rank)
  slices_S100000x6_S100000x1_0_0 : S100000x6.Slices ![0, 0] S100000x1
  shapeCasts_S100000x1_S100000 : S100000x1.ShapeCasts S100000
  slices_S100000x6_S100000x1_0_1 : S100000x6.Slices ![0, 1] S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  shapeCasts_S1600000_S12500x128 : S1600000.ShapeCasts S12500x128
  inb_S1568x128_S1568x128_0_0 : ∀ a, (![0, 0] : Fin 2 → Nat) a + S1568x128.size a ≤ S1568x128.size a
  h_S1568x128 : 0 < S1568x128.numel
  shapeCasts_S1568x128_S1568x128 : S1568x128.ShapeCasts S1568x128
  shapeCasts_S12500x128_S1600000 : S12500x128.ShapeCasts S1600000
  concatenates_S1600000x1_S1600000x1_S1600000x2_d1 : Shape.Concatenates [S1600000x1, S1600000x1] S1600000x2 1
  concatenates_S1600000x2_S1600000x2_S3200000x2_d0 : Shape.Concatenates [S1600000x2, S1600000x2] S3200000x2 0
  concatenates_S1600000_S1600000_S3200000_d0 : Shape.Concatenates [S1600000, S1600000] S3200000 0
  bcast_S_S100000x2 : S_.BroadcastsInDim S100000x2 (![] : Fin 0 → Fin S100000x2.rank)
  bcast_S3200000_S3200000x1_0 : S3200000.BroadcastsInDim S3200000x1 (![0] : Fin 1 → Fin S3200000x1.rank)
  slices_S100000x2_S100000x1_0_0 : S100000x2.Slices ![0, 0] S100000x1
  slices_S100000x6_S100000x1_0_2 : S100000x6.Slices ![0, 2] S100000x1
  slices_S100000x2_S100000x1_0_1 : S100000x2.Slices ![0, 1] S100000x1
  slices_S100000x6_S100000x1_0_3 : S100000x6.Slices ![0, 3] S100000x1
  reducesTo_S100000_S_d0 : S100000.ReducesTo [0] S_
  reducesTo_S100000x6_S_d0_1 : S100000x6.ReducesTo [0, 1] S_
  gather_S100000_S1600000x1_S1600000_n_0_n_n_0_1_1_wf : GatherDims.WF S100000 S1600000x1 S1600000 [] [0] [] [0] [] 1 ![1]
  scatter_S100000x2_S3200000x1_S3200000x2_1_0_0_1_wf : ScatterDims.WF S100000x2 S3200000x1 S3200000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1568x128.size a < S12500x128.size a
  hwx0_0 : ∀ i : grid0.Coords, EltTy.bits .f32 = 32 ∨ (Rect.unit (s := S12500x128) (fun a => cc0_transform_0 i a * S1568x128.size a) (fun a => (Pipeline.Clip.of (cc0_transform_0 i a) (S1568x128.size a) (S12500x128.size a)).extent (S1568x128.size a)) fun a => Pipeline.Clip.inb (Pipeline.Clip.ok_of (hstart0_0 i a))).WholeWords (EltTy.packing .f32)
  hwxs0_0 : ∀ i : grid0.Coords, EltTy.bits .f32 = 32 ∨ (Rect.unit (s := S1568x128) (fun _ => 0) (fun a => (Pipeline.Clip.of (cc0_transform_0 i a) (S1568x128.size a) (S12500x128.size a)).extent (S1568x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1568x128.size a < S12500x128.size a
  hwx0_1 : ∀ i : grid0.Coords, EltTy.bits .f32 = 32 ∨ (Rect.unit (s := S12500x128) (fun a => cc0_transform_1 i a * S1568x128.size a) (fun a => (Pipeline.Clip.of (cc0_transform_1 i a) (S1568x128.size a) (S12500x128.size a)).extent (S1568x128.size a)) fun a => Pipeline.Clip.inb (Pipeline.Clip.ok_of (hstart0_1 i a))).WholeWords (EltTy.packing .f32)
  hwxs0_1 : ∀ i : grid0.Coords, EltTy.bits .f32 = 32 ∨ (Rect.unit (s := S1568x128) (fun _ => 0) (fun a => (Pipeline.Clip.of (cc0_transform_1 i a) (S1568x128.size a) (S12500x128.size a)).extent (S1568x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1568x128.size a < S12500x128.size a
  hwx0_2 : ∀ i : grid0.Coords, EltTy.bits .f32 = 32 ∨ (Rect.unit (s := S12500x128) (fun a => cc0_transform_2 i a * S1568x128.size a) (fun a => (Pipeline.Clip.of (cc0_transform_2 i a) (S1568x128.size a) (S12500x128.size a)).extent (S1568x128.size a)) fun a => Pipeline.Clip.inb (Pipeline.Clip.ok_of (hstart0_2 i a))).WholeWords (EltTy.packing .f32)
  hwxs0_2 : ∀ i : grid0.Coords, EltTy.bits .f32 = 32 ∨ (Rect.unit (s := S1568x128) (fun _ => 0) (fun a => (Pipeline.Clip.of (cc0_transform_2 i a) (S1568x128.size a) (S12500x128.size a)).extent (S1568x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1568x128.size a < S12500x128.size a
  hwx0_3 : ∀ i : grid0.Coords, EltTy.bits .f32 = 32 ∨ (Rect.unit (s := S12500x128) (fun a => cc0_transform_3 i a * S1568x128.size a) (fun a => (Pipeline.Clip.of (cc0_transform_3 i a) (S1568x128.size a) (S12500x128.size a)).extent (S1568x128.size a)) fun a => Pipeline.Clip.inb (Pipeline.Clip.ok_of (hstart0_3 i a))).WholeWords (EltTy.packing .f32)
  hwxs0_3 : ∀ i : grid0.Coords, EltTy.bits .f32 = 32 ∨ (Rect.unit (s := S1568x128) (fun _ => 0) (fun a => (Pipeline.Clip.of (cc0_transform_3 i a) (S1568x128.size a) (S12500x128.size a)).extent (S1568x128.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1568x128.size a < S12500x128.size a
  hwx0_4 : ∀ i : grid0.Coords, EltTy.bits .f32 = 32 ∨ (Rect.unit (s := S12500x128) (fun a => cc0_transform_4 i a * S1568x128.size a) (fun a => (Pipeline.Clip.of (cc0_transform_4 i a) (S1568x128.size a) (S12500x128.size a)).extent (S1568x128.size a)) fun a => Pipeline.Clip.inb (Pipeline.Clip.ok_of (hstart0_4 i a))).WholeWords (EltTy.packing .f32)
  hwxs0_4 : ∀ i : grid0.Coords, EltTy.bits .f32 = 32 ∨ (Rect.unit (s := S1568x128) (fun _ => 0) (fun a => (Pipeline.Clip.of (cc0_transform_4 i a) (S1568x128.size a) (S12500x128.size a)).extent (S1568x128.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1568x128.size a < S12500x128.size a
  hwx0_5 : ∀ i : grid0.Coords, EltTy.bits .f32 = 32 ∨ (Rect.unit (s := S12500x128) (fun a => cc0_transform_5 i a * S1568x128.size a) (fun a => (Pipeline.Clip.of (cc0_transform_5 i a) (S1568x128.size a) (S12500x128.size a)).extent (S1568x128.size a)) fun a => Pipeline.Clip.inb (Pipeline.Clip.ok_of (hstart0_5 i a))).WholeWords (EltTy.packing .f32)
  hwxs0_5 : ∀ i : grid0.Coords, EltTy.bits .f32 = 32 ∨ (Rect.unit (s := S1568x128) (fun _ => 0) (fun a => (Pipeline.Clip.of (cc0_transform_5 i a) (S1568x128.size a) (S12500x128.size a)).extent (S1568x128.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1568x128.size a < S12500x128.size a
  hwx0_6 : ∀ i : grid0.Coords, EltTy.bits .f32 = 32 ∨ (Rect.unit (s := S12500x128) (fun a => cc0_transform_6 i a * S1568x128.size a) (fun a => (Pipeline.Clip.of (cc0_transform_6 i a) (S1568x128.size a) (S12500x128.size a)).extent (S1568x128.size a)) fun a => Pipeline.Clip.inb (Pipeline.Clip.ok_of (hstart0_6 i a))).WholeWords (EltTy.packing .f32)
  hwxs0_6 : ∀ i : grid0.Coords, EltTy.bits .f32 = 32 ∨ (Rect.unit (s := S1568x128) (fun _ => 0) (fun a => (Pipeline.Clip.of (cc0_transform_6 i a) (S1568x128.size a) (S12500x128.size a)).extent (S1568x128.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S1568x128.size a < S12500x128.size a
  hwx0_7 : ∀ i : grid0.Coords, EltTy.bits .f32 = 32 ∨ (Rect.unit (s := S12500x128) (fun a => cc0_transform_7 i a * S1568x128.size a) (fun a => (Pipeline.Clip.of (cc0_transform_7 i a) (S1568x128.size a) (S12500x128.size a)).extent (S1568x128.size a)) fun a => Pipeline.Clip.inb (Pipeline.Clip.ok_of (hstart0_7 i a))).WholeWords (EltTy.packing .f32)
  hwxs0_7 : ∀ i : grid0.Coords, EltTy.bits .f32 = 32 ∨ (Rect.unit (s := S1568x128) (fun _ => 0) (fun a => (Pipeline.Clip.of (cc0_transform_7 i a) (S1568x128.size a) (S12500x128.size a)).extent (S1568x128.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S1568x128.size a < S12500x128.size a
  hwx0_8 : ∀ i : grid0.Coords, EltTy.bits .f32 = 32 ∨ (Rect.unit (s := S12500x128) (fun a => cc0_transform_8 i a * S1568x128.size a) (fun a => (Pipeline.Clip.of (cc0_transform_8 i a) (S1568x128.size a) (S12500x128.size a)).extent (S1568x128.size a)) fun a => Pipeline.Clip.inb (Pipeline.Clip.ok_of (hstart0_8 i a))).WholeWords (EltTy.packing .f32)
  hwxs0_8 : ∀ i : grid0.Coords, EltTy.bits .f32 = 32 ∨ (Rect.unit (s := S1568x128) (fun _ => 0) (fun a => (Pipeline.Clip.of (cc0_transform_8 i a) (S1568x128.size a) (S12500x128.size a)).extent (S1568x128.size a)) fun a => (Nat.zero_add _).trans_le (Pipeline.Clip.extent_le (Pipeline.Clip.ok_of (hstart0_8 i a)))).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S1568x128.size a < S12500x128.size a
  hwx0_9 : ∀ i : grid0.Coords, EltTy.bits .f32 = 32 ∨ (Rect.unit (s := S12500x128) (fun a => cc0_transform_9 i a * S1568x128.size a) (fun a => (Pipeline.Clip.of (cc0_transform_9 i a) (S1568x128.size a) (S12500x128.size a)).extent (S1568x128.size a)) fun a => Pipeline.Clip.inb (Pipeline.Clip.ok_of (hstart0_9 i a))).WholeWords (EltTy.packing .f32)
  hwxs0_9 : ∀ i : grid0.Coords, EltTy.bits .f32 = 32 ∨ (Rect.unit (s := S1568x128) (fun _ => 0) (fun a => (Pipeline.Clip.of (cc0_transform_9 i a) (S1568x128.size a) (S12500x128.size a)).extent (S1568x128.size a)) fun a => (Nat.zero_add _).trans_le (Pipeline.Clip.extent_le (Pipeline.Clip.ok_of (hstart0_9 i a)))).WholeWords (EltTy.packing .f32)

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

abbrev win0_0 : Pipeline.Window sig grid0 :=
  Pipeline.Window.ofSpecClip (Memref.whole main_v24) S1568x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v25) S1568x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v26) S1568x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v27) S1568x128.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v28) S1568x128.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v29) S1568x128.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v30_0) S1568x128.size cc0_transform_6 reads0_6 true false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v30_1) S1568x128.size cc0_transform_7 reads0_7 true false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_v30_2) S1568x128.size cc0_transform_8 reads0_8 true false 2 stage0_8 sem0_8
    hrank0 hreads0_8 hstart0_8 nbuf0_8 (Memref.isWhole_whole _) hwx0_8 hwxs0_8 hstage0_8

abbrev win0_9 : Pipeline.Window sig grid0 :=
  Pipeline.Window.ofSpecClip (Memref.whole main_v30_3) S1568x128.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S1600000x2 : Shape := ⟨2, ![1600000, 2]⟩
abbrev S1x6 : Shape := ⟨2, ![1, 6]⟩
abbrev S1x2 : Shape := ⟨2, ![1, 2]⟩
abbrev S1x1600000 : Shape := ⟨2, ![1, 1600000]⟩
abbrev S1600000 : Shape := ⟨1, ![1600000]⟩
abbrev S3200000 : Shape := ⟨1, ![3200000]⟩
abbrev S3200000x2 : Shape := ⟨2, ![3200000, 2]⟩
abbrev S3200000x1 : Shape := ⟨2, ![3200000, 1]⟩
abbrev S_ : Shape := ⟨0, ![]⟩
abbrev S3200000x6 : Shape := ⟨2, ![3200000, 6]⟩
abbrev S100000x2 : Shape := ⟨2, ![100000, 2]⟩
abbrev S100000x1 : Shape := ⟨2, ![100000, 1]⟩
abbrev S100000 : Shape := ⟨1, ![100000]⟩

abbrev nBuf : Space → Nat
  | .hbm => 129
  | .vmem => 0
  | .smem => 0
  | _ => 0

abbrev hbmTy0_0 (i : Nat) : BufTy := match i % 128 with
  | 0 => ⟨S100000x6, .f32⟩
  | 1 => ⟨S2x1600000, .i32⟩
  | 2 => ⟨S1600000x2, .f32⟩
  | 3 => ⟨S100000x6, .f32⟩
  | 4 => ⟨S1x6, .f32⟩
  | 5 => ⟨S1x6, .f32⟩
  | 6 => ⟨S1x2, .f32⟩
  | 7 => ⟨S1x2, .f32⟩
  | 8 => ⟨S1x1600000, .i32⟩
  | 9 => ⟨S1600000, .i32⟩
  | 10 => ⟨S1x1600000, .i32⟩
  | 11 => ⟨S1600000, .i32⟩
  | 12 => ⟨S3200000, .i32⟩
  | 13 => ⟨S3200000, .i32⟩
  | 14 => ⟨S3200000x2, .f32⟩
  | 15 => ⟨S100000x6, .f32⟩
  | 16 => ⟨S100000x6, .f32⟩
  | 17 => ⟨S100000x6, .f32⟩
  | 18 => ⟨S100000x6, .f32⟩
  | 19 => ⟨S3200000x2, .f32⟩
  | 20 => ⟨S3200000x2, .f32⟩
  | 21 => ⟨S3200000x2, .f32⟩
  | 22 => ⟨S3200000x2, .f32⟩
  | 23 => ⟨S3200000x1, .f32⟩
  | 24 => ⟨S3200000x1, .f32⟩
  | 25 => ⟨S3200000x1, .f32⟩
  | 26 => ⟨S3200000x1, .f32⟩
  | 27 => ⟨S3200000x1, .f32⟩
  | 28 => ⟨S3200000x1, .f32⟩
  | 29 => ⟨S3200000x1, .f32⟩
  | 30 => ⟨S3200000x1, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000x6, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x6, .f32⟩
  | 49 => ⟨S3200000x1, .f32⟩
  | 50 => ⟨S3200000x1, .f32⟩
  | 51 => ⟨S_, .f32⟩
  | 52 => ⟨S3200000x1, .f32⟩
  | 53 => ⟨S3200000x1, .f32⟩
  | 54 => ⟨S3200000x1, .f32⟩
  | 55 => ⟨S3200000x1, .f32⟩
  | 56 => ⟨S_, .f32⟩
  | 57 => ⟨S3200000x1, .f32⟩
  | 58 => ⟨S3200000x1, .f32⟩
  | 59 => ⟨S3200000x1, .f32⟩
  | 60 => ⟨S3200000x1, .f32⟩
  | 61 => ⟨S3200000x1, .f32⟩
  | 62 => ⟨S3200000x1, .f32⟩
  | 63 => ⟨S3200000x1, .f32⟩
  | 64 => ⟨S3200000x1, .f32⟩
  | 65 => ⟨S3200000x1, .f32⟩
  | 66 => ⟨S3200000x1, .f32⟩
  | 67 => ⟨S3200000x1, .f32⟩
  | 68 => ⟨S3200000x1, .f32⟩
  | 69 => ⟨S3200000x1, .f32⟩
  | 70 => ⟨S3200000x1, .f32⟩
  | 71 => ⟨S3200000x1, .f32⟩
  | 72 => ⟨S3200000x1, .f32⟩
  | 73 => ⟨S3200000x1, .f32⟩
  | 74 => ⟨S3200000x1, .f32⟩
  | 75 => ⟨S3200000x1, .f32⟩
  | 76 => ⟨S3200000x1, .f32⟩
  | 77 => ⟨S3200000x1, .f32⟩
  | 78 => ⟨S3200000x1, .f32⟩
  | 79 => ⟨S3200000x1, .f32⟩
  | 80 => ⟨S3200000x1, .f32⟩
  | 81 => ⟨S3200000x1, .f32⟩
  | 82 => ⟨S3200000x1, .f32⟩
  | 83 => ⟨S3200000x1, .f32⟩
  | 84 => ⟨S3200000x1, .f32⟩
  | 85 => ⟨S3200000x1, .f32⟩
  | 86 => ⟨S3200000x1, .f32⟩
  | 87 => ⟨S3200000x1, .f32⟩
  | 88 => ⟨S3200000x1, .f32⟩
  | 89 => ⟨S3200000x1, .f32⟩
  | 90 => ⟨S3200000x1, .f32⟩
  | 91 => ⟨S3200000x1, .f32⟩
  | 92 => ⟨S3200000x1, .f32⟩
  | 93 => ⟨S3200000x1, .f32⟩
  | 94 => ⟨S3200000x2, .f32⟩
  | 95 => ⟨S_, .f32⟩
  | 96 => ⟨S100000x2, .f32⟩
  | 97 => ⟨S3200000x1, .i32⟩
  | 98 => ⟨S100000x2, .f32⟩
  | 99 => ⟨S100000x1, .f32⟩
  | 100 => ⟨S100000, .f32⟩
  | 101 => ⟨S100000, .f32⟩
  | 102 => ⟨S100000x1, .f32⟩
  | 103 => ⟨S100000, .f32⟩
  | 104 => ⟨S100000, .f32⟩
  | 105 => ⟨S100000x1, .f32⟩
  | 106 => ⟨S100000, .f32⟩
  | 107 => ⟨S100000, .f32⟩
  | 108 => ⟨S100000x1, .f32⟩
  | 109 => ⟨S100000, .f32⟩
  | 110 => ⟨S100000, .f32⟩
  | 111 => ⟨S100000, .f32⟩
  | 112 => ⟨S100000, .f32⟩
  | 113 => ⟨S100000, .f32⟩
  | 114 => ⟨S_, .f32⟩
  | 115 => ⟨S_, .f32⟩
  | 116 => ⟨S_, .f32⟩
  | 117 => ⟨S_, .f32⟩
  | 118 => ⟨S100000x6, .f32⟩
  | 119 => ⟨S100000x6, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S100000x6, .f32⟩

abbrev hbmTy0_1 (i : Nat) : BufTy := match i % 128 with
  | 0 => ⟨S_, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_c_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_1 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_4 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_5 : Ref sig .tc := ⟨.hbm, 114, rfl⟩
abbrev main_v99 : Ref sig .tc := ⟨.hbm, 115, rfl⟩
abbrev main_cst_6 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_7 : Ref sig .tc := ⟨.hbm, 120, rfl⟩
abbrev main_v103 : Ref sig .tc := ⟨.hbm, 121, rfl⟩
abbrev main_cst_8 : Ref sig .tc := ⟨.hbm, 122, rfl⟩
abbrev main_v104 : Ref sig .tc := ⟨.hbm, 123, rfl⟩
abbrev main_cst_9 : Ref sig .tc := ⟨.hbm, 124, rfl⟩
abbrev main_v105 : Ref sig .tc := ⟨.hbm, 125, rfl⟩
abbrev main_cst_10 : Ref sig .tc := ⟨.hbm, 126, rfl⟩
abbrev main_v106 : Ref sig .tc := ⟨.hbm, 127, rfl⟩
abbrev main_v107 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S1600000_S3200000_d0 : Shape.Concatenates [S1600000, S1600000] S3200000 0
  concatenates_S1600000x2_S1600000x2_S3200000x2_d0 : Shape.Concatenates [S1600000x2, S1600000x2] S3200000x2 0
  bcast_S1x6_S100000x6_0_1 : S1x6.BroadcastsInDim S100000x6 (![0, 1] : Fin 2 → Fin S100000x6.rank)
  bcast_S1x2_S3200000x2_0_1 : S1x2.BroadcastsInDim S3200000x2 (![0, 1] : Fin 2 → Fin S3200000x2.rank)
  slices_S3200000x2_S3200000x1_0_0 : S3200000x2.Slices ![0, 0] S3200000x1
  slices_S3200000x2_S3200000x1_0_1 : S3200000x2.Slices ![0, 1] S3200000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S3200000x6_S3200000x1_0_0 : S3200000x6.Slices ![0, 0] S3200000x1
  slices_S3200000x6_S3200000x1_0_1 : S3200000x6.Slices ![0, 1] S3200000x1
  bcast_S_S3200000x1 : S_.BroadcastsInDim S3200000x1 (![] : Fin 0 → Fin S3200000x1.rank)
  concatenates_S3200000x1_S3200000x1_S3200000x2_d1 : Shape.Concatenates [S3200000x1, S3200000x1] S3200000x2 1
  bcast_S_S100000x2 : S_.BroadcastsInDim S100000x2 (![] : Fin 0 → Fin S100000x2.rank)
  slices_S100000x2_S100000x1_0_0 : S100000x2.Slices ![0, 0] S100000x1
  shapeCasts_S100000x1_S100000 : S100000x1.ShapeCasts S100000
  slices_S100000x6_S100000x1_0_2 : S100000x6.Slices ![0, 2] S100000x1
  slices_S100000x2_S100000x1_0_1 : S100000x2.Slices ![0, 1] S100000x1
  slices_S100000x6_S100000x1_0_3 : S100000x6.Slices ![0, 3] S100000x1
  reducesTo_S100000_S_d0 : S100000.ReducesTo [0] S_
  h_S_ : 0 < S_.numel
  reducesTo_S100000x6_S_d0_1 : S100000x6.ReducesTo [0, 1] S_
  gather_S100000x6_S3200000x1_S3200000x6_1_0_n_n_0_1_16_wf : GatherDims.WF S100000x6 S3200000x1 S3200000x6 [1] [0] [] [0] [] 1 ![1, 6]
  scatter_S100000x2_S3200000x1_S3200000x2_1_0_0_1_wf : ScatterDims.WF S100000x2 S3200000x1 S3200000x2 [1] [0] [0] 1

variable [Facts₀]

def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

class Facts : Prop extends Facts₀ where

variable [Facts]
-- ==== Proof.KBody.lean ====
/-
  The message kernel's pipeline on one TensorCore: what its body computes, the proof data of its ten windows, the
  body's obligation at every grid point, and the run of @main around it.

  The kernel is pointwise: at each of the 1568 x 128 positions of a block it reads one word of each of the six input
  buffers (source magnitude and angle, destination magnitude and angle, resistance, reactance) and writes one word to
  each of the four result buffers. The arrays have 12500 rows and the blocks 1568, so the eighth block overhangs the
  arrays by 44 rows: its fetch lands 1524 rows and leaves the buffer's tail at words nothing names, the body computes
  on those too, and the write-back moves only the 1524 rows inside. Because the body is pointwise, what it leaves on the
  rows that ARE moved depends only on the rows that were fetched: that is all the obligation of a clipped window states.
-/
import proofs.«428348_j773094113348_2_alg».proof.Proof.Gen.KernelIdeal.Frame
import proofs.«428348_j773094113348_2_alg».proof.Proof.Gen.KernelIdeal.Skeleton
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## One position of a block -/

section Word
variable (vms vas vmd vad r x : F .f32)

/-- The degree-to-radian word and the zero word, as the body spells them. -/
def wDeg : F .f32 := Scalar.ofBits .f32 0x3C8EFA35#32
def wZero : F .f32 := Scalar.ofBits .f32 0x00000000#32

def wDen : F .f32 := FloatOps.addf (FloatOps.mulf r r) (FloatOps.mulf x x)
/-- r / (r² + x²) and (0 - x) / (r² + x²) -/
def wG : F .f32 := FloatOps.divf r (wDen r x)
def wB : F .f32 := FloatOps.divf (FloatOps.subf (wZero (F := F)) x) (wDen r x)
/-- vm cos(va · deg), vm sin(va · deg) at the two ends -/
def wEs : F .f32 := FloatOps.mulf vms (FloatOps.cos (FloatOps.mulf vas (wDeg (F := F))))
def wFs : F .f32 := FloatOps.mulf vms (FloatOps.sin (FloatOps.mulf vas (wDeg (F := F))))
def wEd : F .f32 := FloatOps.mulf vmd (FloatOps.cos (FloatOps.mulf vad (wDeg (F := F))))
def wFd : F .f32 := FloatOps.mulf vmd (FloatOps.sin (FloatOps.mulf vad (wDeg (F := F))))
/-- f_s e_d - e_s f_d -/
def wCross : F .f32 := FloatOps.subf (FloatOps.mulf (wFs vms vas) (wEd vmd vad)) (FloatOps.mulf (wEs vms vas) (wFd vmd vad))
/-- e_s e_d - e_s² + f_s f_d - f_s² -/
def wDotS : F .f32 :=
  FloatOps.subf (FloatOps.addf (FloatOps.subf (FloatOps.mulf (wEs vms vas) (wEd vmd vad)) (FloatOps.mulf (wEs vms vas) (wEs vms vas)))
    (FloatOps.mulf (wFs vms vas) (wFd vmd vad))) (FloatOps.mulf (wFs vms vas) (wFs vms vas))
/-- e_s e_d - e_d² + f_s f_d - f_d² -/
def wDotD : F .f32 :=
  FloatOps.subf (FloatOps.addf (FloatOps.subf (FloatOps.mulf (wEs vms vas) (wEd vmd vad)) (FloatOps.mulf (wEd vmd vad) (wEd vmd vad)))
    (FloatOps.mulf (wFs vms vas) (wFd vmd vad))) (FloatOps.mulf (wFd vmd vad) (wFd vmd vad))

/-- The four words stored: the flows assigned to the source end, then to the destination end. -/
def w6 : F .f32 := FloatOps.addf (FloatOps.mulf (wG r x) (wDotS vms vas vmd vad)) (FloatOps.mulf (wB r x) (wCross vms vas vmd vad))
def w7 : F .f32 := FloatOps.subf (FloatOps.mulf (wG r x) (wCross vms vas vmd vad)) (FloatOps.mulf (wB r x) (wDotS vms vas vmd vad))
def w8 : F .f32 := FloatOps.subf (FloatOps.mulf (wG r x) (wDotD vms vas vmd vad)) (FloatOps.mulf (wB r x) (wCross vms vas vmd vad))
def w9 : F .f32 :=
  FloatOps.subf (FloatOps.mulf (FloatOps.subf (wZero (F := F)) (wG r x)) (wCross vms vas vmd vad)) (FloatOps.mulf (wB r x) (wDotD vms vas vmd vad))
end Word

/-! ## A whole block -/

section Block
variable (x0 x1 x2 x3 x4 x5 : Vec F S1568x128 .f32)

/-- What the body stores into each result buffer, from the six input buffers' contents: the skeleton's payloads composed. -/
def res6 : Vec F S1568x128 .f32 :=
  k0_pay2 (k0_pay13 x4 x5) (k0_pay14 x4 x5) (k0_pay21 x0 x1 x2 x3) (k0_pay22 x0 x1 x2 x3)
def res7 : Vec F S1568x128 .f32 :=
  k0_pay3 (k0_pay13 x4 x5) (k0_pay14 x4 x5) (k0_pay21 x0 x1 x2 x3) (k0_pay22 x0 x1 x2 x3)
def res8 : Vec F S1568x128 .f32 :=
  k0_pay4 (k0_pay13 x4 x5) (k0_pay14 x4 x5) (k0_pay18 x2 x3) (k0_pay21 x0 x1 x2 x3) (k0_pay23 x0 x1 x2 x3)
def res9 : Vec F S1568x128 .f32 :=
  k0_pay5 (k0_pay13 x4 x5) (k0_pay14 x4 x5) (k0_pay18 x2 x3) (k0_pay21 x0 x1 x2 x3) (k0_pay23 x0 x1 x2 x3)

/-- Each is pointwise: at position `j` it is the word function of the six buffers' words at `j` (a shape cast between
    equal shapes is the identity; every other operation of the body acts position by position). -/
theorem res6_apply (j : S1568x128.Idx) : res6 x0 x1 x2 x3 x4 x5 j = w6 (x0 j) (x1 j) (x2 j) (x3 j) (x4 j) (x5 j) := by
  unfold res6 k0_pay2 k0_pay13 k0_pay14 k0_pay21 k0_pay22 k0_pay20 k0_pay19 k0_pay18 k0_pay17 k0_pay16 k0_pay15 k0_pay12 k0_pay11
    k0_pay10 k0_pay9 k0_pay8 k0_pay7 k0_pay6
  simp only [shapeCast_self]
  rfl
theorem res7_apply (j : S1568x128.Idx) : res7 x0 x1 x2 x3 x4 x5 j = w7 (x0 j) (x1 j) (x2 j) (x3 j) (x4 j) (x5 j) := by
  unfold res7 k0_pay3 k0_pay13 k0_pay14 k0_pay21 k0_pay22 k0_pay20 k0_pay19 k0_pay18 k0_pay17 k0_pay16 k0_pay15 k0_pay12 k0_pay11
    k0_pay10 k0_pay9 k0_pay8 k0_pay7 k0_pay6
  simp only [shapeCast_self]
  rfl
theorem res8_apply (j : S1568x128.Idx) : res8 x0 x1 x2 x3 x4 x5 j = w8 (x0 j) (x1 j) (x2 j) (x3 j) (x4 j) (x5 j) := by
  unfold res8 k0_pay4 k0_pay1 k0_pay13 k0_pay14 k0_pay21 k0_pay23 k0_pay20 k0_pay19 k0_pay18 k0_pay17 k0_pay16 k0_pay15 k0_pay12 k0_pay11
    k0_pay10 k0_pay9 k0_pay8 k0_pay7 k0_pay6
  simp only [shapeCast_self]
  rfl
theorem res9_apply (j : S1568x128.Idx) : res9 x0 x1 x2 x3 x4 x5 j = w9 (x0 j) (x1 j) (x2 j) (x3 j) (x4 j) (x5 j) := by
  unfold res9 k0_pay5 k0_pay1 k0_pay13 k0_pay14 k0_pay21 k0_pay23 k0_pay20 k0_pay19 k0_pay18 k0_pay17 k0_pay16 k0_pay15 k0_pay12 k0_pay11
    k0_pay10 k0_pay9 k0_pay8 k0_pay7 k0_pay6
  simp only [shapeCast_self]
  rfl
end Block

/-! ## The body's triple -/

set_option maxHeartbeats 4000000 in
/-- The body on ten whole staging memrefs — the six inputs' at contents `x0 … x5`, the four results' at anything —
    runs to the inputs' as they were and the results' at `res6 … res9` of the inputs' contents: six whole loads, the
    arithmetic, and for each result a whole load nothing reads and a whole store. -/
theorem sound_kernel (c : Dev nD) (E : Set ℕ) (i : grid0.Coords) (arg1 : Memref sig .tc .vmem S1568x128 .f32) (harg1 : arg1.IsWhole) (arg2 : Memref sig .tc .vmem S1568x128 .f32) (harg2 : arg2.IsWhole) (arg3 : Memref sig .tc .vmem S1568x128 .f32) (harg3 : arg3.IsWhole) (arg4 : Memref sig .tc .vmem S1568x128 .f32) (harg4 : arg4.IsWhole) (arg5 : Memref sig .tc .vmem S1568x128 .f32) (harg5 : arg5.IsWhole) (arg6 : Memref sig .tc .vmem S1568x128 .f32) (harg6 : arg6.IsWhole) (arg7 : Memref sig .tc .vmem S1568x128 .f32) (harg7 : arg7.IsWhole) (arg8 : Memref sig .tc .vmem S1568x128 .f32) (harg8 : arg8.IsWhole) (arg9 : Memref sig .tc .vmem S1568x128 .f32) (harg9 : arg9.IsWhole) (arg10 : Memref sig .tc .vmem S1568x128 .f32) (harg10 : arg10.IsWhole)
    (x0 x1 x2 x3 x4 x5 : Vec F S1568x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (res6 x0 x1 x2 x3 x4 x5) ∗ owns (c : Thread nD τ) arg8 fullShare (res7 x0 x1 x2 x3 x4 x5)
            ∗ owns (c : Thread nD τ) arg9 fullShare (res8 x0 x1 x2 x3 x4 x5) ∗ owns (c : Thread nD τ) arg10 fullShare (res9 x0 x1 x2 x3 x4 x5)) -∗ K ⟨⟩))
      ⊢ wp frame (wpE (defs₀ (F := F)) Variants.none c none) E (cc0__msg_kernel i arg1 harg1 arg2 harg2 arg3 harg3 arg4 harg4 arg5 harg5 arg6 harg6 arg7 harg7 arg8 harg8 arg9 harg9 arg10 harg10) K := by
  simp only [cc0__msg_kernel_eq_skeleton]; unfold cc0__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  have hz : (![0, 0] : Fin 2 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.mem_singleton_self _, View.mem_set_unit_zero hz inb_S1568x128_S1568x128_0_0 y⟩)]
    sl_unfold_words
    rw [View.canon_unit_zero hz]
    unfold res6
    simp only [View.readAt_eq_ld, harg1.read_unread, harg2.read_unread, harg3.read_unread, harg4.read_unread, harg5.read_unread,
      harg6.read_unread, View.ld_unit_zero (S := S1568x128) hz]
  isplitl [H7]
  · iexists _; isplitr
    swap; · iexact H7
    ipureintro
    rw [View.read_writes_eq_canon _ _ _ (fun y => ⟨_, List.mem_singleton_self _, View.mem_set_unit_zero hz inb_S1568x128_S1568x128_0_0 y⟩)]
    sl_unfold_words
    rw [View.canon_unit_zero hz]
    unfold res7
    simp only [View.readAt_eq_ld, harg1.read_unread, harg2.read_unread, harg3.read_unread, harg4.read_unread, harg5.read_unread,
      harg6.read_unread, View.ld_unit_zero (S := S1568x128) hz]
  isplitl [H8]
  · iexists _; isplitr
    swap; · iexact H8
    ipureintro
    rw [View.read_writes_eq_canon _ _ _ (fun y => ⟨_, List.mem_singleton_self _, View.mem_set_unit_zero hz inb_S1568x128_S1568x128_0_0 y⟩)]
    sl_unfold_words
    rw [View.canon_unit_zero hz]
    unfold res8
    simp only [View.readAt_eq_ld, harg1.read_unread, harg2.read_unread, harg3.read_unread, harg4.read_unread, harg5.read_unread,
      harg6.read_unread, View.ld_unit_zero (S := S1568x128) hz]
  · iexists _; isplitr
    swap; · iexact H9
    ipureintro
    rw [View.read_writes_eq_canon _ _ _ (fun y => ⟨_, List.mem_singleton_self _, View.mem_set_unit_zero hz inb_S1568x128_S1568x128_0_0 y⟩)]
    sl_unfold_words
    rw [View.canon_unit_zero hz]
    unfold res9
    simp only [View.readAt_eq_ld, harg1.read_unread, harg2.read_unread, harg3.read_unread, harg4.read_unread, harg5.read_unread,
      harg6.read_unread, View.ld_unit_zero (S := S1568x128) hz]

/-! ## The proof data -/

variable (m : (ℓ : Loc nD τ sig) → Buf (Elt F) ℓ) (ρ : Dev nD → PrngReg)

/-- Input window `k`'s block at point `t` as the fetch reads it, filled out to the buffer's size with the zero word on
    the rows past the array's end (rows no write-back moves and no obligation states). -/
def inb0 (c : Dev nD) (t : Fin cfg0.N) : S1568x128.Idx → Elt F .f32 :=
  win0_0.fill (grid0.coords t) (fun _ => Scalar.ofBits .f32 0#32) (iblk m c 0 t)
def inb1 (c : Dev nD) (t : Fin cfg0.N) : S1568x128.Idx → Elt F .f32 :=
  win0_1.fill (grid0.coords t) (fun _ => Scalar.ofBits .f32 0#32) (iblk m c 1 t)
def inb2 (c : Dev nD) (t : Fin cfg0.N) : S1568x128.Idx → Elt F .f32 :=
  win0_2.fill (grid0.coords t) (fun _ => Scalar.ofBits .f32 0#32) (iblk m c 2 t)
def inb3 (c : Dev nD) (t : Fin cfg0.N) : S1568x128.Idx → Elt F .f32 :=
  win0_3.fill (grid0.coords t) (fun _ => Scalar.ofBits .f32 0#32) (iblk m c 3 t)
def inb4 (c : Dev nD) (t : Fin cfg0.N) : S1568x128.Idx → Elt F .f32 :=
  win0_4.fill (grid0.coords t) (fun _ => Scalar.ofBits .f32 0#32) (iblk m c 4 t)
def inb5 (c : Dev nD) (t : Fin cfg0.N) : S1568x128.Idx → Elt F .f32 :=
  win0_5.fill (grid0.coords t) (fun _ => Scalar.ofBits .f32 0#32) (iblk m c 5 t)

/-- The proof data of the pipeline on core `c`: the arrays as the region finds them; after the body at point `t` each
    input's buffer at its filled block and each result's at the body's function of the six; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inb0 m c t
    | ⟨1, _⟩ => inb1 m c t
    | ⟨2, _⟩ => inb2 m c t
    | ⟨3, _⟩ => inb3 m c t
    | ⟨4, _⟩ => inb4 m c t
    | ⟨5, _⟩ => inb5 m c t
    | ⟨6, _⟩ => res6 (inb0 m c t) (inb1 m c t) (inb2 m c t) (inb3 m c t) (inb4 m c t) (inb5 m c t)
    | ⟨7, _⟩ => res7 (inb0 m c t) (inb1 m c t) (inb2 m c t) (inb3 m c t) (inb4 m c t) (inb5 m c t)
    | ⟨8, _⟩ => res8 (inb0 m c t) (inb1 m c t) (inb2 m c t) (inb3 m c t) (inb4 m c t) (inb5 m c t)
    | ⟨9, _⟩ => res9 (inb0 m c t) (inb1 m c t) (inb2 m c t) (inb3 m c t) (inb4 m c t) (inb5 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = inb0 m c t := by dsimp only [dats]
theorem after_1 (c : Dev nD) (t : Fin cfg0.N) : (dats m 0 c).after 1 t = inb1 m c t := by dsimp only [dats]
theorem after_2 (c : Dev nD) (t : Fin cfg0.N) : (dats m 0 c).after 2 t = inb2 m c t := by dsimp only [dats]
theorem after_3 (c : Dev nD) (t : Fin cfg0.N) : (dats m 0 c).after 3 t = inb3 m c t := by dsimp only [dats]
theorem after_4 (c : Dev nD) (t : Fin cfg0.N) : (dats m 0 c).after 4 t = inb4 m c t := by dsimp only [dats]
theorem after_5 (c : Dev nD) (t : Fin cfg0.N) : (dats m 0 c).after 5 t = inb5 m c t := by dsimp only [dats]
theorem after_6 (c : Dev nD) (t : Fin cfg0.N) : (dats m 0 c).after 6 t = res6 (inb0 m c t) (inb1 m c t) (inb2 m c t) (inb3 m c t) (inb4 m c t) (inb5 m c t) := by dsimp only [dats]
theorem after_7 (c : Dev nD) (t : Fin cfg0.N) : (dats m 0 c).after 7 t = res7 (inb0 m c t) (inb1 m c t) (inb2 m c t) (inb3 m c t) (inb4 m c t) (inb5 m c t) := by dsimp only [dats]
theorem after_8 (c : Dev nD) (t : Fin cfg0.N) : (dats m 0 c).after 8 t = res8 (inb0 m c t) (inb1 m c t) (inb2 m c t) (inb3 m c t) (inb4 m c t) (inb5 m c t) := by dsimp only [dats]
theorem after_9 (c : Dev nD) (t : Fin cfg0.N) : (dats m 0 c).after 9 t = res9 (inb0 m c t) (inb1 m c t) (inb2 m c t) (inb3 m c t) (inb4 m c t) (inb5 m c t) := by dsimp only [dats]

/-- What the body finds: each input's buffer just fetched — its block on the rows inside the array, `d` elsewhere —, -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf
  rw [A_eq]
  rfl
theorem before_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf
  rw [A_eq]
  rfl
theorem before_2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf
  rw [A_eq]
  rfl
theorem before_3 (c : Dev nD) (t : Fin cfg0.N) (d) :
    (dats m 0 c).before 3 t d = win0_3.fill (grid0.coords t) d (iblk m c 3 t) := by
  rw [(dats m 0 c).before_fetched 3 t (fetch0_3 t) d]
  unfold Dat.fetched Dat.blockOf
  rw [A_eq]
  rfl
theorem before_4 (c : Dev nD) (t : Fin cfg0.N) (d) :
    (dats m 0 c).before 4 t d = win0_4.fill (grid0.coords t) d (iblk m c 4 t) := by
  rw [(dats m 0 c).before_fetched 4 t (fetch0_4 t) d]
  unfold Dat.fetched Dat.blockOf
  rw [A_eq]
  rfl
theorem before_5 (c : Dev nD) (t : Fin cfg0.N) (d) :
    (dats m 0 c).before 5 t d = win0_5.fill (grid0.coords t) d (iblk m c 5 t) := by
  rw [(dats m 0 c).before_fetched 5 t (fetch0_5 t) d]
  unfold Dat.fetched Dat.blockOf
  rw [A_eq]
  rfl
/-- each result's buffer at contents nothing names (every point writes the previous one's back). -/
theorem before_6 (c : Dev nD) (t : Fin cfg0.N) (d) : (dats m 0 c).before 6 t d = d :=
  (dats m 0 c).before_out_reset 6 rfl t
    (if h : t.val = 0 then .inl h else .inr ⟨h, flush0_6 _⟩) d
theorem before_7 (c : Dev nD) (t : Fin cfg0.N) (d) : (dats m 0 c).before 7 t d = d :=
  (dats m 0 c).before_out_reset 7 rfl t
    (if h : t.val = 0 then .inl h else .inr ⟨h, flush0_7 _⟩) d
theorem before_8 (c : Dev nD) (t : Fin cfg0.N) (d) : (dats m 0 c).before 8 t d = d :=
  (dats m 0 c).before_out_reset 8 rfl t
    (if h : t.val = 0 then .inl h else .inr ⟨h, flush0_8 _⟩) d
theorem before_9 (c : Dev nD) (t : Fin cfg0.N) (d) : (dats m 0 c).before 9 t d = d :=
  (dats m 0 c).before_out_reset 9 rfl t
    (if h : t.val = 0 then .inl h else .inr ⟨h, flush0_9 _⟩) d

/-! ## Clipped blocks: what the fillers cannot reach -/

/-- On the rows the write-back moves, result 6 depends only on the rows the fetches landed: the fillers drop out
    (the ten windows have one block shape, one index map and arrays of one extent, so they cut alike). -/
theorem cut_res6 (c : Dev nD) (t : Fin cfg0.N) (d0 d1 d2 d3 d4 d5 : S1568x128.Idx → Elt F .f32) :
    win0_6.cut (grid0.coords t) (res6 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)))
      = win0_6.cut (grid0.coords t) (res6 (inb0 m c t) (inb1 m c t) (inb2 m c t) (inb3 m c t) (inb4 m c t) (inb5 m c t)) := by
  funext y
  show res6 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.xinj (grid0.coords t) y) = res6 (inb0 m c t) (inb1 m c t) (inb2 m c t) (inb3 m c t) (inb4 m c t) (inb5 m c t) (win0_6.xinj (grid0.coords t) y)
  rw [res6_apply, res6_apply]
  unfold inb0 inb1 inb2 inb3 inb4 inb5
  have e0 : ∀ d, win0_0.fill (grid0.coords t) d (iblk m c 0 t) (win0_6.xinj (grid0.coords t) y) = iblk m c 0 t y :=
    fun d => win0_0.fill_xinj _ d _ y
  have e1 : ∀ d, win0_1.fill (grid0.coords t) d (iblk m c 1 t) (win0_6.xinj (grid0.coords t) y) = iblk m c 1 t y :=
    fun d => win0_1.fill_xinj _ d _ y
  have e2 : ∀ d, win0_2.fill (grid0.coords t) d (iblk m c 2 t) (win0_6.xinj (grid0.coords t) y) = iblk m c 2 t y :=
    fun d => win0_2.fill_xinj _ d _ y
  have e3 : ∀ d, win0_3.fill (grid0.coords t) d (iblk m c 3 t) (win0_6.xinj (grid0.coords t) y) = iblk m c 3 t y :=
    fun d => win0_3.fill_xinj _ d _ y
  have e4 : ∀ d, win0_4.fill (grid0.coords t) d (iblk m c 4 t) (win0_6.xinj (grid0.coords t) y) = iblk m c 4 t y :=
    fun d => win0_4.fill_xinj _ d _ y
  have e5 : ∀ d, win0_5.fill (grid0.coords t) d (iblk m c 5 t) (win0_6.xinj (grid0.coords t) y) = iblk m c 5 t y :=
    fun d => win0_5.fill_xinj _ d _ y
  rw [e0, e0, e1, e1, e2, e2, e3, e3, e4, e4, e5, e5]

/-- On the rows the write-back moves, result 7 depends only on the rows the fetches landed: the fillers drop out
    (the ten windows have one block shape, one index map and arrays of one extent, so they cut alike). -/
theorem cut_res7 (c : Dev nD) (t : Fin cfg0.N) (d0 d1 d2 d3 d4 d5 : S1568x128.Idx → Elt F .f32) :
    win0_7.cut (grid0.coords t) (res7 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)))
      = win0_7.cut (grid0.coords t) (res7 (inb0 m c t) (inb1 m c t) (inb2 m c t) (inb3 m c t) (inb4 m c t) (inb5 m c t)) := by
  funext y
  show res7 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_7.xinj (grid0.coords t) y) = res7 (inb0 m c t) (inb1 m c t) (inb2 m c t) (inb3 m c t) (inb4 m c t) (inb5 m c t) (win0_7.xinj (grid0.coords t) y)
  rw [res7_apply, res7_apply]
  unfold inb0 inb1 inb2 inb3 inb4 inb5
  have e0 : ∀ d, win0_0.fill (grid0.coords t) d (iblk m c 0 t) (win0_7.xinj (grid0.coords t) y) = iblk m c 0 t y :=
    fun d => win0_0.fill_xinj _ d _ y
  have e1 : ∀ d, win0_1.fill (grid0.coords t) d (iblk m c 1 t) (win0_7.xinj (grid0.coords t) y) = iblk m c 1 t y :=
    fun d => win0_1.fill_xinj _ d _ y
  have e2 : ∀ d, win0_2.fill (grid0.coords t) d (iblk m c 2 t) (win0_7.xinj (grid0.coords t) y) = iblk m c 2 t y :=
    fun d => win0_2.fill_xinj _ d _ y
  have e3 : ∀ d, win0_3.fill (grid0.coords t) d (iblk m c 3 t) (win0_7.xinj (grid0.coords t) y) = iblk m c 3 t y :=
    fun d => win0_3.fill_xinj _ d _ y
  have e4 : ∀ d, win0_4.fill (grid0.coords t) d (iblk m c 4 t) (win0_7.xinj (grid0.coords t) y) = iblk m c 4 t y :=
    fun d => win0_4.fill_xinj _ d _ y
  have e5 : ∀ d, win0_5.fill (grid0.coords t) d (iblk m c 5 t) (win0_7.xinj (grid0.coords t) y) = iblk m c 5 t y :=
    fun d => win0_5.fill_xinj _ d _ y
  rw [e0, e0, e1, e1, e2, e2, e3, e3, e4, e4, e5, e5]

/-- On the rows the write-back moves, result 8 depends only on the rows the fetches landed: the fillers drop out
    (the ten windows have one block shape, one index map and arrays of one extent, so they cut alike). -/
theorem cut_res8 (c : Dev nD) (t : Fin cfg0.N) (d0 d1 d2 d3 d4 d5 : S1568x128.Idx → Elt F .f32) :
    win0_8.cut (grid0.coords t) (res8 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)))
      = win0_8.cut (grid0.coords t) (res8 (inb0 m c t) (inb1 m c t) (inb2 m c t) (inb3 m c t) (inb4 m c t) (inb5 m c t)) := by
  funext y
  show res8 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_8.xinj (grid0.coords t) y) = res8 (inb0 m c t) (inb1 m c t) (inb2 m c t) (inb3 m c t) (inb4 m c t) (inb5 m c t) (win0_8.xinj (grid0.coords t) y)
  rw [res8_apply, res8_apply]
  unfold inb0 inb1 inb2 inb3 inb4 inb5
  have e0 : ∀ d, win0_0.fill (grid0.coords t) d (iblk m c 0 t) (win0_8.xinj (grid0.coords t) y) = iblk m c 0 t y :=
    fun d => win0_0.fill_xinj _ d _ y
  have e1 : ∀ d, win0_1.fill (grid0.coords t) d (iblk m c 1 t) (win0_8.xinj (grid0.coords t) y) = iblk m c 1 t y :=
    fun d => win0_1.fill_xinj _ d _ y
  have e2 : ∀ d, win0_2.fill (grid0.coords t) d (iblk m c 2 t) (win0_8.xinj (grid0.coords t) y) = iblk m c 2 t y :=
    fun d => win0_2.fill_xinj _ d _ y
  have e3 : ∀ d, win0_3.fill (grid0.coords t) d (iblk m c 3 t) (win0_8.xinj (grid0.coords t) y) = iblk m c 3 t y :=
    fun d => win0_3.fill_xinj _ d _ y
  have e4 : ∀ d, win0_4.fill (grid0.coords t) d (iblk m c 4 t) (win0_8.xinj (grid0.coords t) y) = iblk m c 4 t y :=
    fun d => win0_4.fill_xinj _ d _ y
  have e5 : ∀ d, win0_5.fill (grid0.coords t) d (iblk m c 5 t) (win0_8.xinj (grid0.coords t) y) = iblk m c 5 t y :=
    fun d => win0_5.fill_xinj _ d _ y
  rw [e0, e0, e1, e1, e2, e2, e3, e3, e4, e4, e5, e5]

/-- On the rows the write-back moves, result 9 depends only on the rows the fetches landed: the fillers drop out
    (the ten windows have one block shape, one index map and arrays of one extent, so they cut alike). -/
theorem cut_res9 (c : Dev nD) (t : Fin cfg0.N) (d0 d1 d2 d3 d4 d5 : S1568x128.Idx → Elt F .f32) :
    win0_9.cut (grid0.coords t) (res9 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)))
      = win0_9.cut (grid0.coords t) (res9 (inb0 m c t) (inb1 m c t) (inb2 m c t) (inb3 m c t) (inb4 m c t) (inb5 m c t)) := by
  funext y
  show res9 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_9.xinj (grid0.coords t) y) = res9 (inb0 m c t) (inb1 m c t) (inb2 m c t) (inb3 m c t) (inb4 m c t) (inb5 m c t) (win0_9.xinj (grid0.coords t) y)
  rw [res9_apply, res9_apply]
  unfold inb0 inb1 inb2 inb3 inb4 inb5
  have e0 : ∀ d, win0_0.fill (grid0.coords t) d (iblk m c 0 t) (win0_9.xinj (grid0.coords t) y) = iblk m c 0 t y :=
    fun d => win0_0.fill_xinj _ d _ y
  have e1 : ∀ d, win0_1.fill (grid0.coords t) d (iblk m c 1 t) (win0_9.xinj (grid0.coords t) y) = iblk m c 1 t y :=
    fun d => win0_1.fill_xinj _ d _ y
  have e2 : ∀ d, win0_2.fill (grid0.coords t) d (iblk m c 2 t) (win0_9.xinj (grid0.coords t) y) = iblk m c 2 t y :=
    fun d => win0_2.fill_xinj _ d _ y
  have e3 : ∀ d, win0_3.fill (grid0.coords t) d (iblk m c 3 t) (win0_9.xinj (grid0.coords t) y) = iblk m c 3 t y :=
    fun d => win0_3.fill_xinj _ d _ y
  have e4 : ∀ d, win0_4.fill (grid0.coords t) d (iblk m c 4 t) (win0_9.xinj (grid0.coords t) y) = iblk m c 4 t y :=
    fun d => win0_4.fill_xinj _ d _ y
  have e5 : ∀ d, win0_5.fill (grid0.coords t) d (iblk m c 5 t) (win0_9.xinj (grid0.coords t) y) = iblk m c 5 t y :=
    fun d => win0_5.fill_xinj _ d _ y
  rw [e0, e0, e1, e1, e2, e2, e3, e3, e4, e4, e5, e5]

/-! ## The body obligation -/

set_option maxHeartbeats 2000000 in
/-- At every point: the inputs' buffers arrive holding their blocks filled out with anything, the results' holding
    anything; the body leaves the inputs' as they were and the results' at its function of the six; on the rows the
    transfers move that is what the proof data names, which is all a clipped window's obligation asks. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, before_7 m c t d7, before_8 m c t d8, before_9 m c t d9]
  iapply (sound_kernel (F := F) c Set.univ (grid0.coords t) _ _ _ _ _ _ _ _ _ _ _ _ _ _ _ _ _ _ _ _
    (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) ((dats m 0 c).after 0 t)))
    rw [after_0, show win0_0.cut (grid0.coords t) (inb0 m c t) = iblk m c 0 t from win0_0.cut_fill _ _ _]
    try iexact H0
  isplitl [H1]
  · iexists d1
    change _ ⊢ owns (c : Thread nD τ) (st0_1 t) fullShare (win0_1.fill (grid0.coords t) d1 (win0_1.cut (grid0.coords t) ((dats m 0 c).after 1 t)))
    rw [after_1, show win0_1.cut (grid0.coords t) (inb1 m c t) = iblk m c 1 t from win0_1.cut_fill _ _ _]
    try iexact H1
  isplitl [H2]
  · iexists d2
    change _ ⊢ owns (c : Thread nD τ) (st0_2 t) fullShare (win0_2.fill (grid0.coords t) d2 (win0_2.cut (grid0.coords t) ((dats m 0 c).after 2 t)))
    rw [after_2, show win0_2.cut (grid0.coords t) (inb2 m c t) = iblk m c 2 t from win0_2.cut_fill _ _ _]
    try iexact H2
  isplitl [H3]
  · iexists d3
    change _ ⊢ owns (c : Thread nD τ) (st0_3 t) fullShare (win0_3.fill (grid0.coords t) d3 (win0_3.cut (grid0.coords t) ((dats m 0 c).after 3 t)))
    rw [after_3, show win0_3.cut (grid0.coords t) (inb3 m c t) = iblk m c 3 t from win0_3.cut_fill _ _ _]
    try iexact H3
  isplitl [H4]
  · iexists d4
    change _ ⊢ owns (c : Thread nD τ) (st0_4 t) fullShare (win0_4.fill (grid0.coords t) d4 (win0_4.cut (grid0.coords t) ((dats m 0 c).after 4 t)))
    rw [after_4, show win0_4.cut (grid0.coords t) (inb4 m c t) = iblk m c 4 t from win0_4.cut_fill _ _ _]
    try iexact H4
  isplitl [H5]
  · iexists d5
    change _ ⊢ owns (c : Thread nD τ) (st0_5 t) fullShare (win0_5.fill (grid0.coords t) d5 (win0_5.cut (grid0.coords t) ((dats m 0 c).after 5 t)))
    rw [after_5, show win0_5.cut (grid0.coords t) (inb5 m c t) = iblk m c 5 t from win0_5.cut_fill _ _ _]
    try iexact H5
  isplitl [H6]
  · iexists res6 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))
    change _ ⊢ owns (c : Thread nD τ) (st0_6 t) fullShare (win0_6.fill (grid0.coords t) (res6 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))) (win0_6.cut (grid0.coords t) ((dats m 0 c).after 6 t)))
    rw [after_6, win0_6.fill_congr_cut _ (cut_res6 m c t d0 d1 d2 d3 d4 d5)]
    try iexact H6
  isplitl [H7]
  · iexists res7 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))
    change _ ⊢ owns (c : Thread nD τ) (st0_7 t) fullShare (win0_7.fill (grid0.coords t) (res7 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))) (win0_7.cut (grid0.coords t) ((dats m 0 c).after 7 t)))
    rw [after_7, win0_7.fill_congr_cut _ (cut_res7 m c t d0 d1 d2 d3 d4 d5)]
    try iexact H7
  isplitl [H8]
  · iexists res8 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))
    change _ ⊢ owns (c : Thread nD τ) (st0_8 t) fullShare (win0_8.fill (grid0.coords t) (res8 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))) (win0_8.cut (grid0.coords t) ((dats m 0 c).after 8 t)))
    rw [after_8, win0_8.fill_congr_cut _ (cut_res8 m c t d0 d1 d2 d3 d4 d5)]
    try iexact H8
  · iexists res9 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))
    change _ ⊢ owns (c : Thread nD τ) (st0_9 t) fullShare (win0_9.fill (grid0.coords t) (res9 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))) (win0_9.cut (grid0.coords t) ((dats m 0 c).after 9 t)))
    rw [after_9, win0_9.fill_congr_cut _ (cut_res9 m c t d0 d1 d2 d3 d4 d5)]
    try iexact H9

/-! ## The run and the frame -/

set_option backward.isDefEq.respectTransparency.types false in
/-- For any values, from any memory with zero counters: every weakly fair execution of @main terminates, every array of
    the pipeline ends at what the write-backs of the proof data leave, and every other unscoped buffer at what the host
    operations after the kernel compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.KBodyBits.lean ====
/-
  The message kernel's pipeline on one TensorCore: what its body computes, the proof data of its ten windows, the
  body's obligation at every grid point, and the run of @main around it.

  The kernel is pointwise: at each of the 1568 x 128 positions of a block it reads one word of each of the six input
  buffers (source magnitude and angle, destination magnitude and angle, resistance, reactance) and writes one word to
  each of the four result buffers. The arrays have 12500 rows and the blocks 1568, so the eighth block overhangs the
  arrays by 44 rows: its fetch lands 1524 rows and leaves the buffer's tail at words nothing names, the body computes
  on those too, and the write-back moves only the 1524 rows inside. Because the body is pointwise, what it leaves on the
  rows that ARE moved depends only on the rows that were fetched: that is all the obligation of a clipped window states.
-/
import proofs.«428348_j773094113348_2_alg».proof.Proof.Gen.Kernel.Frame
import proofs.«428348_j773094113348_2_alg».proof.Proof.Gen.Kernel.Skeleton
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## One position of a block -/

section Word
variable (vms vas vmd vad r x : F .f32)

/-- The degree-to-radian word and the zero word, as the body spells them. -/
def wDeg : F .f32 := Scalar.ofBits .f32 0x3C8EFA35#32
def wZero : F .f32 := Scalar.ofBits .f32 0x00000000#32

def wDen : F .f32 := FloatOps.addf (FloatOps.mulf r r) (FloatOps.mulf x x)
/-- r / (r² + x²) and (0 - x) / (r² + x²) -/
def wG : F .f32 := FloatOps.divf r (wDen r x)
def wB : F .f32 := FloatOps.divf (FloatOps.subf (wZero (F := F)) x) (wDen r x)
/-- vm cos(va · deg), vm sin(va · deg) at the two ends -/
def wEs : F .f32 := FloatOps.mulf vms (FloatOps.cos (FloatOps.mulf vas (wDeg (F := F))))
def wFs : F .f32 := FloatOps.mulf vms (FloatOps.sin (FloatOps.mulf vas (wDeg (F := F))))
def wEd : F .f32 := FloatOps.mulf vmd (FloatOps.cos (FloatOps.mulf vad (wDeg (F := F))))
def wFd : F .f32 := FloatOps.mulf vmd (FloatOps.sin (FloatOps.mulf vad (wDeg (F := F))))
/-- f_s e_d - e_s f_d -/
def wCross : F .f32 := FloatOps.subf (FloatOps.mulf (wFs vms vas) (wEd vmd vad)) (FloatOps.mulf (wEs vms vas) (wFd vmd vad))
/-- e_s e_d - e_s² + f_s f_d - f_s² -/
def wDotS : F .f32 :=
  FloatOps.subf (FloatOps.addf (FloatOps.subf (FloatOps.mulf (wEs vms vas) (wEd vmd vad)) (FloatOps.mulf (wEs vms vas) (wEs vms vas)))
    (FloatOps.mulf (wFs vms vas) (wFd vmd vad))) (FloatOps.mulf (wFs vms vas) (wFs vms vas))
/-- e_s e_d - e_d² + f_s f_d - f_d² -/
def wDotD : F .f32 :=
  FloatOps.subf (FloatOps.addf (FloatOps.subf (FloatOps.mulf (wEs vms vas) (wEd vmd vad)) (FloatOps.mulf (wEd vmd vad) (wEd vmd vad)))
    (FloatOps.mulf (wFs vms vas) (wFd vmd vad))) (FloatOps.mulf (wFd vmd vad) (wFd vmd vad))

/-- The four words stored: the flows assigned to the source end, then to the destination end. -/
def w6 : F .f32 := FloatOps.addf (FloatOps.mulf (wG r x) (wDotS vms vas vmd vad)) (FloatOps.mulf (wB r x) (wCross vms vas vmd vad))
def w7 : F .f32 := FloatOps.subf (FloatOps.mulf (wG r x) (wCross vms vas vmd vad)) (FloatOps.mulf (wB r x) (wDotS vms vas vmd vad))
def w8 : F .f32 := FloatOps.subf (FloatOps.mulf (wG r x) (wDotD vms vas vmd vad)) (FloatOps.mulf (wB r x) (wCross vms vas vmd vad))
def w9 : F .f32 :=
  FloatOps.subf (FloatOps.mulf (FloatOps.subf (wZero (F := F)) (wG r x)) (wCross vms vas vmd vad)) (FloatOps.mulf (wB r x) (wDotD vms vas vmd vad))
end Word

/-! ## A whole block -/

section Block
variable (x0 x1 x2 x3 x4 x5 : Vec F S1568x128 .f32)

/-- What the body stores into each result buffer, from the six input buffers' contents: the skeleton's payloads composed. -/
def res6 : Vec F S1568x128 .f32 :=
  k0_pay2 (k0_pay13 x4 x5) (k0_pay14 x4 x5) (k0_pay21 x0 x1 x2 x3) (k0_pay22 x0 x1 x2 x3)
def res7 : Vec F S1568x128 .f32 :=
  k0_pay3 (k0_pay13 x4 x5) (k0_pay14 x4 x5) (k0_pay21 x0 x1 x2 x3) (k0_pay22 x0 x1 x2 x3)
def res8 : Vec F S1568x128 .f32 :=
  k0_pay4 (k0_pay13 x4 x5) (k0_pay14 x4 x5) (k0_pay18 x2 x3) (k0_pay21 x0 x1 x2 x3) (k0_pay23 x0 x1 x2 x3)
def res9 : Vec F S1568x128 .f32 :=
  k0_pay5 (k0_pay13 x4 x5) (k0_pay14 x4 x5) (k0_pay18 x2 x3) (k0_pay21 x0 x1 x2 x3) (k0_pay23 x0 x1 x2 x3)

/-- Each is pointwise: at position `j` it is the word function of the six buffers' words at `j` (a shape cast between
    equal shapes is the identity; every other operation of the body acts position by position). -/
theorem res6_apply (j : S1568x128.Idx) : res6 x0 x1 x2 x3 x4 x5 j = w6 (x0 j) (x1 j) (x2 j) (x3 j) (x4 j) (x5 j) := by
  unfold res6 k0_pay2 k0_pay13 k0_pay14 k0_pay21 k0_pay22 k0_pay20 k0_pay19 k0_pay18 k0_pay17 k0_pay16 k0_pay15 k0_pay12 k0_pay11
    k0_pay10 k0_pay9 k0_pay8 k0_pay7 k0_pay6
  simp only [shapeCast_self]
  rfl
theorem res7_apply (j : S1568x128.Idx) : res7 x0 x1 x2 x3 x4 x5 j = w7 (x0 j) (x1 j) (x2 j) (x3 j) (x4 j) (x5 j) := by
  unfold res7 k0_pay3 k0_pay13 k0_pay14 k0_pay21 k0_pay22 k0_pay20 k0_pay19 k0_pay18 k0_pay17 k0_pay16 k0_pay15 k0_pay12 k0_pay11
    k0_pay10 k0_pay9 k0_pay8 k0_pay7 k0_pay6
  simp only [shapeCast_self]
  rfl
theorem res8_apply (j : S1568x128.Idx) : res8 x0 x1 x2 x3 x4 x5 j = w8 (x0 j) (x1 j) (x2 j) (x3 j) (x4 j) (x5 j) := by
  unfold res8 k0_pay4 k0_pay1 k0_pay13 k0_pay14 k0_pay21 k0_pay23 k0_pay20 k0_pay19 k0_pay18 k0_pay17 k0_pay16 k0_pay15 k0_pay12 k0_pay11
    k0_pay10 k0_pay9 k0_pay8 k0_pay7 k0_pay6
  simp only [shapeCast_self]
  rfl
theorem res9_apply (j : S1568x128.Idx) : res9 x0 x1 x2 x3 x4 x5 j = w9 (x0 j) (x1 j) (x2 j) (x3 j) (x4 j) (x5 j) := by
  unfold res9 k0_pay5 k0_pay1 k0_pay13 k0_pay14 k0_pay21 k0_pay23 k0_pay20 k0_pay19 k0_pay18 k0_pay17 k0_pay16 k0_pay15 k0_pay12 k0_pay11
    k0_pay10 k0_pay9 k0_pay8 k0_pay7 k0_pay6
  simp only [shapeCast_self]
  rfl
end Block

/-! ## The body's triple -/

set_option maxHeartbeats 4000000 in
/-- The body on ten whole staging memrefs — the six inputs' at contents `x0 … x5`, the four results' at anything —
    runs to the inputs' as they were and the results' at `res6 … res9` of the inputs' contents: six whole loads, the
    arithmetic, and for each result a whole load nothing reads and a whole store. -/
theorem sound_kernel (c : Dev nD) (E : Set ℕ) (i : grid0.Coords) (arg1 : Memref sig .tc .vmem S1568x128 .f32) (harg1 : arg1.IsWhole) (arg2 : Memref sig .tc .vmem S1568x128 .f32) (harg2 : arg2.IsWhole) (arg3 : Memref sig .tc .vmem S1568x128 .f32) (harg3 : arg3.IsWhole) (arg4 : Memref sig .tc .vmem S1568x128 .f32) (harg4 : arg4.IsWhole) (arg5 : Memref sig .tc .vmem S1568x128 .f32) (harg5 : arg5.IsWhole) (arg6 : Memref sig .tc .vmem S1568x128 .f32) (harg6 : arg6.IsWhole) (arg7 : Memref sig .tc .vmem S1568x128 .f32) (harg7 : arg7.IsWhole) (arg8 : Memref sig .tc .vmem S1568x128 .f32) (harg8 : arg8.IsWhole) (arg9 : Memref sig .tc .vmem S1568x128 .f32) (harg9 : arg9.IsWhole) (arg10 : Memref sig .tc .vmem S1568x128 .f32) (harg10 : arg10.IsWhole)
    (x0 x1 x2 x3 x4 x5 : Vec F S1568x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (res6 x0 x1 x2 x3 x4 x5) ∗ owns (c : Thread nD τ) arg8 fullShare (res7 x0 x1 x2 x3 x4 x5)
            ∗ owns (c : Thread nD τ) arg9 fullShare (res8 x0 x1 x2 x3 x4 x5) ∗ owns (c : Thread nD τ) arg10 fullShare (res9 x0 x1 x2 x3 x4 x5)) -∗ K ⟨⟩))
      ⊢ wp frame (wpE (defs₀ (F := F)) Variants.none c none) E (cc0__msg_kernel i arg1 harg1 arg2 harg2 arg3 harg3 arg4 harg4 arg5 harg5 arg6 harg6 arg7 harg7 arg8 harg8 arg9 harg9 arg10 harg10) K := by
  simp only [cc0__msg_kernel_eq_skeleton]; unfold cc0__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  have hz : (![0, 0] : Fin 2 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.mem_singleton_self _, View.mem_set_unit_zero hz inb_S1568x128_S1568x128_0_0 y⟩)]
    sl_unfold_words
    rw [View.canon_unit_zero hz]
    unfold res6
    simp only [View.readAt_eq_ld, harg1.read_unread, harg2.read_unread, harg3.read_unread, harg4.read_unread, harg5.read_unread,
      harg6.read_unread, View.ld_unit_zero (S := S1568x128) hz]
  isplitl [H7]
  · iexists _; isplitr
    swap; · iexact H7
    ipureintro
    rw [View.read_writes_eq_canon _ _ _ (fun y => ⟨_, List.mem_singleton_self _, View.mem_set_unit_zero hz inb_S1568x128_S1568x128_0_0 y⟩)]
    sl_unfold_words
    rw [View.canon_unit_zero hz]
    unfold res7
    simp only [View.readAt_eq_ld, harg1.read_unread, harg2.read_unread, harg3.read_unread, harg4.read_unread, harg5.read_unread,
      harg6.read_unread, View.ld_unit_zero (S := S1568x128) hz]
  isplitl [H8]
  · iexists _; isplitr
    swap; · iexact H8
    ipureintro
    rw [View.read_writes_eq_canon _ _ _ (fun y => ⟨_, List.mem_singleton_self _, View.mem_set_unit_zero hz inb_S1568x128_S1568x128_0_0 y⟩)]
    sl_unfold_words
    rw [View.canon_unit_zero hz]
    unfold res8
    simp only [View.readAt_eq_ld, harg1.read_unread, harg2.read_unread, harg3.read_unread, harg4.read_unread, harg5.read_unread,
      harg6.read_unread, View.ld_unit_zero (S := S1568x128) hz]
  · iexists _; isplitr
    swap; · iexact H9
    ipureintro
    rw [View.read_writes_eq_canon _ _ _ (fun y => ⟨_, List.mem_singleton_self _, View.mem_set_unit_zero hz inb_S1568x128_S1568x128_0_0 y⟩)]
    sl_unfold_words
    rw [View.canon_unit_zero hz]
    unfold res9
    simp only [View.readAt_eq_ld, harg1.read_unread, harg2.read_unread, harg3.read_unread, harg4.read_unread, harg5.read_unread,
      harg6.read_unread, View.ld_unit_zero (S := S1568x128) hz]

/-! ## The proof data -/

variable (m : (ℓ : Loc nD τ sig) → Buf (Elt F) ℓ) (ρ : Dev nD → PrngReg)

/-- Input window `k`'s block at point `t` as the fetch reads it, filled out to the buffer's size with the zero word on
    the rows past the array's end (rows no write-back moves and no obligation states). -/
def inb0 (c : Dev nD) (t : Fin cfg0.N) : S1568x128.Idx → Elt F .f32 :=
  win0_0.fill (grid0.coords t) (fun _ => Scalar.ofBits .f32 0#32) (iblk m c 0 t)
def inb1 (c : Dev nD) (t : Fin cfg0.N) : S1568x128.Idx → Elt F .f32 :=
  win0_1.fill (grid0.coords t) (fun _ => Scalar.ofBits .f32 0#32) (iblk m c 1 t)
def inb2 (c : Dev nD) (t : Fin cfg0.N) : S1568x128.Idx → Elt F .f32 :=
  win0_2.fill (grid0.coords t) (fun _ => Scalar.ofBits .f32 0#32) (iblk m c 2 t)
def inb3 (c : Dev nD) (t : Fin cfg0.N) : S1568x128.Idx → Elt F .f32 :=
  win0_3.fill (grid0.coords t) (fun _ => Scalar.ofBits .f32 0#32) (iblk m c 3 t)
def inb4 (c : Dev nD) (t : Fin cfg0.N) : S1568x128.Idx → Elt F .f32 :=
  win0_4.fill (grid0.coords t) (fun _ => Scalar.ofBits .f32 0#32) (iblk m c 4 t)
def inb5 (c : Dev nD) (t : Fin cfg0.N) : S1568x128.Idx → Elt F .f32 :=
  win0_5.fill (grid0.coords t) (fun _ => Scalar.ofBits .f32 0#32) (iblk m c 5 t)

/-- The proof data of the pipeline on core `c`: the arrays as the region finds them; after the body at point `t` each
    input's buffer at its filled block and each result's at the body's function of the six; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inb0 m c t
    | ⟨1, _⟩ => inb1 m c t
    | ⟨2, _⟩ => inb2 m c t
    | ⟨3, _⟩ => inb3 m c t
    | ⟨4, _⟩ => inb4 m c t
    | ⟨5, _⟩ => inb5 m c t
    | ⟨6, _⟩ => res6 (inb0 m c t) (inb1 m c t) (inb2 m c t) (inb3 m c t) (inb4 m c t) (inb5 m c t)
    | ⟨7, _⟩ => res7 (inb0 m c t) (inb1 m c t) (inb2 m c t) (inb3 m c t) (inb4 m c t) (inb5 m c t)
    | ⟨8, _⟩ => res8 (inb0 m c t) (inb1 m c t) (inb2 m c t) (inb3 m c t) (inb4 m c t) (inb5 m c t)
    | ⟨9, _⟩ => res9 (inb0 m c t) (inb1 m c t) (inb2 m c t) (inb3 m c t) (inb4 m c t) (inb5 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = inb0 m c t := by dsimp only [dats]
theorem after_1 (c : Dev nD) (t : Fin cfg0.N) : (dats m 0 c).after 1 t = inb1 m c t := by dsimp only [dats]
theorem after_2 (c : Dev nD) (t : Fin cfg0.N) : (dats m 0 c).after 2 t = inb2 m c t := by dsimp only [dats]
theorem after_3 (c : Dev nD) (t : Fin cfg0.N) : (dats m 0 c).after 3 t = inb3 m c t := by dsimp only [dats]
theorem after_4 (c : Dev nD) (t : Fin cfg0.N) : (dats m 0 c).after 4 t = inb4 m c t := by dsimp only [dats]
theorem after_5 (c : Dev nD) (t : Fin cfg0.N) : (dats m 0 c).after 5 t = inb5 m c t := by dsimp only [dats]
theorem after_6 (c : Dev nD) (t : Fin cfg0.N) : (dats m 0 c).after 6 t = res6 (inb0 m c t) (inb1 m c t) (inb2 m c t) (inb3 m c t) (inb4 m c t) (inb5 m c t) := by dsimp only [dats]
theorem after_7 (c : Dev nD) (t : Fin cfg0.N) : (dats m 0 c).after 7 t = res7 (inb0 m c t) (inb1 m c t) (inb2 m c t) (inb3 m c t) (inb4 m c t) (inb5 m c t) := by dsimp only [dats]
theorem after_8 (c : Dev nD) (t : Fin cfg0.N) : (dats m 0 c).after 8 t = res8 (inb0 m c t) (inb1 m c t) (inb2 m c t) (inb3 m c t) (inb4 m c t) (inb5 m c t) := by dsimp only [dats]
theorem after_9 (c : Dev nD) (t : Fin cfg0.N) : (dats m 0 c).after 9 t = res9 (inb0 m c t) (inb1 m c t) (inb2 m c t) (inb3 m c t) (inb4 m c t) (inb5 m c t) := by dsimp only [dats]

/-- What the body finds: each input's buffer just fetched — its block on the rows inside the array, `d` elsewhere —, -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf
  rw [A_eq]
  rfl
theorem before_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf
  rw [A_eq]
  rfl
theorem before_2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf
  rw [A_eq]
  rfl
theorem before_3 (c : Dev nD) (t : Fin cfg0.N) (d) :
    (dats m 0 c).before 3 t d = win0_3.fill (grid0.coords t) d (iblk m c 3 t) := by
  rw [(dats m 0 c).before_fetched 3 t (fetch0_3 t) d]
  unfold Dat.fetched Dat.blockOf
  rw [A_eq]
  rfl
theorem before_4 (c : Dev nD) (t : Fin cfg0.N) (d) :
    (dats m 0 c).before 4 t d = win0_4.fill (grid0.coords t) d (iblk m c 4 t) := by
  rw [(dats m 0 c).before_fetched 4 t (fetch0_4 t) d]
  unfold Dat.fetched Dat.blockOf
  rw [A_eq]
  rfl
theorem before_5 (c : Dev nD) (t : Fin cfg0.N) (d) :
    (dats m 0 c).before 5 t d = win0_5.fill (grid0.coords t) d (iblk m c 5 t) := by
  rw [(dats m 0 c).before_fetched 5 t (fetch0_5 t) d]
  unfold Dat.fetched Dat.blockOf
  rw [A_eq]
  rfl
/-- each result's buffer at contents nothing names (every point writes the previous one's back). -/
theorem before_6 (c : Dev nD) (t : Fin cfg0.N) (d) : (dats m 0 c).before 6 t d = d :=
  (dats m 0 c).before_out_reset 6 rfl t
    (if h : t.val = 0 then .inl h else .inr ⟨h, flush0_6 _⟩) d
theorem before_7 (c : Dev nD) (t : Fin cfg0.N) (d) : (dats m 0 c).before 7 t d = d :=
  (dats m 0 c).before_out_reset 7 rfl t
    (if h : t.val = 0 then .inl h else .inr ⟨h, flush0_7 _⟩) d
theorem before_8 (c : Dev nD) (t : Fin cfg0.N) (d) : (dats m 0 c).before 8 t d = d :=
  (dats m 0 c).before_out_reset 8 rfl t
    (if h : t.val = 0 then .inl h else .inr ⟨h, flush0_8 _⟩) d
theorem before_9 (c : Dev nD) (t : Fin cfg0.N) (d) : (dats m 0 c).before 9 t d = d :=
  (dats m 0 c).before_out_reset 9 rfl t
    (if h : t.val = 0 then .inl h else .inr ⟨h, flush0_9 _⟩) d

/-! ## Clipped blocks: what the fillers cannot reach -/

/-- On the rows the write-back moves, result 6 depends only on the rows the fetches landed: the fillers drop out
    (the ten windows have one block shape, one index map and arrays of one extent, so they cut alike). -/
theorem cut_res6 (c : Dev nD) (t : Fin cfg0.N) (d0 d1 d2 d3 d4 d5 : S1568x128.Idx → Elt F .f32) :
    win0_6.cut (grid0.coords t) (res6 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)))
      = win0_6.cut (grid0.coords t) (res6 (inb0 m c t) (inb1 m c t) (inb2 m c t) (inb3 m c t) (inb4 m c t) (inb5 m c t)) := by
  funext y
  show res6 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.xinj (grid0.coords t) y) = res6 (inb0 m c t) (inb1 m c t) (inb2 m c t) (inb3 m c t) (inb4 m c t) (inb5 m c t) (win0_6.xinj (grid0.coords t) y)
  rw [res6_apply, res6_apply]
  unfold inb0 inb1 inb2 inb3 inb4 inb5
  have e0 : ∀ d, win0_0.fill (grid0.coords t) d (iblk m c 0 t) (win0_6.xinj (grid0.coords t) y) = iblk m c 0 t y :=
    fun d => win0_0.fill_xinj _ d _ y
  have e1 : ∀ d, win0_1.fill (grid0.coords t) d (iblk m c 1 t) (win0_6.xinj (grid0.coords t) y) = iblk m c 1 t y :=
    fun d => win0_1.fill_xinj _ d _ y
  have e2 : ∀ d, win0_2.fill (grid0.coords t) d (iblk m c 2 t) (win0_6.xinj (grid0.coords t) y) = iblk m c 2 t y :=
    fun d => win0_2.fill_xinj _ d _ y
  have e3 : ∀ d, win0_3.fill (grid0.coords t) d (iblk m c 3 t) (win0_6.xinj (grid0.coords t) y) = iblk m c 3 t y :=
    fun d => win0_3.fill_xinj _ d _ y
  have e4 : ∀ d, win0_4.fill (grid0.coords t) d (iblk m c 4 t) (win0_6.xinj (grid0.coords t) y) = iblk m c 4 t y :=
    fun d => win0_4.fill_xinj _ d _ y
  have e5 : ∀ d, win0_5.fill (grid0.coords t) d (iblk m c 5 t) (win0_6.xinj (grid0.coords t) y) = iblk m c 5 t y :=
    fun d => win0_5.fill_xinj _ d _ y
  rw [e0, e0, e1, e1, e2, e2, e3, e3, e4, e4, e5, e5]

/-- On the rows the write-back moves, result 7 depends only on the rows the fetches landed: the fillers drop out
    (the ten windows have one block shape, one index map and arrays of one extent, so they cut alike). -/
theorem cut_res7 (c : Dev nD) (t : Fin cfg0.N) (d0 d1 d2 d3 d4 d5 : S1568x128.Idx → Elt F .f32) :
    win0_7.cut (grid0.coords t) (res7 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)))
      = win0_7.cut (grid0.coords t) (res7 (inb0 m c t) (inb1 m c t) (inb2 m c t) (inb3 m c t) (inb4 m c t) (inb5 m c t)) := by
  funext y
  show res7 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_7.xinj (grid0.coords t) y) = res7 (inb0 m c t) (inb1 m c t) (inb2 m c t) (inb3 m c t) (inb4 m c t) (inb5 m c t) (win0_7.xinj (grid0.coords t) y)
  rw [res7_apply, res7_apply]
  unfold inb0 inb1 inb2 inb3 inb4 inb5
  have e0 : ∀ d, win0_0.fill (grid0.coords t) d (iblk m c 0 t) (win0_7.xinj (grid0.coords t) y) = iblk m c 0 t y :=
    fun d => win0_0.fill_xinj _ d _ y
  have e1 : ∀ d, win0_1.fill (grid0.coords t) d (iblk m c 1 t) (win0_7.xinj (grid0.coords t) y) = iblk m c 1 t y :=
    fun d => win0_1.fill_xinj _ d _ y
  have e2 : ∀ d, win0_2.fill (grid0.coords t) d (iblk m c 2 t) (win0_7.xinj (grid0.coords t) y) = iblk m c 2 t y :=
    fun d => win0_2.fill_xinj _ d _ y
  have e3 : ∀ d, win0_3.fill (grid0.coords t) d (iblk m c 3 t) (win0_7.xinj (grid0.coords t) y) = iblk m c 3 t y :=
    fun d => win0_3.fill_xinj _ d _ y
  have e4 : ∀ d, win0_4.fill (grid0.coords t) d (iblk m c 4 t) (win0_7.xinj (grid0.coords t) y) = iblk m c 4 t y :=
    fun d => win0_4.fill_xinj _ d _ y
  have e5 : ∀ d, win0_5.fill (grid0.coords t) d (iblk m c 5 t) (win0_7.xinj (grid0.coords t) y) = iblk m c 5 t y :=
    fun d => win0_5.fill_xinj _ d _ y
  rw [e0, e0, e1, e1, e2, e2, e3, e3, e4, e4, e5, e5]

/-- On the rows the write-back moves, result 8 depends only on the rows the fetches landed: the fillers drop out
    (the ten windows have one block shape, one index map and arrays of one extent, so they cut alike). -/
theorem cut_res8 (c : Dev nD) (t : Fin cfg0.N) (d0 d1 d2 d3 d4 d5 : S1568x128.Idx → Elt F .f32) :
    win0_8.cut (grid0.coords t) (res8 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)))
      = win0_8.cut (grid0.coords t) (res8 (inb0 m c t) (inb1 m c t) (inb2 m c t) (inb3 m c t) (inb4 m c t) (inb5 m c t)) := by
  funext y
  show res8 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_8.xinj (grid0.coords t) y) = res8 (inb0 m c t) (inb1 m c t) (inb2 m c t) (inb3 m c t) (inb4 m c t) (inb5 m c t) (win0_8.xinj (grid0.coords t) y)
  rw [res8_apply, res8_apply]
  unfold inb0 inb1 inb2 inb3 inb4 inb5
  have e0 : ∀ d, win0_0.fill (grid0.coords t) d (iblk m c 0 t) (win0_8.xinj (grid0.coords t) y) = iblk m c 0 t y :=
    fun d => win0_0.fill_xinj _ d _ y
  have e1 : ∀ d, win0_1.fill (grid0.coords t) d (iblk m c 1 t) (win0_8.xinj (grid0.coords t) y) = iblk m c 1 t y :=
    fun d => win0_1.fill_xinj _ d _ y
  have e2 : ∀ d, win0_2.fill (grid0.coords t) d (iblk m c 2 t) (win0_8.xinj (grid0.coords t) y) = iblk m c 2 t y :=
    fun d => win0_2.fill_xinj _ d _ y
  have e3 : ∀ d, win0_3.fill (grid0.coords t) d (iblk m c 3 t) (win0_8.xinj (grid0.coords t) y) = iblk m c 3 t y :=
    fun d => win0_3.fill_xinj _ d _ y
  have e4 : ∀ d, win0_4.fill (grid0.coords t) d (iblk m c 4 t) (win0_8.xinj (grid0.coords t) y) = iblk m c 4 t y :=
    fun d => win0_4.fill_xinj _ d _ y
  have e5 : ∀ d, win0_5.fill (grid0.coords t) d (iblk m c 5 t) (win0_8.xinj (grid0.coords t) y) = iblk m c 5 t y :=
    fun d => win0_5.fill_xinj _ d _ y
  rw [e0, e0, e1, e1, e2, e2, e3, e3, e4, e4, e5, e5]

/-- On the rows the write-back moves, result 9 depends only on the rows the fetches landed: the fillers drop out
    (the ten windows have one block shape, one index map and arrays of one extent, so they cut alike). -/
theorem cut_res9 (c : Dev nD) (t : Fin cfg0.N) (d0 d1 d2 d3 d4 d5 : S1568x128.Idx → Elt F .f32) :
    win0_9.cut (grid0.coords t) (res9 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)))
      = win0_9.cut (grid0.coords t) (res9 (inb0 m c t) (inb1 m c t) (inb2 m c t) (inb3 m c t) (inb4 m c t) (inb5 m c t)) := by
  funext y
  show res9 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_9.xinj (grid0.coords t) y) = res9 (inb0 m c t) (inb1 m c t) (inb2 m c t) (inb3 m c t) (inb4 m c t) (inb5 m c t) (win0_9.xinj (grid0.coords t) y)
  rw [res9_apply, res9_apply]
  unfold inb0 inb1 inb2 inb3 inb4 inb5
  have e0 : ∀ d, win0_0.fill (grid0.coords t) d (iblk m c 0 t) (win0_9.xinj (grid0.coords t) y) = iblk m c 0 t y :=
    fun d => win0_0.fill_xinj _ d _ y
  have e1 : ∀ d, win0_1.fill (grid0.coords t) d (iblk m c 1 t) (win0_9.xinj (grid0.coords t) y) = iblk m c 1 t y :=
    fun d => win0_1.fill_xinj _ d _ y
  have e2 : ∀ d, win0_2.fill (grid0.coords t) d (iblk m c 2 t) (win0_9.xinj (grid0.coords t) y) = iblk m c 2 t y :=
    fun d => win0_2.fill_xinj _ d _ y
  have e3 : ∀ d, win0_3.fill (grid0.coords t) d (iblk m c 3 t) (win0_9.xinj (grid0.coords t) y) = iblk m c 3 t y :=
    fun d => win0_3.fill_xinj _ d _ y
  have e4 : ∀ d, win0_4.fill (grid0.coords t) d (iblk m c 4 t) (win0_9.xinj (grid0.coords t) y) = iblk m c 4 t y :=
    fun d => win0_4.fill_xinj _ d _ y
  have e5 : ∀ d, win0_5.fill (grid0.coords t) d (iblk m c 5 t) (win0_9.xinj (grid0.coords t) y) = iblk m c 5 t y :=
    fun d => win0_5.fill_xinj _ d _ y
  rw [e0, e0, e1, e1, e2, e2, e3, e3, e4, e4, e5, e5]

/-! ## The body obligation -/

set_option maxHeartbeats 2000000 in
/-- At every point: the inputs' buffers arrive holding their blocks filled out with anything, the results' holding
    anything; the body leaves the inputs' as they were and the results' at its function of the six; on the rows the
    transfers move that is what the proof data names, which is all a clipped window's obligation asks. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, before_7 m c t d7, before_8 m c t d8, before_9 m c t d9]
  iapply (sound_kernel (F := F) c Set.univ (grid0.coords t) _ _ _ _ _ _ _ _ _ _ _ _ _ _ _ _ _ _ _ _
    (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) ((dats m 0 c).after 0 t)))
    rw [after_0, show win0_0.cut (grid0.coords t) (inb0 m c t) = iblk m c 0 t from win0_0.cut_fill _ _ _]
    try iexact H0
  isplitl [H1]
  · iexists d1
    change _ ⊢ owns (c : Thread nD τ) (st0_1 t) fullShare (win0_1.fill (grid0.coords t) d1 (win0_1.cut (grid0.coords t) ((dats m 0 c).after 1 t)))
    rw [after_1, show win0_1.cut (grid0.coords t) (inb1 m c t) = iblk m c 1 t from win0_1.cut_fill _ _ _]
    try iexact H1
  isplitl [H2]
  · iexists d2
    change _ ⊢ owns (c : Thread nD τ) (st0_2 t) fullShare (win0_2.fill (grid0.coords t) d2 (win0_2.cut (grid0.coords t) ((dats m 0 c).after 2 t)))
    rw [after_2, show win0_2.cut (grid0.coords t) (inb2 m c t) = iblk m c 2 t from win0_2.cut_fill _ _ _]
    try iexact H2
  isplitl [H3]
  · iexists d3
    change _ ⊢ owns (c : Thread nD τ) (st0_3 t) fullShare (win0_3.fill (grid0.coords t) d3 (win0_3.cut (grid0.coords t) ((dats m 0 c).after 3 t)))
    rw [after_3, show win0_3.cut (grid0.coords t) (inb3 m c t) = iblk m c 3 t from win0_3.cut_fill _ _ _]
    try iexact H3
  isplitl [H4]
  · iexists d4
    change _ ⊢ owns (c : Thread nD τ) (st0_4 t) fullShare (win0_4.fill (grid0.coords t) d4 (win0_4.cut (grid0.coords t) ((dats m 0 c).after 4 t)))
    rw [after_4, show win0_4.cut (grid0.coords t) (inb4 m c t) = iblk m c 4 t from win0_4.cut_fill _ _ _]
    try iexact H4
  isplitl [H5]
  · iexists d5
    change _ ⊢ owns (c : Thread nD τ) (st0_5 t) fullShare (win0_5.fill (grid0.coords t) d5 (win0_5.cut (grid0.coords t) ((dats m 0 c).after 5 t)))
    rw [after_5, show win0_5.cut (grid0.coords t) (inb5 m c t) = iblk m c 5 t from win0_5.cut_fill _ _ _]
    try iexact H5
  isplitl [H6]
  · iexists res6 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))
    change _ ⊢ owns (c : Thread nD τ) (st0_6 t) fullShare (win0_6.fill (grid0.coords t) (res6 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))) (win0_6.cut (grid0.coords t) ((dats m 0 c).after 6 t)))
    rw [after_6, win0_6.fill_congr_cut _ (cut_res6 m c t d0 d1 d2 d3 d4 d5)]
    try iexact H6
  isplitl [H7]
  · iexists res7 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))
    change _ ⊢ owns (c : Thread nD τ) (st0_7 t) fullShare (win0_7.fill (grid0.coords t) (res7 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))) (win0_7.cut (grid0.coords t) ((dats m 0 c).after 7 t)))
    rw [after_7, win0_7.fill_congr_cut _ (cut_res7 m c t d0 d1 d2 d3 d4 d5)]
    try iexact H7
  isplitl [H8]
  · iexists res8 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))
    change _ ⊢ owns (c : Thread nD τ) (st0_8 t) fullShare (win0_8.fill (grid0.coords t) (res8 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))) (win0_8.cut (grid0.coords t) ((dats m 0 c).after 8 t)))
    rw [after_8, win0_8.fill_congr_cut _ (cut_res8 m c t d0 d1 d2 d3 d4 d5)]
    try iexact H8
  · iexists res9 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))
    change _ ⊢ owns (c : Thread nD τ) (st0_9 t) fullShare (win0_9.fill (grid0.coords t) (res9 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t))) (win0_9.cut (grid0.coords t) ((dats m 0 c).after 9 t)))
    rw [after_9, win0_9.fill_congr_cut _ (cut_res9 m c t d0 d1 d2 d3 d4 d5)]
    try iexact H9

/-! ## The run and the frame -/

set_option backward.isDefEq.respectTransparency.types false in
/-- For any values, from any memory with zero counters: every weakly fair execution of @main terminates, every array of
    the pipeline ends at what the write-backs of the proof data leave, and every other unscoped buffer at what the host
    operations after the kernel compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.KCover.lean ====
/-
  Where the blocks of the ten windows sit in their 12500 × 128 arrays.

  Each window cuts its array into eight blocks of 1568 rows, all 128 lanes wide; block t starts at row 1568 t. Eight such
  blocks span 12544 rows, so the last one overhangs the array by 44 rows and only its first 1524 rows are moved.
  Hence element (y₀, y₁) of the moved part of block t is the array's element (1568 t + y₀, y₁), and it is inside the
  array: for t < 7 because 1568 t + 1568 ≤ 10976, for t = 7 because 10976 + 1524 = 12500 (`read_blk_k`).
  Conversely row r of the array lies in block r / 1568: 1568 (r / 1568) ≤ r < 1568 (r / 1568) + 1568, and for
  r / 1568 = 7 also r < 12500 = 10976 + 1524. Every point writes its block of a result window back, so every element of
  a result array is written (`cover_w`).
-/
import proofs.«428348_j773094113348_2_alg».proof.Proof.Gen.KernelIdeal.Frame
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.TcCoe Idealize.ShloMosaic.ValueIdx

variable {F : FTy → Type} [FloatOps F]

/-! ## The three arguments, each written once

Every window has its own index types, so each statement is made window by window; the arguments do not change. They
take the window `w`, its decided geometry `g` (block index (t, 0), moved lanes 128, moved rows 1524 at t = 7 and 1568
before), and the point and index in hand. -/

/-- A moved row of block `t` is a row of the array: `y₀ < 1568` and `t ≤ 6`, or `y₀ < 1524` and `t = 7`. -/
local macro "row_bound " w:term:max g:term:max t:term:max y:term:max : tactic => `(tactic| (
  have ht : Fin.val $t < 8 := lt_of_lt_of_eq (Fin.isLt $t) N_0
  have hy : Fin.val ($y (0 : Fin 2)) < ($w).xsize (grid0.coords $t) (0 : Fin 2) := Fin.isLt ($y (0 : Fin 2))
  rw [(($g) $t).2.2.2] at hy
  by_cases h7 : Fin.val $t = 7
  · rw [if_pos h7] at hy; omega
  · rw [if_neg h7] at hy; omega))

/-- A moved lane is one of the 128. -/
local macro "lane_bound " w:term:max g:term:max t:term:max y:term:max : tactic => `(tactic| (
  have hy : Fin.val ($y (1 : Fin 2)) < ($w).xsize (grid0.coords $t) (1 : Fin 2) := Fin.isLt ($y (1 : Fin 2))
  rwa [(($g) $t).2.2.1] at hy))

/-- The block's rectangle starts at (1568 t, 0) with unit strides: coordinate by coordinate, block index times block
    size plus the index's own coordinate. -/
local macro "blk_emb " w:term:max g:term:max t:term:max y:term:max : tactic => `(tactic| (
  funext a
  apply Fin.ext
  match a with
  | ⟨0, _⟩ =>
    show ((($w).rect $t).emb $y (0 : Fin 2) : Nat) = 1568 * Fin.val $t + Fin.val ($y (0 : Fin 2))
    rw [($w).rect_emb_val $t $y (0 : Fin 2), (($g) $t).1]
    show (Fin.val $t) * 1568 + Fin.val ($y (0 : Fin 2)) = 1568 * (Fin.val $t) + Fin.val ($y (0 : Fin 2))
    omega
  | ⟨1, _⟩ =>
    show ((($w).rect $t).emb $y (1 : Fin 2) : Nat) = Fin.val ($y (1 : Fin 2))
    rw [($w).rect_emb_val $t $y (1 : Fin 2), (($g) $t).2.1]
    show 0 * 128 + Fin.val ($y (1 : Fin 2)) = Fin.val ($y (1 : Fin 2))
    omega))

/-- Row `r` of the array is among the moved rows of block `r / 1568`, every lane is among its lanes, and that point
    writes back (`fl`); `b` is the window's array. -/
local macro "blk_cover " w:term:max g:term:max fl:term:max b:term:max i:term:max : tactic => `(tactic| (
  have hi0 : Fin.val ($i (0 : Fin 2)) < 12500 := Fin.isLt ($i (0 : Fin 2))
  have hi1 : Fin.val ($i (1 : Fin 2)) < 128 := Fin.isLt ($i (1 : Fin 2))
  obtain ⟨t, htv⟩ : ∃ t : Fin cfg0.N, Fin.val t = Fin.val ($i (0 : Fin 2)) / 1568 :=
    ⟨⟨Fin.val ($i (0 : Fin 2)) / 1568, lt_of_lt_of_eq (show Fin.val ($i (0 : Fin 2)) / 1568 < 8 by omega) N_0.symm⟩, rfl⟩
  refine ⟨t, $fl t, ?_⟩
  show $i ∈ ((View.whole $b).slice (($w).rect t)).set
  rw [View.set_slice_whole, Rect.mem_set_unit]
  intro a
  match a with
  | ⟨0, _⟩ =>
    show ($w).index t (0 : Fin 2) * 1568 ≤ Fin.val ($i (0 : Fin 2))
      ∧ Fin.val ($i (0 : Fin 2)) < ($w).index t (0 : Fin 2) * 1568 + ($w).xsize (grid0.coords t) (0 : Fin 2)
    rw [(($g) t).1, (($g) t).2.2.2]
    by_cases h7 : Fin.val t = 7
    · rw [if_pos h7]; omega
    · rw [if_neg h7]; omega
  | ⟨1, _⟩ =>
    show ($w).index t (1 : Fin 2) * 128 ≤ Fin.val ($i (1 : Fin 2))
      ∧ Fin.val ($i (1 : Fin 2)) < ($w).index t (1 : Fin 2) * 128 + ($w).xsize (grid0.coords t) (1 : Fin 2)
    rw [(($g) t).2.1, (($g) t).2.2.1]
    omega))

/-! ## Window 0 -/

theorem geom_0 : ∀ t : Fin grid0.N, win0_0.index t (0 : Fin 2) = t.val ∧ win0_0.index t (1 : Fin 2) = 0
    ∧ win0_0.xsize (grid0.coords t) (1 : Fin 2) = 128
    ∧ win0_0.xsize (grid0.coords t) (0 : Fin 2) = if t.val = 7 then 1524 else 1568 := by decide +kernel
theorem row_lt_0 (t : Fin cfg0.N) (y : (win0_0.xblock (grid0.coords t)).Idx) :
    1568 * t.val + (y (0 : Fin 2)).val < 12500 := by row_bound win0_0 geom_0 t y
theorem lane_lt_0 (t : Fin cfg0.N) (y : (win0_0.xblock (grid0.coords t)).Idx) : (y (1 : Fin 2)).val < 128 := by
  lane_bound win0_0 geom_0 t y
theorem read_blk_0 (G : S12500x128.Idx → Elt F .f32) (t : Fin cfg0.N) (y : (win0_0.xblock (grid0.coords t)).Idx) :
    (win0_0.blk t).view.read (Elt F) G y
      = G (ix2 ⟨1568 * t.val + (y (0 : Fin 2)).val, row_lt_0 t y⟩ ⟨(y (1 : Fin 2)).val, lane_lt_0 t y⟩) := by
  have he : (win0_0.rect t).emb y
      = ix2 ⟨1568 * t.val + (y (0 : Fin 2)).val, row_lt_0 t y⟩ ⟨(y (1 : Fin 2)).val, lane_lt_0 t y⟩ := by
    blk_emb win0_0 geom_0 t y
  show G ((win0_0.rect t).emb y) = _
  rw [he]

/-! ## Window 1 -/

theorem geom_1 : ∀ t : Fin grid0.N, win0_1.index t (0 : Fin 2) = t.val ∧ win0_1.index t (1 : Fin 2) = 0
    ∧ win0_1.xsize (grid0.coords t) (1 : Fin 2) = 128
    ∧ win0_1.xsize (grid0.coords t) (0 : Fin 2) = if t.val = 7 then 1524 else 1568 := by decide +kernel
theorem row_lt_1 (t : Fin cfg0.N) (y : (win0_1.xblock (grid0.coords t)).Idx) :
    1568 * t.val + (y (0 : Fin 2)).val < 12500 := by row_bound win0_1 geom_1 t y
theorem lane_lt_1 (t : Fin cfg0.N) (y : (win0_1.xblock (grid0.coords t)).Idx) : (y (1 : Fin 2)).val < 128 := by
  lane_bound win0_1 geom_1 t y
theorem read_blk_1 (G : S12500x128.Idx → Elt F .f32) (t : Fin cfg0.N) (y : (win0_1.xblock (grid0.coords t)).Idx) :
    (win0_1.blk t).view.read (Elt F) G y
      = G (ix2 ⟨1568 * t.val + (y (0 : Fin 2)).val, row_lt_1 t y⟩ ⟨(y (1 : Fin 2)).val, lane_lt_1 t y⟩) := by
  have he : (win0_1.rect t).emb y
      = ix2 ⟨1568 * t.val + (y (0 : Fin 2)).val, row_lt_1 t y⟩ ⟨(y (1 : Fin 2)).val, lane_lt_1 t y⟩ := by
    blk_emb win0_1 geom_1 t y
  show G ((win0_1.rect t).emb y) = _
  rw [he]

/-! ## Window 2 -/

theorem geom_2 : ∀ t : Fin grid0.N, win0_2.index t (0 : Fin 2) = t.val ∧ win0_2.index t (1 : Fin 2) = 0
    ∧ win0_2.xsize (grid0.coords t) (1 : Fin 2) = 128
    ∧ win0_2.xsize (grid0.coords t) (0 : Fin 2) = if t.val = 7 then 1524 else 1568 := by decide +kernel
theorem row_lt_2 (t : Fin cfg0.N) (y : (win0_2.xblock (grid0.coords t)).Idx) :
    1568 * t.val + (y (0 : Fin 2)).val < 12500 := by row_bound win0_2 geom_2 t y
theorem lane_lt_2 (t : Fin cfg0.N) (y : (win0_2.xblock (grid0.coords t)).Idx) : (y (1 : Fin 2)).val < 128 := by
  lane_bound win0_2 geom_2 t y
theorem read_blk_2 (G : S12500x128.Idx → Elt F .f32) (t : Fin cfg0.N) (y : (win0_2.xblock (grid0.coords t)).Idx) :
    (win0_2.blk t).view.read (Elt F) G y
      = G (ix2 ⟨1568 * t.val + (y (0 : Fin 2)).val, row_lt_2 t y⟩ ⟨(y (1 : Fin 2)).val, lane_lt_2 t y⟩) := by
  have he : (win0_2.rect t).emb y
      = ix2 ⟨1568 * t.val + (y (0 : Fin 2)).val, row_lt_2 t y⟩ ⟨(y (1 : Fin 2)).val, lane_lt_2 t y⟩ := by
    blk_emb win0_2 geom_2 t y
  show G ((win0_2.rect t).emb y) = _
  rw [he]

/-! ## Window 3 -/

theorem geom_3 : ∀ t : Fin grid0.N, win0_3.index t (0 : Fin 2) = t.val ∧ win0_3.index t (1 : Fin 2) = 0
    ∧ win0_3.xsize (grid0.coords t) (1 : Fin 2) = 128
    ∧ win0_3.xsize (grid0.coords t) (0 : Fin 2) = if t.val = 7 then 1524 else 1568 := by decide +kernel
theorem row_lt_3 (t : Fin cfg0.N) (y : (win0_3.xblock (grid0.coords t)).Idx) :
    1568 * t.val + (y (0 : Fin 2)).val < 12500 := by row_bound win0_3 geom_3 t y
theorem lane_lt_3 (t : Fin cfg0.N) (y : (win0_3.xblock (grid0.coords t)).Idx) : (y (1 : Fin 2)).val < 128 := by
  lane_bound win0_3 geom_3 t y
theorem read_blk_3 (G : S12500x128.Idx → Elt F .f32) (t : Fin cfg0.N) (y : (win0_3.xblock (grid0.coords t)).Idx) :
    (win0_3.blk t).view.read (Elt F) G y
      = G (ix2 ⟨1568 * t.val + (y (0 : Fin 2)).val, row_lt_3 t y⟩ ⟨(y (1 : Fin 2)).val, lane_lt_3 t y⟩) := by
  have he : (win0_3.rect t).emb y
      = ix2 ⟨1568 * t.val + (y (0 : Fin 2)).val, row_lt_3 t y⟩ ⟨(y (1 : Fin 2)).val, lane_lt_3 t y⟩ := by
    blk_emb win0_3 geom_3 t y
  show G ((win0_3.rect t).emb y) = _
  rw [he]

/-! ## Window 4 -/

theorem geom_4 : ∀ t : Fin grid0.N, win0_4.index t (0 : Fin 2) = t.val ∧ win0_4.index t (1 : Fin 2) = 0
    ∧ win0_4.xsize (grid0.coords t) (1 : Fin 2) = 128
    ∧ win0_4.xsize (grid0.coords t) (0 : Fin 2) = if t.val = 7 then 1524 else 1568 := by decide +kernel
theorem row_lt_4 (t : Fin cfg0.N) (y : (win0_4.xblock (grid0.coords t)).Idx) :
    1568 * t.val + (y (0 : Fin 2)).val < 12500 := by row_bound win0_4 geom_4 t y
theorem lane_lt_4 (t : Fin cfg0.N) (y : (win0_4.xblock (grid0.coords t)).Idx) : (y (1 : Fin 2)).val < 128 := by
  lane_bound win0_4 geom_4 t y
theorem read_blk_4 (G : S12500x128.Idx → Elt F .f32) (t : Fin cfg0.N) (y : (win0_4.xblock (grid0.coords t)).Idx) :
    (win0_4.blk t).view.read (Elt F) G y
      = G (ix2 ⟨1568 * t.val + (y (0 : Fin 2)).val, row_lt_4 t y⟩ ⟨(y (1 : Fin 2)).val, lane_lt_4 t y⟩) := by
  have he : (win0_4.rect t).emb y
      = ix2 ⟨1568 * t.val + (y (0 : Fin 2)).val, row_lt_4 t y⟩ ⟨(y (1 : Fin 2)).val, lane_lt_4 t y⟩ := by
    blk_emb win0_4 geom_4 t y
  show G ((win0_4.rect t).emb y) = _
  rw [he]

/-! ## Window 5 -/

theorem geom_5 : ∀ t : Fin grid0.N, win0_5.index t (0 : Fin 2) = t.val ∧ win0_5.index t (1 : Fin 2) = 0
    ∧ win0_5.xsize (grid0.coords t) (1 : Fin 2) = 128
    ∧ win0_5.xsize (grid0.coords t) (0 : Fin 2) = if t.val = 7 then 1524 else 1568 := by decide +kernel
theorem row_lt_5 (t : Fin cfg0.N) (y : (win0_5.xblock (grid0.coords t)).Idx) :
    1568 * t.val + (y (0 : Fin 2)).val < 12500 := by row_bound win0_5 geom_5 t y
theorem lane_lt_5 (t : Fin cfg0.N) (y : (win0_5.xblock (grid0.coords t)).Idx) : (y (1 : Fin 2)).val < 128 := by
  lane_bound win0_5 geom_5 t y
theorem read_blk_5 (G : S12500x128.Idx → Elt F .f32) (t : Fin cfg0.N) (y : (win0_5.xblock (grid0.coords t)).Idx) :
    (win0_5.blk t).view.read (Elt F) G y
      = G (ix2 ⟨1568 * t.val + (y (0 : Fin 2)).val, row_lt_5 t y⟩ ⟨(y (1 : Fin 2)).val, lane_lt_5 t y⟩) := by
  have he : (win0_5.rect t).emb y
      = ix2 ⟨1568 * t.val + (y (0 : Fin 2)).val, row_lt_5 t y⟩ ⟨(y (1 : Fin 2)).val, lane_lt_5 t y⟩ := by
    blk_emb win0_5 geom_5 t y
  show G ((win0_5.rect t).emb y) = _
  rw [he]

/-! ## Window 6 (result 0) -/

theorem geom_6 : ∀ t : Fin grid0.N, win0_6.index t (0 : Fin 2) = t.val ∧ win0_6.index t (1 : Fin 2) = 0
    ∧ win0_6.xsize (grid0.coords t) (1 : Fin 2) = 128
    ∧ win0_6.xsize (grid0.coords t) (0 : Fin 2) = if t.val = 7 then 1524 else 1568 := by decide +kernel
theorem row_lt_6 (t : Fin cfg0.N) (y : (win0_6.xblock (grid0.coords t)).Idx) :
    1568 * t.val + (y (0 : Fin 2)).val < 12500 := by row_bound win0_6 geom_6 t y
theorem lane_lt_6 (t : Fin cfg0.N) (y : (win0_6.xblock (grid0.coords t)).Idx) : (y (1 : Fin 2)).val < 128 := by
  lane_bound win0_6 geom_6 t y
theorem read_blk_6 (G : S12500x128.Idx → Elt F .f32) (t : Fin cfg0.N) (y : (win0_6.xblock (grid0.coords t)).Idx) :
    (win0_6.blk t).view.read (Elt F) G y
      = G (ix2 ⟨1568 * t.val + (y (0 : Fin 2)).val, row_lt_6 t y⟩ ⟨(y (1 : Fin 2)).val, lane_lt_6 t y⟩) := by
  have he : (win0_6.rect t).emb y
      = ix2 ⟨1568 * t.val + (y (0 : Fin 2)).val, row_lt_6 t y⟩ ⟨(y (1 : Fin 2)).val, lane_lt_6 t y⟩ := by
    blk_emb win0_6 geom_6 t y
  show G ((win0_6.rect t).emb y) = _
  rw [he]
theorem cover_6 (i : S12500x128.Idx) :
    ∃ t : Fin cfg0.N, (cfg0.win 6).flush t = true ∧ i ∈ ((cfg0.win 6).blk t).view.set := by
  blk_cover win0_6 geom_6 flush0_6 main_v30_0 i

/-! ## Window 7 (result 1) -/

theorem geom_7 : ∀ t : Fin grid0.N, win0_7.index t (0 : Fin 2) = t.val ∧ win0_7.index t (1 : Fin 2) = 0
    ∧ win0_7.xsize (grid0.coords t) (1 : Fin 2) = 128
    ∧ win0_7.xsize (grid0.coords t) (0 : Fin 2) = if t.val = 7 then 1524 else 1568 := by decide +kernel
theorem row_lt_7 (t : Fin cfg0.N) (y : (win0_7.xblock (grid0.coords t)).Idx) :
    1568 * t.val + (y (0 : Fin 2)).val < 12500 := by row_bound win0_7 geom_7 t y
theorem lane_lt_7 (t : Fin cfg0.N) (y : (win0_7.xblock (grid0.coords t)).Idx) : (y (1 : Fin 2)).val < 128 := by
  lane_bound win0_7 geom_7 t y
theorem read_blk_7 (G : S12500x128.Idx → Elt F .f32) (t : Fin cfg0.N) (y : (win0_7.xblock (grid0.coords t)).Idx) :
    (win0_7.blk t).view.read (Elt F) G y
      = G (ix2 ⟨1568 * t.val + (y (0 : Fin 2)).val, row_lt_7 t y⟩ ⟨(y (1 : Fin 2)).val, lane_lt_7 t y⟩) := by
  have he : (win0_7.rect t).emb y
      = ix2 ⟨1568 * t.val + (y (0 : Fin 2)).val, row_lt_7 t y⟩ ⟨(y (1 : Fin 2)).val, lane_lt_7 t y⟩ := by
    blk_emb win0_7 geom_7 t y
  show G ((win0_7.rect t).emb y) = _
  rw [he]
theorem cover_7 (i : S12500x128.Idx) :
    ∃ t : Fin cfg0.N, (cfg0.win 7).flush t = true ∧ i ∈ ((cfg0.win 7).blk t).view.set := by
  blk_cover win0_7 geom_7 flush0_7 main_v30_1 i

/-! ## Window 8 (result 2) -/

theorem geom_8 : ∀ t : Fin grid0.N, win0_8.index t (0 : Fin 2) = t.val ∧ win0_8.index t (1 : Fin 2) = 0
    ∧ win0_8.xsize (grid0.coords t) (1 : Fin 2) = 128
    ∧ win0_8.xsize (grid0.coords t) (0 : Fin 2) = if t.val = 7 then 1524 else 1568 := by decide +kernel
theorem row_lt_8 (t : Fin cfg0.N) (y : (win0_8.xblock (grid0.coords t)).Idx) :
    1568 * t.val + (y (0 : Fin 2)).val < 12500 := by row_bound win0_8 geom_8 t y
theorem lane_lt_8 (t : Fin cfg0.N) (y : (win0_8.xblock (grid0.coords t)).Idx) : (y (1 : Fin 2)).val < 128 := by
  lane_bound win0_8 geom_8 t y
theorem read_blk_8 (G : S12500x128.Idx → Elt F .f32) (t : Fin cfg0.N) (y : (win0_8.xblock (grid0.coords t)).Idx) :
    (win0_8.blk t).view.read (Elt F) G y
      = G (ix2 ⟨1568 * t.val + (y (0 : Fin 2)).val, row_lt_8 t y⟩ ⟨(y (1 : Fin 2)).val, lane_lt_8 t y⟩) := by
  have he : (win0_8.rect t).emb y
      = ix2 ⟨1568 * t.val + (y (0 : Fin 2)).val, row_lt_8 t y⟩ ⟨(y (1 : Fin 2)).val, lane_lt_8 t y⟩ := by
    blk_emb win0_8 geom_8 t y
  show G ((win0_8.rect t).emb y) = _
  rw [he]
theorem cover_8 (i : S12500x128.Idx) :
    ∃ t : Fin cfg0.N, (cfg0.win 8).flush t = true ∧ i ∈ ((cfg0.win 8).blk t).view.set := by
  blk_cover win0_8 geom_8 flush0_8 main_v30_2 i

/-! ## Window 9 (result 3) -/

theorem geom_9 : ∀ t : Fin grid0.N, win0_9.index t (0 : Fin 2) = t.val ∧ win0_9.index t (1 : Fin 2) = 0
    ∧ win0_9.xsize (grid0.coords t) (1 : Fin 2) = 128
    ∧ win0_9.xsize (grid0.coords t) (0 : Fin 2) = if t.val = 7 then 1524 else 1568 := by decide +kernel
theorem row_lt_9 (t : Fin cfg0.N) (y : (win0_9.xblock (grid0.coords t)).Idx) :
    1568 * t.val + (y (0 : Fin 2)).val < 12500 := by row_bound win0_9 geom_9 t y
theorem lane_lt_9 (t : Fin cfg0.N) (y : (win0_9.xblock (grid0.coords t)).Idx) : (y (1 : Fin 2)).val < 128 := by
  lane_bound win0_9 geom_9 t y
theorem read_blk_9 (G : S12500x128.Idx → Elt F .f32) (t : Fin cfg0.N) (y : (win0_9.xblock (grid0.coords t)).Idx) :
    (win0_9.blk t).view.read (Elt F) G y
      = G (ix2 ⟨1568 * t.val + (y (0 : Fin 2)).val, row_lt_9 t y⟩ ⟨(y (1 : Fin 2)).val, lane_lt_9 t y⟩) := by
  have he : (win0_9.rect t).emb y
      = ix2 ⟨1568 * t.val + (y (0 : Fin 2)).val, row_lt_9 t y⟩ ⟨(y (1 : Fin 2)).val, lane_lt_9 t y⟩ := by
    blk_emb win0_9 geom_9 t y
  show G ((win0_9.rect t).emb y) = _
  rw [he]
theorem cover_9 (i : S12500x128.Idx) :
    ∃ t : Fin cfg0.N, (cfg0.win 9).flush t = true ∧ i ∈ ((cfg0.win 9).blk t).view.set := by
  blk_cover win0_9 geom_9 flush0_9 main_v30_3 i

end Cert.KernelIdeal.Cover

end
-- ==== Proof.KOut.lean ====
/-
  The four result arrays after the kernel, whole: each is the word function of the six entry arrays position by position.
  What a grid point writes back is the block of that one function at the point (the body is pointwise and a block's
  position (p, q) at point t is the array's position (1568 t + p, q)); the eight blocks, the last cut at row 12500, cover
  the 12500 rows.
-/
import proofs.«428348_j773094113348_2_alg».proof.Proof.KBody
import proofs.«428348_j773094113348_2_alg».proof.Proof.KCover

set_option maxRecDepth 16384

noncomputable section

namespace Cert.KernelIdeal.Out

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- The four results as whole-array functions of the six arrays the kernel is entered with. -/
def G6 (c : Dev nD) : S12500x128.Idx → Elt F .f32 := fun i => w6 (V m c main_v24 i) (V m c main_v25 i) (V m c main_v26 i) (V m c main_v27 i) (V m c main_v28 i) (V m c main_v29 i)
def G7 (c : Dev nD) : S12500x128.Idx → Elt F .f32 := fun i => w7 (V m c main_v24 i) (V m c main_v25 i) (V m c main_v26 i) (V m c main_v27 i) (V m c main_v28 i) (V m c main_v29 i)
def G8 (c : Dev nD) : S12500x128.Idx → Elt F .f32 := fun i => w8 (V m c main_v24 i) (V m c main_v25 i) (V m c main_v26 i) (V m c main_v27 i) (V m c main_v28 i) (V m c main_v29 i)
def G9 (c : Dev nD) : S12500x128.Idx → Elt F .f32 := fun i => w9 (V m c main_v24 i) (V m c main_v25 i) (V m c main_v26 i) (V m c main_v27 i) (V m c main_v28 i) (V m c main_v29 i)

/-- What point `t` writes back of result 6 is its block of one whole-array function: the word function of the six
    entry arrays, position by position. -/
theorem flushed_6 (c : Dev nD) (t : Fin cfg0.N) :
    (dats m 0 c).flushed 6 t = ((cfg0.win 6).blk t).view.read (Elt F) (G6 m c) := by
  funext y
  show (dats m 0 c).after 6 t (win0_6.xinj (grid0.coords t) y) = (win0_6.blk t).view.read (Elt F) (G6 m c) y
  rw [after_6, res6_apply, Cover.read_blk_6]
  unfold inb0 inb1 inb2 inb3 inb4 inb5
  have e0 : win0_0.fill (grid0.coords t) (fun _ => Scalar.ofBits .f32 0#32) (iblk m c 0 t) (win0_6.xinj (grid0.coords t) y)
      = V m c main_v24 (ix2 ⟨1568 * t.val + (y 0).val, Cover.row_lt_6 t y⟩ ⟨(y 1).val, Cover.lane_lt_6 t y⟩) :=
    (win0_0.fill_xinj _ _ _ y).trans (Cover.read_blk_0 (V m c main_v24) t y)
  have e1 : win0_1.fill (grid0.coords t) (fun _ => Scalar.ofBits .f32 0#32) (iblk m c 1 t) (win0_6.xinj (grid0.coords t) y)
      = V m c main_v25 (ix2 ⟨1568 * t.val + (y 0).val, Cover.row_lt_6 t y⟩ ⟨(y 1).val, Cover.lane_lt_6 t y⟩) :=
    (win0_1.fill_xinj _ _ _ y).trans (Cover.read_blk_1 (V m c main_v25) t y)
  have e2 : win0_2.fill (grid0.coords t) (fun _ => Scalar.ofBits .f32 0#32) (iblk m c 2 t) (win0_6.xinj (grid0.coords t) y)
      = V m c main_v26 (ix2 ⟨1568 * t.val + (y 0).val, Cover.row_lt_6 t y⟩ ⟨(y 1).val, Cover.lane_lt_6 t y⟩) :=
    (win0_2.fill_xinj _ _ _ y).trans (Cover.read_blk_2 (V m c main_v26) t y)
  have e3 : win0_3.fill (grid0.coords t) (fun _ => Scalar.ofBits .f32 0#32) (iblk m c 3 t) (win0_6.xinj (grid0.coords t) y)
      = V m c main_v27 (ix2 ⟨1568 * t.val + (y 0).val, Cover.row_lt_6 t y⟩ ⟨(y 1).val, Cover.lane_lt_6 t y⟩) :=
    (win0_3.fill_xinj _ _ _ y).trans (Cover.read_blk_3 (V m c main_v27) t y)
  have e4 : win0_4.fill (grid0.coords t) (fun _ => Scalar.ofBits .f32 0#32) (iblk m c 4 t) (win0_6.xinj (grid0.coords t) y)
      = V m c main_v28 (ix2 ⟨1568 * t.val + (y 0).val, Cover.row_lt_6 t y⟩ ⟨(y 1).val, Cover.lane_lt_6 t y⟩) :=
    (win0_4.fill_xinj _ _ _ y).trans (Cover.read_blk_4 (V m c main_v28) t y)
  have e5 : win0_5.fill (grid0.coords t) (fun _ => Scalar.ofBits .f32 0#32) (iblk m c 5 t) (win0_6.xinj (grid0.coords t) y)
      = V m c main_v29 (ix2 ⟨1568 * t.val + (y 0).val, Cover.row_lt_6 t y⟩ ⟨(y 1).val, Cover.lane_lt_6 t y⟩) :=
    (win0_5.fill_xinj _ _ _ y).trans (Cover.read_blk_5 (V m c main_v29) t y)
  rw [e0, e1, e2, e3, e4, e5]
  rfl

/-- The blocks cover the array, so result 6 ends holding that function. -/
theorem out_6 (c : Dev nD) : (dats m 0 c).arrAt 6 cfg0.N = G6 m c :=
  (dats m 0 c).arrAt_eq_of_cover 6 (G6 m c) (fun t _ => flushed_6 m c t) Cover.cover_6

/-- What point `t` writes back of result 7 is its block of one whole-array function: the word function of the six
    entry arrays, position by position. -/
theorem flushed_7 (c : Dev nD) (t : Fin cfg0.N) :
    (dats m 0 c).flushed 7 t = ((cfg0.win 7).blk t).view.read (Elt F) (G7 m c) := by
  funext y
  show (dats m 0 c).after 7 t (win0_7.xinj (grid0.coords t) y) = (win0_7.blk t).view.read (Elt F) (G7 m c) y
  rw [after_7, res7_apply, Cover.read_blk_7]
  unfold inb0 inb1 inb2 inb3 inb4 inb5
  have e0 : win0_0.fill (grid0.coords t) (fun _ => Scalar.ofBits .f32 0#32) (iblk m c 0 t) (win0_7.xinj (grid0.coords t) y)
      = V m c main_v24 (ix2 ⟨1568 * t.val + (y 0).val, Cover.row_lt_7 t y⟩ ⟨(y 1).val, Cover.lane_lt_7 t y⟩) :=
    (win0_0.fill_xinj _ _ _ y).trans (Cover.read_blk_0 (V m c main_v24) t y)
  have e1 : win0_1.fill (grid0.coords t) (fun _ => Scalar.ofBits .f32 0#32) (iblk m c 1 t) (win0_7.xinj (grid0.coords t) y)
      = V m c main_v25 (ix2 ⟨1568 * t.val + (y 0).val, Cover.row_lt_7 t y⟩ ⟨(y 1).val, Cover.lane_lt_7 t y⟩) :=
    (win0_1.fill_xinj _ _ _ y).trans (Cover.read_blk_1 (V m c main_v25) t y)
  have e2 : win0_2.fill (grid0.coords t) (fun _ => Scalar.ofBits .f32 0#32) (iblk m c 2 t) (win0_7.xinj (grid0.coords t) y)
      = V m c main_v26 (ix2 ⟨1568 * t.val + (y 0).val, Cover.row_lt_7 t y⟩ ⟨(y 1).val, Cover.lane_lt_7 t y⟩) :=
    (win0_2.fill_xinj _ _ _ y).trans (Cover.read_blk_2 (V m c main_v26) t y)
  have e3 : win0_3.fill (grid0.coords t) (fun _ => Scalar.ofBits .f32 0#32) (iblk m c 3 t) (win0_7.xinj (grid0.coords t) y)
      = V m c main_v27 (ix2 ⟨1568 * t.val + (y 0).val, Cover.row_lt_7 t y⟩ ⟨(y 1).val, Cover.lane_lt_7 t y⟩) :=
    (win0_3.fill_xinj _ _ _ y).trans (Cover.read_blk_3 (V m c main_v27) t y)
  have e4 : win0_4.fill (grid0.coords t) (fun _ => Scalar.ofBits .f32 0#32) (iblk m c 4 t) (win0_7.xinj (grid0.coords t) y)
      = V m c main_v28 (ix2 ⟨1568 * t.val + (y 0).val, Cover.row_lt_7 t y⟩ ⟨(y 1).val, Cover.lane_lt_7 t y⟩) :=
    (win0_4.fill_xinj _ _ _ y).trans (Cover.read_blk_4 (V m c main_v28) t y)
  have e5 : win0_5.fill (grid0.coords t) (fun _ => Scalar.ofBits .f32 0#32) (iblk m c 5 t) (win0_7.xinj (grid0.coords t) y)
      = V m c main_v29 (ix2 ⟨1568 * t.val + (y 0).val, Cover.row_lt_7 t y⟩ ⟨(y 1).val, Cover.lane_lt_7 t y⟩) :=
    (win0_5.fill_xinj _ _ _ y).trans (Cover.read_blk_5 (V m c main_v29) t y)
  rw [e0, e1, e2, e3, e4, e5]
  rfl

/-- The blocks cover the array, so result 7 ends holding that function. -/
theorem out_7 (c : Dev nD) : (dats m 0 c).arrAt 7 cfg0.N = G7 m c :=
  (dats m 0 c).arrAt_eq_of_cover 7 (G7 m c) (fun t _ => flushed_7 m c t) Cover.cover_7

/-- What point `t` writes back of result 8 is its block of one whole-array function: the word function of the six
    entry arrays, position by position. -/
theorem flushed_8 (c : Dev nD) (t : Fin cfg0.N) :
    (dats m 0 c).flushed 8 t = ((cfg0.win 8).blk t).view.read (Elt F) (G8 m c) := by
  funext y
  show (dats m 0 c).after 8 t (win0_8.xinj (grid0.coords t) y) = (win0_8.blk t).view.read (Elt F) (G8 m c) y
  rw [after_8, res8_apply, Cover.read_blk_8]
  unfold inb0 inb1 inb2 inb3 inb4 inb5
  have e0 : win0_0.fill (grid0.coords t) (fun _ => Scalar.ofBits .f32 0#32) (iblk m c 0 t) (win0_8.xinj (grid0.coords t) y)
      = V m c main_v24 (ix2 ⟨1568 * t.val + (y 0).val, Cover.row_lt_8 t y⟩ ⟨(y 1).val, Cover.lane_lt_8 t y⟩) :=
    (win0_0.fill_xinj _ _ _ y).trans (Cover.read_blk_0 (V m c main_v24) t y)
  have e1 : win0_1.fill (grid0.coords t) (fun _ => Scalar.ofBits .f32 0#32) (iblk m c 1 t) (win0_8.xinj (grid0.coords t) y)
      = V m c main_v25 (ix2 ⟨1568 * t.val + (y 0).val, Cover.row_lt_8 t y⟩ ⟨(y 1).val, Cover.lane_lt_8 t y⟩) :=
    (win0_1.fill_xinj _ _ _ y).trans (Cover.read_blk_1 (V m c main_v25) t y)
  have e2 : win0_2.fill (grid0.coords t) (fun _ => Scalar.ofBits .f32 0#32) (iblk m c 2 t) (win0_8.xinj (grid0.coords t) y)
      = V m c main_v26 (ix2 ⟨1568 * t.val + (y 0).val, Cover.row_lt_8 t y⟩ ⟨(y 1).val, Cover.lane_lt_8 t y⟩) :=
    (win0_2.fill_xinj _ _ _ y).trans (Cover.read_blk_2 (V m c main_v26) t y)
  have e3 : win0_3.fill (grid0.coords t) (fun _ => Scalar.ofBits .f32 0#32) (iblk m c 3 t) (win0_8.xinj (grid0.coords t) y)
      = V m c main_v27 (ix2 ⟨1568 * t.val + (y 0).val, Cover.row_lt_8 t y⟩ ⟨(y 1).val, Cover.lane_lt_8 t y⟩) :=
    (win0_3.fill_xinj _ _ _ y).trans (Cover.read_blk_3 (V m c main_v27) t y)
  have e4 : win0_4.fill (grid0.coords t) (fun _ => Scalar.ofBits .f32 0#32) (iblk m c 4 t) (win0_8.xinj (grid0.coords t) y)
      = V m c main_v28 (ix2 ⟨1568 * t.val + (y 0).val, Cover.row_lt_8 t y⟩ ⟨(y 1).val, Cover.lane_lt_8 t y⟩) :=
    (win0_4.fill_xinj _ _ _ y).trans (Cover.read_blk_4 (V m c main_v28) t y)
  have e5 : win0_5.fill (grid0.coords t) (fun _ => Scalar.ofBits .f32 0#32) (iblk m c 5 t) (win0_8.xinj (grid0.coords t) y)
      = V m c main_v29 (ix2 ⟨1568 * t.val + (y 0).val, Cover.row_lt_8 t y⟩ ⟨(y 1).val, Cover.lane_lt_8 t y⟩) :=
    (win0_5.fill_xinj _ _ _ y).trans (Cover.read_blk_5 (V m c main_v29) t y)
  rw [e0, e1, e2, e3, e4, e5]
  rfl

/-- The blocks cover the array, so result 8 ends holding that function. -/
theorem out_8 (c : Dev nD) : (dats m 0 c).arrAt 8 cfg0.N = G8 m c :=
  (dats m 0 c).arrAt_eq_of_cover 8 (G8 m c) (fun t _ => flushed_8 m c t) Cover.cover_8

/-- What point `t` writes back of result 9 is its block of one whole-array function: the word function of the six
    entry arrays, position by position. -/
theorem flushed_9 (c : Dev nD) (t : Fin cfg0.N) :
    (dats m 0 c).flushed 9 t = ((cfg0.win 9).blk t).view.read (Elt F) (G9 m c) := by
  funext y
  show (dats m 0 c).after 9 t (win0_9.xinj (grid0.coords t) y) = (win0_9.blk t).view.read (Elt F) (G9 m c) y
  rw [after_9, res9_apply, Cover.read_blk_9]
  unfold inb0 inb1 inb2 inb3 inb4 inb5
  have e0 : win0_0.fill (grid0.coords t) (fun _ => Scalar.ofBits .f32 0#32) (iblk m c 0 t) (win0_9.xinj (grid0.coords t) y)
      = V m c main_v24 (ix2 ⟨1568 * t.val + (y 0).val, Cover.row_lt_9 t y⟩ ⟨(y 1).val, Cover.lane_lt_9 t y⟩) :=
    (win0_0.fill_xinj _ _ _ y).trans (Cover.read_blk_0 (V m c main_v24) t y)
  have e1 : win0_1.fill (grid0.coords t) (fun _ => Scalar.ofBits .f32 0#32) (iblk m c 1 t) (win0_9.xinj (grid0.coords t) y)
      = V m c main_v25 (ix2 ⟨1568 * t.val + (y 0).val, Cover.row_lt_9 t y⟩ ⟨(y 1).val, Cover.lane_lt_9 t y⟩) :=
    (win0_1.fill_xinj _ _ _ y).trans (Cover.read_blk_1 (V m c main_v25) t y)
  have e2 : win0_2.fill (grid0.coords t) (fun _ => Scalar.ofBits .f32 0#32) (iblk m c 2 t) (win0_9.xinj (grid0.coords t) y)
      = V m c main_v26 (ix2 ⟨1568 * t.val + (y 0).val, Cover.row_lt_9 t y⟩ ⟨(y 1).val, Cover.lane_lt_9 t y⟩) :=
    (win0_2.fill_xinj _ _ _ y).trans (Cover.read_blk_2 (V m c main_v26) t y)
  have e3 : win0_3.fill (grid0.coords t) (fun _ => Scalar.ofBits .f32 0#32) (iblk m c 3 t) (win0_9.xinj (grid0.coords t) y)
      = V m c main_v27 (ix2 ⟨1568 * t.val + (y 0).val, Cover.row_lt_9 t y⟩ ⟨(y 1).val, Cover.lane_lt_9 t y⟩) :=
    (win0_3.fill_xinj _ _ _ y).trans (Cover.read_blk_3 (V m c main_v27) t y)
  have e4 : win0_4.fill (grid0.coords t) (fun _ => Scalar.ofBits .f32 0#32) (iblk m c 4 t) (win0_9.xinj (grid0.coords t) y)
      = V m c main_v28 (ix2 ⟨1568 * t.val + (y 0).val, Cover.row_lt_9 t y⟩ ⟨(y 1).val, Cover.lane_lt_9 t y⟩) :=
    (win0_4.fill_xinj _ _ _ y).trans (Cover.read_blk_4 (V m c main_v28) t y)
  have e5 : win0_5.fill (grid0.coords t) (fun _ => Scalar.ofBits .f32 0#32) (iblk m c 5 t) (win0_9.xinj (grid0.coords t) y)
      = V m c main_v29 (ix2 ⟨1568 * t.val + (y 0).val, Cover.row_lt_9 t y⟩ ⟨(y 1).val, Cover.lane_lt_9 t y⟩) :=
    (win0_5.fill_xinj _ _ _ y).trans (Cover.read_blk_5 (V m c main_v29) t y)
  rw [e0, e1, e2, e3, e4, e5]
  rfl

/-- The blocks cover the array, so result 9 ends holding that function. -/
theorem out_9 (c : Dev nD) : (dats m 0 c).arrAt 9 cfg0.N = G9 m c :=
  (dats m 0 c).arrAt_eq_of_cover 9 (G9 m c) (fun t _ => flushed_9 m c t) Cover.cover_9

end Cert.KernelIdeal.Out

end
-- ==== Proof.KTail.lean ====
import proofs.«428348_j773094113348_2_alg».proof.Proof.Gen.KernelIdeal.Frame
import Idealize.ShloMosaic.Lib.StableHlo.Run
import Idealize.ShloMosaic.PureOps.Ideal

/-!
  What the host operations around the region compute, read at `Ideal`: the scalar result as one term over the
  argument arrays, the arrays the region finds, and the region's four result arrays.
-/

set_option maxRecDepth 16384

noncomputable section

namespace Cert.KernelIdeal.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ)

/-- The four result arrays laid out as one `3200000 × 2` table: each array flattened to a column, the columns paired,
    the two pairs stacked. -/
def table (P1 Q1 P2 Q2 : S12500x128.Idx → EReal) : S3200000x2.Idx → EReal :=
  concatenate S3200000x2 0
    [⟨S1600000x2, concatenate S1600000x2 1
        [⟨S1600000x1, broadcastInDim S1600000x1 ![0] bcast_S1600000_S1600000x1_0 (shapeCast S1600000 P1 shapeCasts_S12500x128_S1600000)⟩,
         ⟨S1600000x1, broadcastInDim S1600000x1 ![0] bcast_S1600000_S1600000x1_0 (shapeCast S1600000 Q1 shapeCasts_S12500x128_S1600000)⟩]
        concatenates_S1600000x1_S1600000x1_S1600000x2_d1⟩,
     ⟨S1600000x2, concatenate S1600000x2 1
        [⟨S1600000x1, broadcastInDim S1600000x1 ![0] bcast_S1600000_S1600000x1_0 (shapeCast S1600000 P2 shapeCasts_S12500x128_S1600000)⟩,
         ⟨S1600000x1, broadcastInDim S1600000x1 ![0] bcast_S1600000_S1600000x1_0 (shapeCast S1600000 Q2 shapeCasts_S12500x128_S1600000)⟩]
        concatenates_S1600000x1_S1600000x1_S1600000x2_d1⟩]
    concatenates_S1600000x2_S1600000x2_S3200000x2_d0

/-- The scalar result `½ · (Σ (A0 - A3)²) / 600000 + κ · (Σ_n (dP n² + dQ n²)) / 100000`, `κ` the constant `0x3C23D70A` (the
    format's nearest to `0.01`); `dP`, `dQ` are columns 2, 3 of `XD` minus columns 0, 1 of `AGG`, and `AGG` is the
    scatter-add, into a `100000 × 2` array of zeros, of the rows of `TAB` at the rows `IDX` names. -/
def value (A0 A3 XD : S100000x6.Idx → EReal) (IDX : S3200000.Idx → BitVec 32) (TAB : S3200000x2.Idx → EReal) : S_.Idx → EReal :=
  let AGG : S100000x2.Idx → EReal :=
    Host.scatterAdd (F := Ideal) (φ := .f32) scatter_S100000x2_S3200000x1_S3200000x2_1_0_0_1
      (broadcastInDim S100000x2 ![] bcast_S_S100000x2 (constant (F := Ideal) S_ .f32 0x00000000#32))
      (broadcastInDim S3200000x1 ![0] bcast_S3200000_S3200000x1_0 IDX) TAB
  let dP : S100000.Idx → EReal :=
    addf (F := Ideal) (φ := .f32) (Host.negf (F := Ideal) (φ := .f32) (shapeCast S100000 (extractStridedSlice S100000x1 ![0, 0] AGG slices_S100000x2_S100000x1_0_0) shapeCasts_S100000x1_S100000))
      (shapeCast S100000 (extractStridedSlice S100000x1 ![0, 2] XD slices_S100000x6_S100000x1_0_2) shapeCasts_S100000x1_S100000)
  let dQ : S100000.Idx → EReal :=
    addf (F := Ideal) (φ := .f32) (Host.negf (F := Ideal) (φ := .f32) (shapeCast S100000 (extractStridedSlice S100000x1 ![0, 1] AGG slices_S100000x2_S100000x1_0_1) shapeCasts_S100000x1_S100000))
      (shapeCast S100000 (extractStridedSlice S100000x1 ![0, 3] XD slices_S100000x6_S100000x1_0_3) shapeCasts_S100000x1_S100000)
  addf (F := Ideal) (φ := .f32)
    (mulf (F := Ideal) (φ := .f32) (constant (F := Ideal) S_ .f32 0x3F000000#32)
      (Host.divf (F := Ideal) (φ := .f32)
        (Host.reduceAdd (F := Ideal) (φ := .f32) (mulf (F := Ideal) (φ := .f32) (subf (F := Ideal) (φ := .f32) A0 A3) (subf (F := Ideal) (φ := .f32) A0 A3)) (constant (F := Ideal) S_ .f32 0x00000000#32) reducesTo_S100000x6_S_d0_1 h_S_)
        (constant (F := Ideal) S_ .f32 0x49127C00#32)))
    (mulf (F := Ideal) (φ := .f32) (constant (F := Ideal) S_ .f32 0x3C23D70A#32)
      (Host.divf (F := Ideal) (φ := .f32)
        (Host.reduceAdd (F := Ideal) (φ := .f32) (addf (F := Ideal) (φ := .f32) (mulf (F := Ideal) (φ := .f32) dP dP) (mulf (F := Ideal) (φ := .f32) dQ dQ)) (constant (F := Ideal) S_ .f32 0x00000000#32) reducesTo_S100000_S_d0 h_S_)
        (constant (F := Ideal) S_ .f32 0x47C35000#32)))

/-- A buffer the first stretch of host operations writes and no later one does holds, at the region's entry, what the
    first stretch left there. -/
theorem V_of_first (c : Dev nD) (b : Ref sig .tc)
    (hb : ∀ op ∈ List.flatten [(hostOps0_1 : List (HloOp τ sig (Elt Ideal))), hostOps0_2, hostOps0_3, hostOps0_4, hostOps0_5], Proc.devRef .tc b ∉ op.writes) :
    V m c b = StableHlo.after hostOps0 (fun b => m (c, b)) (Proc.devRef .tc b) := by
  show StableHlo.after (List.flatten [hostOps0, hostOps0_1, hostOps0_2, hostOps0_3, hostOps0_4, hostOps0_5]) (fun b => m (c, b)) (Proc.devRef .tc b) = _
  rw [List.flatten_cons, StableHlo.after_append, StableHlo.after_of_forall_not_mem (b := Proc.devRef .tc b) _ _ hb]

/-- The region finds in `main_v1` row 0 of the index array, flattened. -/
theorem V_v1 (c : Dev nD) : (V m c main_v1 : S1600000.Idx → BitVec 32)
    = shapeCast S1600000 (extractStridedSlice S1x1600000 ![0, 0] (m ((c : Thread nD τ).loc main_arg1)) slices_S2x1600000_S1x1600000_0_0) shapeCasts_S1x1600000_S1600000 := by
  rw [V_of_first m c main_v1 (List.forall_iff_forall_mem.mp (by
      simp only [hostOps0_1, hostOps0_2, hostOps0_3, hostOps0_4, hostOps0_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  after_results
  rfl

/-- The region finds in `main_v3` row 1 of the index array, flattened. -/
theorem V_v3 (c : Dev nD) : (V m c main_v3 : S1600000.Idx → BitVec 32)
    = shapeCast S1600000 (extractStridedSlice S1x1600000 ![1, 0] (m ((c : Thread nD τ).loc main_arg1)) slices_S2x1600000_S1x1600000_1_0) shapeCasts_S1x1600000_S1600000 := by
  rw [V_of_first m c main_v3 (List.forall_iff_forall_mem.mp (by
      simp only [hostOps0_1, hostOps0_2, hostOps0_3, hostOps0_4, hostOps0_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  after_results
  rfl

/-- The region finds in `main_v7` the first argument array scaled and shifted column by column: `arg0 * arg5 + arg4`, the two
    rows broadcast down the array. -/
theorem V_v7 (c : Dev nD) : (V m c main_v7 : S100000x6.Idx → EReal)
    = addf (F := Ideal) (φ := .f32) (mulf (F := Ideal) (φ := .f32) (m ((c : Thread nD τ).loc main_arg0)) (broadcastInDim S100000x6 ![0, 1] bcast_S1x6_S100000x6_0_1 (m ((c : Thread nD τ).loc main_arg5))))
        (broadcastInDim S100000x6 ![0, 1] bcast_S1x6_S100000x6_0_1 (m ((c : Thread nD τ).loc main_arg4))) := by
  rw [V_of_first m c main_v7 (List.forall_iff_forall_mem.mp (by
      simp only [hostOps0_1, hostOps0_2, hostOps0_3, hostOps0_4, hostOps0_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  after_results

/-- A line of host operations run as its first `n` operations, then the rest. -/
theorem after_take_drop (n : ℕ) (ops : List (HloOp τ sig (Elt Ideal))) (W : Valuation τ sig (Elt Ideal)) :
    StableHlo.after ops W = StableHlo.after (ops.drop n) (StableHlo.after (ops.take n) W) := by
  rw [← StableHlo.after_append, List.take_append_drop]

/-- Of the first twelve operations after the region, eleven lay the four result arrays out as the table. -/
theorem first_v41 (W : Valuation τ sig (Elt Ideal)) :
    (StableHlo.after ((hostOps1 : List (HloOp τ sig (Elt Ideal))).take 12) W (Proc.devRef .tc main_v41) : S3200000x2.Idx → EReal)
      = table (W (Proc.devRef .tc main_v30_0)) (W (Proc.devRef .tc main_v30_1)) (W (Proc.devRef .tc main_v30_2)) (W (Proc.devRef .tc main_v30_3)) := by
  simp only [hostOps1, List.take_succ_cons, List.take_zero]
  after_results
  rfl

/-- The twelfth of them stacks the two index rows into one column of `3200000` entries. -/
theorem first_v42 (W : Valuation τ sig (Elt Ideal)) :
    (StableHlo.after ((hostOps1 : List (HloOp τ sig (Elt Ideal))).take 12) W (Proc.devRef .tc main_v42) : S3200000.Idx → BitVec 32)
      = concatenate S3200000 0 [⟨S1600000, W (Proc.devRef .tc main_v1)⟩, ⟨S1600000, W (Proc.devRef .tc main_v3)⟩] concatenates_S1600000_S1600000_S3200000_d0 := by
  simp only [hostOps1, List.take_succ_cons, List.take_zero]
  after_results

/-- None of the first twelve operations writes `main_v7`. -/
theorem first_v7 (W : Valuation τ sig (Elt Ideal)) :
    StableHlo.after ((hostOps1 : List (HloOp τ sig (Elt Ideal))).take 12) W (Proc.devRef .tc main_v7) = W (Proc.devRef .tc main_v7) := by
  simp only [hostOps1, List.take_succ_cons, List.take_zero]
  after_results

/-- None of the first twelve operations writes `main_arg0`. -/
theorem first_arg0 (W : Valuation τ sig (Elt Ideal)) :
    StableHlo.after ((hostOps1 : List (HloOp τ sig (Elt Ideal))).take 12) W (Proc.devRef .tc main_arg0) = W (Proc.devRef .tc main_arg0) := by
  simp only [hostOps1, List.take_succ_cons, List.take_zero]
  after_results

/-- None of the first twelve operations writes `main_arg3`. -/
theorem first_arg3 (W : Valuation τ sig (Elt Ideal)) :
    StableHlo.after ((hostOps1 : List (HloOp τ sig (Elt Ideal))).take 12) W (Proc.devRef .tc main_arg3) = W (Proc.devRef .tc main_arg3) := by
  simp only [hostOps1, List.take_succ_cons, List.take_zero]
  after_results

/-- The operations after the region, from any contents `W`: the result buffer holds `value` of what `W` has at the
    arrays the operations read. -/
theorem tail_of (W : Valuation τ sig (Elt Ideal)) :
    (StableHlo.after hostOps1 W (Proc.devRef .tc main_v69) : S_.Idx → EReal)
      = value (W (Proc.devRef .tc main_arg0)) (W (Proc.devRef .tc main_arg3)) (W (Proc.devRef .tc main_v7))
          (concatenate S3200000 0 [⟨S1600000, W (Proc.devRef .tc main_v1)⟩, ⟨S1600000, W (Proc.devRef .tc main_v3)⟩] concatenates_S1600000_S1600000_S3200000_d0)
          (table (W (Proc.devRef .tc main_v30_0)) (W (Proc.devRef .tc main_v30_1)) (W (Proc.devRef .tc main_v30_2)) (W (Proc.devRef .tc main_v30_3))) := by
  rw [after_take_drop 12]
  have h41 := first_v41 W
  have h42 := first_v42 W
  have h7 := first_v7 W
  have h0 := first_arg0 W
  have h3 := first_arg3 W
  generalize StableHlo.after (List.take 12 hostOps1) W = W' at h41 h42 h7 h0 h3 ⊢
  simp only [hostOps1, List.drop_succ_cons, List.drop_zero]
  after_results_simp
  rw [h41, h42, h7, h0, h3]
  rfl

/-- The core's buffer contents when the region is left: the region's arrays as its proof data have them after the last
    grid point, every other buffer as the region found it. -/
def exit (dats : (p : Fin 1) → (c : Dev nD) → Pipeline.Dat τ (Elt Ideal) Unit ℕ (UR sig nD τ) ℕ (cfgs p) c) (c : Dev nD) : Valuation τ sig (Elt Ideal) :=
  Pipeline.withArrays (cfgs 0).spec c (V0 m c) fun w => (dats 0 c).arrAt w (cfgs 0).N

/-- At the exit the region's result array 0 is what its proof data have after the last grid point. -/
theorem exit_v30_0 (dats : (p : Fin 1) → (c : Dev nD) → Pipeline.Dat τ (Elt Ideal) Unit ℕ (UR sig nD τ) ℕ (cfgs p) c) (c : Dev nD) :
    exit m dats c (Proc.devRef .tc main_v30_0) = (dats 0 c).arrAt 6 cfg0.N :=
  Pipeline.withArrays_arr spec0 launch0.win.arr_inj c _ _ 6

/-- At the exit the region's result array 1 is what its proof data have after the last grid point. -/
theorem exit_v30_1 (dats : (p : Fin 1) → (c : Dev nD) → Pipeline.Dat τ (Elt Ideal) Unit ℕ (UR sig nD τ) ℕ (cfgs p) c) (c : Dev nD) :
    exit m dats c (Proc.devRef .tc main_v30_1) = (dats 0 c).arrAt 7 cfg0.N :=
  Pipeline.withArrays_arr spec0 launch0.win.arr_inj c _ _ 7

/-- At the exit the region's result array 2 is what its proof data have after the last grid point. -/
theorem exit_v30_2 (dats : (p : Fin 1) → (c : Dev nD) → Pipeline.Dat τ (Elt Ideal) Unit ℕ (UR sig nD τ) ℕ (cfgs p) c) (c : Dev nD) :
    exit m dats c (Proc.devRef .tc main_v30_2) = (dats 0 c).arrAt 8 cfg0.N :=
  Pipeline.withArrays_arr spec0 launch0.win.arr_inj c _ _ 8

/-- At the exit the region's result array 3 is what its proof data have after the last grid point. -/
theorem exit_v30_3 (dats : (p : Fin 1) → (c : Dev nD) → Pipeline.Dat τ (Elt Ideal) Unit ℕ (UR sig nD τ) ℕ (cfgs p) c) (c : Dev nD) :
    exit m dats c (Proc.devRef .tc main_v30_3) = (dats 0 c).arrAt 9 cfg0.N :=
  Pipeline.withArrays_arr spec0 launch0.win.arr_inj c _ _ 9

/-- `main_arg0` is no array of the region: at the exit it is as the region found it. -/
theorem exit_arg0 (dats : (p : Fin 1) → (c : Dev nD) → Pipeline.Dat τ (Elt Ideal) Unit ℕ (UR sig nD τ) ℕ (cfgs p) c) (c : Dev nD) :
    exit m dats c (Proc.devRef .tc main_arg0) = V m c main_arg0 :=
  Pipeline.withArrays_of_ne _ c (V0 m c) _ main_arg0 (by exact (by decide : ∀ w, Pipeline.arrRef spec0 w ≠ main_arg0))

/-- `main_arg3` is no array of the region: at the exit it is as the region found it. -/
theorem exit_arg3 (dats : (p : Fin 1) → (c : Dev nD) → Pipeline.Dat τ (Elt Ideal) Unit ℕ (UR sig nD τ) ℕ (cfgs p) c) (c : Dev nD) :
    exit m dats c (Proc.devRef .tc main_arg3) = V m c main_arg3 :=
  Pipeline.withArrays_of_ne _ c (V0 m c) _ main_arg3 (by exact (by decide : ∀ w, Pipeline.arrRef spec0 w ≠ main_arg3))

/-- `main_v7` is no array of the region: at the exit it is as the region found it. -/
theorem exit_v7 (dats : (p : Fin 1) → (c : Dev nD) → Pipeline.Dat τ (Elt Ideal) Unit ℕ (UR sig nD τ) ℕ (cfgs p) c) (c : Dev nD) :
    exit m dats c (Proc.devRef .tc main_v7) = V m c main_v7 :=
  Pipeline.withArrays_of_ne _ c (V0 m c) _ main_v7 (by exact (by decide : ∀ w, Pipeline.arrRef spec0 w ≠ main_v7))

/-- `main_v1` is no array of the region: at the exit it is as the region found it. -/
theorem exit_v1 (dats : (p : Fin 1) → (c : Dev nD) → Pipeline.Dat τ (Elt Ideal) Unit ℕ (UR sig nD τ) ℕ (cfgs p) c) (c : Dev nD) :
    exit m dats c (Proc.devRef .tc main_v1) = V m c main_v1 :=
  Pipeline.withArrays_of_ne _ c (V0 m c) _ main_v1 (by exact (by decide : ∀ w, Pipeline.arrRef spec0 w ≠ main_v1))

/-- `main_v3` is no array of the region: at the exit it is as the region found it. -/
theorem exit_v3 (dats : (p : Fin 1) → (c : Dev nD) → Pipeline.Dat τ (Elt Ideal) Unit ℕ (UR sig nD τ) ℕ (cfgs p) c) (c : Dev nD) :
    exit m dats c (Proc.devRef .tc main_v3) = V m c main_v3 :=
  Pipeline.withArrays_of_ne _ c (V0 m c) _ main_v3 (by exact (by decide : ∀ w, Pipeline.arrRef spec0 w ≠ main_v3))

set_option maxHeartbeats 1000000 in
/-- The host operations after the region, run from the region's exit, leave `value` in the result buffer: of the
    argument arrays as launched, of the arrays the region found, and of the region's four result arrays as it left them. -/
theorem tail_eq (dats : (p : Fin 1) → (c : Dev nD) → Pipeline.Dat τ (Elt Ideal) Unit ℕ (UR sig nD τ) ℕ (cfgs p) c) (c : Dev nD) :
    Pipeline.afterTail₀ cfgs dats 0 (V0 m) [hostOps1] c main_v69
      = value (m ((c : Thread nD τ).loc main_arg0)) (m ((c : Thread nD τ).loc main_arg3)) (V m c main_v7)
          (concatenate S3200000 0 [⟨S1600000, V m c main_v1⟩, ⟨S1600000, V m c main_v3⟩] concatenates_S1600000_S1600000_S3200000_d0)
          (table ((dats 0 c).arrAt 6 cfg0.N) ((dats 0 c).arrAt 7 cfg0.N) ((dats 0 c).arrAt 8 cfg0.N) ((dats 0 c).arrAt 9 cfg0.N)) := by
  unfold Pipeline.afterTail₀
  show StableHlo.after hostOps1 (exit m dats c) (Proc.devRef .tc main_v69) = _
  rw [tail_of, exit_v30_0, exit_v30_1, exit_v30_2, exit_v30_3, exit_arg0, exit_arg3, exit_v7, exit_v1, exit_v3,
    V_main_arg0 m c, V_main_arg3 m c]

end Cert.KernelIdeal.Tail

end
-- ==== Proof.Spec.lean ====
/-
  The power-flow message of one branch, as scalars on the extended reals, in the two arrangements the two programs
  compute it in, and the arrays both are read at.

  A branch k joins node s = src k to node d = dst k. With g + jb the branch admittance and e + jf the rectangular
  voltage at a node (magnitude vm, angle va in degrees), the flow assigned to end i, seen from end j, is
    P = g (e_i e_j - e_i² + f_i f_j - f_i²) + b (f_i e_j - e_i f_j)
    Q = g (f_i e_j - e_i f_j) + b (-e_i e_j + e_i² - f_i f_j + f_i²).
  One program evaluates both directions of a branch from shared cross terms (`sendP`, `sendQ`, `recvP`, `recvQ`),
  the other evaluates `flowP` / `flowQ` once per direction.
-/
import Idealize.ShloMosaic.PureOps.Ideal
import Idealize.ShloMosaic.Lib.ValueIdx

noncomputable section

namespace Cert.Spec

open Idealize.ShloMosaic Idealize.ShloMosaic.ValueIdx

/-- The degree-to-radian factor: one f32 word, the same in both programs. -/
def deg : EReal := Ideal.ofBits .f32 0x3C8EFA35#32
/-- The zero word. -/
def zero : EReal := Ideal.ofBits .f32 0x00000000#32

/-! ## One direction at a time -/

/-- Conductance g = r / (r² + x²). -/
def cond (r x : EReal) : EReal := Ideal.div r (r * r + x * x)
/-- Susceptance b = -x / (r² + x²). -/
def susc (r x : EReal) : EReal := Ideal.div (-x) (r * r + x * x)
/-- Real part e = vm cos(deg · va). -/
def re (vm va : EReal) : EReal := vm * Ideal.cos (deg * va)
/-- Imaginary part f = vm sin(deg · va). -/
def im (vm va : EReal) : EReal := vm * Ideal.sin (deg * va)
/-- Active flow at end i seen from end j. -/
def flowP (g b ei fi ej fj : EReal) : EReal :=
  g * (((ei * ej - ei * ei) + fi * fj) - fi * fi) + b * (fi * ej - ei * fj)
/-- Reactive flow at end i seen from end j. -/
def flowQ (g b ei fi ej fj : EReal) : EReal :=
  g * (fi * ej - ei * fj) + b * ((((-ei) * ej + ei * ei) - fi * fj) + fi * fi)

/-! ## Both directions from shared cross terms -/

section Shared
variable (vms vas vmd vad r x : EReal)

def den : EReal := r * r + x * x
def g' : EReal := Ideal.div r (den r x)
def b' : EReal := Ideal.div (zero - x) (den r x)
def es : EReal := vms * Ideal.cos (vas * deg)
def fs : EReal := vms * Ideal.sin (vas * deg)
def ed : EReal := vmd * Ideal.cos (vad * deg)
def fd : EReal := vmd * Ideal.sin (vad * deg)
/-- f_s e_d - e_s f_d -/
def cross : EReal := fs vms vas * ed vmd vad - es vms vas * fd vmd vad
/-- e_s e_d - e_s² + f_s f_d - f_s² -/
def dotS : EReal :=
  ((es vms vas * ed vmd vad - es vms vas * es vms vas) + fs vms vas * fd vmd vad) - fs vms vas * fs vms vas
/-- e_s e_d - e_d² + f_s f_d - f_d² -/
def dotD : EReal :=
  ((es vms vas * ed vmd vad - ed vmd vad * ed vmd vad) + fs vms vas * fd vmd vad) - fd vmd vad * fd vmd vad

/-- Active flow assigned to the source end. -/
def sendP : EReal := g' r x * dotS vms vas vmd vad + b' r x * cross vms vas vmd vad
/-- Reactive flow assigned to the source end. -/
def sendQ : EReal := g' r x * cross vms vas vmd vad - b' r x * dotS vms vas vmd vad
/-- Active flow assigned to the destination end. -/
def recvP : EReal := g' r x * dotD vms vas vmd vad - b' r x * cross vms vas vmd vad
/-- Reactive flow assigned to the destination end. -/
def recvQ : EReal := (zero - g' r x) * cross vms vas vmd vad - b' r x * dotD vms vas vmd vad
end Shared

/-! ## The arrays -/

section Arrays
variable (A0 : (⟨2, ![100000, 6]⟩ : Shape).Idx → EReal) (A1 : (⟨2, ![2, 1600000]⟩ : Shape).Idx → BitVec 32)
  (A2 : (⟨2, ![1600000, 2]⟩ : Shape).Idx → EReal) (A4 A5 : (⟨2, ![1, 6]⟩ : Shape).Idx → EReal)
  (A6 A7 : (⟨2, ![1, 2]⟩ : Shape).Idx → EReal)

/-- Node features de-normalized: x · std + mean, column by column. -/
def xd (n : Fin 100000) (j : Fin 6) : EReal := A0 (ix2 n j) * A5 (ix2 0 j) + A4 (ix2 0 j)
/-- Branch features de-normalized. -/
def ea (k : Fin 1600000) (j : Fin 2) : EReal := A2 (ix2 k j) * A7 (ix2 0 j) + A6 (ix2 0 j)
/-- The node at end `s` of branch `k` (end 0 the source, end 1 the destination), read signed and kept inside the table. -/
def node (s : Fin 2) (k : Fin 1600000) : Fin 100000 := ⟨min (A1 (ix2 s k)).toInt.toNat 99999, by omega⟩

/-- Row `k`, column `col` of the 3,200,000 × 2 table of messages: rows below 1,600,000 are the flows assigned to the
    source end of branch `k`, the others those assigned to the destination end of branch `k - 1,600,000`; column 0 the
    active flow, column 1 the reactive. -/
def msg (k : Fin 3200000) (col : Fin 2) : EReal :=
  if h : k.val < 1600000 then
    (if col = 0 then sendP else sendQ)
      (xd A0 A4 A5 (node A1 0 ⟨k.val, h⟩) 0) (xd A0 A4 A5 (node A1 0 ⟨k.val, h⟩) 1)
      (xd A0 A4 A5 (node A1 1 ⟨k.val, h⟩) 0) (xd A0 A4 A5 (node A1 1 ⟨k.val, h⟩) 1)
      (ea A2 A6 A7 ⟨k.val, h⟩ 0) (ea A2 A6 A7 ⟨k.val, h⟩ 1)
  else
    (if col = 0 then recvP else recvQ)
      (xd A0 A4 A5 (node A1 0 ⟨k.val - 1600000, by omega⟩) 0) (xd A0 A4 A5 (node A1 0 ⟨k.val - 1600000, by omega⟩) 1)
      (xd A0 A4 A5 (node A1 1 ⟨k.val - 1600000, by omega⟩) 0) (xd A0 A4 A5 (node A1 1 ⟨k.val - 1600000, by omega⟩) 1)
      (ea A2 A6 A7 ⟨k.val - 1600000, by omega⟩ 0) (ea A2 A6 A7 ⟨k.val - 1600000, by omega⟩ 1)
end Arrays

end Cert.Spec

end
-- ==== Proof.KernelEntry.lean ====
/-
  What the kernel is given. Before the kernel runs the program de-normalizes the node and the branch features
  (x · std + mean, column by column), reads the two ends of every branch, takes the first two node-feature columns at
  each end — an index below zero moved up by the table's length, the position then kept inside the table, and
  not-a-number put where the moved index is still outside — and arranges the six vectors of 1,600,000 entries as
  12500 rows of 128 lanes. With every end inside the node table the move is the identity and no entry is replaced,
  so entry (row, lane) of each of the six vectors is the scalar the specification names at branch 128 · row + lane:
  a de-normalized node feature at the branch's source or destination, or a de-normalized branch feature.
-/
import proofs.«428348_j773094113348_2_alg».proof.Proof.Gen.KernelIdeal.Frame
import proofs.«428348_j773094113348_2_alg».proof.Proof.Spec
import Idealize.ShloMosaic.Lib.StableHlo.Predicate
import Idealize.ShloMosaic.Lib.StableHlo.Run
import Idealize.ShloMosaic.Lib.Pipeline.Value
import Idealize.ShloMosaic.Lib.ValueIdx

noncomputable section

namespace Cert.KernelEntry

open Idealize.ShloMosaic Idealize.ShloMosaic.TcCoe Idealize.ShloMosaic.ValueIdx Idealize.ShloMosaic.StableHlo Cert.KernelIdeal

variable (m : (ℓ : Loc nD τ sig) → Buf (Elt Ideal) ℓ) (c : Dev nD)

abbrev B0 : S100000x6.Idx → EReal := m ((c : Thread nD τ).loc main_arg0)
abbrev B1 : S2x1600000.Idx → BitVec 32 := m ((c : Thread nD τ).loc main_arg1)
abbrev B2 : S1600000x2.Idx → EReal := m ((c : Thread nD τ).loc main_arg2)
abbrev B4 : S1x6.Idx → EReal := m ((c : Thread nD τ).loc main_arg4)
abbrev B5 : S1x6.Idx → EReal := m ((c : Thread nD τ).loc main_arg5)
abbrev B6 : S1x2.Idx → EReal := m ((c : Thread nD τ).loc main_arg6)
abbrev B7 : S1x2.Idx → EReal := m ((c : Thread nD τ).loc main_arg7)

/-! ## Words -/

/-- A word that is not negative is not below zero. -/
theorem slt_zero_of_nonneg (a : BitVec 32) (h : 0 ≤ a.toInt) : IntOp.cmpi .slt a 0#32 = 0#1 := by
  have h0 : (0#32 : BitVec 32).toInt = 0 := by decide
  simp only [IntOp.cmpi, BitVec.slt, h0]
  rw [decide_eq_false (by omega)]; rfl

/-- A word that is not negative is at least zero. -/
theorem sge_zero_of_nonneg (a : BitVec 32) (h : 0 ≤ a.toInt) : IntOp.cmpi .sge a 0#32 = 1#1 := by
  have h0 : (0#32 : BitVec 32).toInt = 0 := by decide
  simp only [IntOp.cmpi, BitVec.sle, h0]
  rw [decide_eq_true h]; rfl

/-- A word below 100000 is at most 99999. -/
theorem sle_last_of_lt (a : BitVec 32) (h : a.toInt < 100000) : IntOp.cmpi .sle a 99999#32 = 1#1 := by
  have h0 : (99999#32 : BitVec 32).toInt = 99999 := by decide
  simp only [IntOp.cmpi, BitVec.sle, h0]
  rw [decide_eq_true (by omega)]; rfl

/-- The conjunction of bits that are all one, from one, is one. -/
theorem foldl_andi_one {ι : Type} (f : ι → BitVec 1) (h : ∀ i, f i = 1#1) (l : List ι) :
    l.foldl (fun r i => IntOp.andi r (f i)) 1#1 = 1#1 := by
  induction l with
  | nil => rfl
  | cons a l ih => rw [List.foldl_cons, h a, show IntOp.andi (1#1) (1#1) = 1#1 from rfl]; exact ih

/-! ## The take -/

section Take
variable (x : S100000.Idx → EReal) (idx : S1600000.Idx → BitVec 32)

/-- The index vector with its negative entries moved up by the table's length. -/
def wrapIdx : S1600000.Idx → BitVec 32 :=
  select (cmpi .slt idx (broadcastInDim S1600000 ![] Gen.bcast_S_S1600000 (constantI S_ 32 0#32)))
    (addi idx (broadcastInDim S1600000 ![] Gen.bcast_S_S1600000 (constantI S_ 32 100000#32))) idx

/-- The same as a column of start indices. -/
def colIdx : S1600000x1.Idx → BitVec 32 :=
  broadcastInDim S1600000x1 ![0] Gen.bcast_S1600000_S1600000x1_0 (wrapIdx idx)

/-- The mask of start indices inside the table. -/
def inRange : S1600000x1.Idx → BitVec 1 :=
  andi (cmpi .sge (colIdx idx) (broadcastInDim S1600000x1 ![] Gen.bcast_S_S1600000x1 (constantI S_ 32 0#32)))
    (cmpi .sle (colIdx idx) (broadcastInDim S1600000x1 ![0, 1] Gen.bcast_S1x1_S1600000x1_0_1
      (broadcastInDim S1x1 ![1] Gen.bcast_S1_S1x1_1 (constantI S1 32 99999#32))))

/-- The table read at the index vector: not-a-number where the index is outside the table. -/
def takeOf : S1600000.Idx → EReal :=
  select (Host.reduce IntOp.andi (inRange idx) (constantI S_ 1 1#1) Gen.reducesTo_S1600000x1_S1600000_d1 Gen.h_S_)
    (Host.gather gather_S100000_S1600000x1_S1600000_n_0_n_n_0_1_1 x (colIdx idx))
    (broadcastInDim S1600000 ![] Gen.bcast_S_S1600000 (constant (F := Ideal) S_ .f32 0x7FC00000#32))

/-- An index that is not negative is not moved. -/
theorem wrapIdx_apply (q : S1600000.Idx) (h : 0 ≤ (idx q).toInt) : wrapIdx idx q = idx q := by
  unfold wrapIdx
  rw [select_apply]
  show Scalar.select (IntOp.cmpi .slt (idx q) 0#32) _ _ = _
  rw [slt_zero_of_nonneg _ h, select_zero]

/-- The column of start indices reads, in row `i 0`, the moved index at `i 0`. -/
theorem colIdx_apply (i : S1600000x1.Idx) : colIdx idx i = wrapIdx idx (ix1 (i 0)) :=
  broadcastInDim_apply _ _ _ i (ix1 (i 0)) (fun a => match a with | ⟨0, _⟩ => rfl)

variable (hall : ∀ q, 0 ≤ (idx q).toInt ∧ (idx q).toInt < 100000)
include hall

/-- With every index inside the table, every start index is. -/
theorem inRange_apply (i : S1600000x1.Idx) : inRange idx i = 1#1 := by
  unfold inRange
  show IntOp.andi (IntOp.cmpi .sge (colIdx idx i) 0#32) (IntOp.cmpi .sle (colIdx idx i) 99999#32) = 1#1
  rw [colIdx_apply, wrapIdx_apply idx _ (hall _).1, sge_zero_of_nonneg _ (hall _).1, sle_last_of_lt _ (hall _).2]
  rfl

/-- … and so the conjunction over each row's one entry is one everywhere. -/
theorem mask_apply (j : S1600000.Idx) :
    Host.reduce IntOp.andi (inRange idx) (constantI S_ 1 1#1) Gen.reducesTo_S1600000x1_S1600000_d1 Gen.h_S_ j = 1#1 := by
  rw [Host.reduce_eq_foldl]
  exact foldl_andi_one _ (inRange_apply idx hall) _

/-- With every index inside the table the take reads, at `p`, the table at the index `p` names (read signed, kept
    inside the table). -/
theorem takeOf_apply (p : Fin 1600000) :
    takeOf x idx (ix1 p) = x (ix1 ⟨min (idx (ix1 p)).toInt.toNat 99999, by omega⟩) := by
  unfold takeOf
  rw [select_apply, mask_apply idx hall, select_one]
  have hp : (ix1 p : S1600000.Idx) = Shape.Idx.ofFin p := by
    funext a; match a with | ⟨0, _⟩ => rfl
  refine ((congrArg (Host.gather gather_S100000_S1600000x1_S1600000_n_0_n_n_0_1_1 x (colIdx idx)) hp).trans
    (StableHlo.Predicate.gather_take gather_S100000_S1600000x1_S1600000_n_0_n_n_0_1_1 rfl rfl rfl rfl x (colIdx idx) p (by decide))).trans ?_
  congr 1
  funext a
  match a with
  | ⟨0, _⟩ =>
    apply Fin.ext
    show min (colIdx idx (StableHlo.Predicate.ixP p)).toInt.toNat (100000 - 1) = min (idx (ix1 p)).toInt.toNat 99999
    rw [colIdx_apply, wrapIdx_apply idx _ (hall _).1]

end Take

/-! ## Layout reads -/

/-- The branch at row `i 0`, lane `i 1` of the 12500 × 128 arrangement. -/
def kOf (i : S12500x128.Idx) : Fin 1600000 :=
  ⟨128 * (i 0).val + (i 1).val, by have := idx2_lt0 i; have := idx2_lt1 i; omega⟩

/-- A vector of 1,600,000 entries arranged as 12500 rows of 128 lanes reads, at (row, lane), entry 128 · row + lane. -/
theorem lanes_apply {α : Type} (v : S1600000.Idx → α) (i : S12500x128.Idx) :
    shapeCast S12500x128 v Gen.shapeCasts_S1600000_S12500x128 i = v (ix1 (kOf i)) := by
  refine shapeCast_apply v _ i (ix1 (kOf i)) ?_
  rw [Shape.rowMajor_val_one, Shape.rowMajor_val_two]
  show 128 * (i 0).val + (i 1).val = (i 0).val * 128 + (i 1).val
  omega

/-- Column `j` of an n × m array, cut out as an n × 1 slice and flattened, reads at `q` the array at (q, j). -/
theorem column_apply {α : Type} {n m : Nat} (off : Fin 2 → Nat) (x : (⟨2, ![n, m]⟩ : Shape).Idx → α)
    (hs : (⟨2, ![n, m]⟩ : Shape).Slices off ⟨2, ![n, 1]⟩) (hc : (⟨2, ![n, 1]⟩ : Shape).ShapeCasts ⟨1, ![n]⟩)
    (q : Fin n) (j : Fin m) (h0 : off 0 = 0) (h1 : off 1 = j.val) :
    shapeCast ⟨1, ![n]⟩ (extractStridedSlice ⟨2, ![n, 1]⟩ off x hs) hc (ix1 q) = x (ix2 q j) := by
  refine (shapeCast_apply _ hc (ix1 q) (ix2 q (0 : Fin 1)) ?_).trans ?_
  · rw [Shape.rowMajor_val_two, Shape.rowMajor_val_one]
    show q.val * 1 + 0 = q.val
    omega
  · exact extractStridedSlice_apply off x hs _ (ix2 q j) (fun a => match a with
      | ⟨0, _⟩ => by show q.val = off 0 + q.val; omega
      | ⟨1, _⟩ => by show j.val = off 1 + 0; omega)

/-- Row `s` of an n × m array, cut out as a 1 × m slice and flattened, reads at `q` the array at (s, q). -/
theorem row_apply {α : Type} {n m : Nat} (off : Fin 2 → Nat) (x : (⟨2, ![n, m]⟩ : Shape).Idx → α)
    (hs : (⟨2, ![n, m]⟩ : Shape).Slices off ⟨2, ![1, m]⟩) (hc : (⟨2, ![1, m]⟩ : Shape).ShapeCasts ⟨1, ![m]⟩)
    (s : Fin n) (q : Fin m) (h0 : off 0 = s.val) (h1 : off 1 = 0) :
    shapeCast ⟨1, ![m]⟩ (extractStridedSlice ⟨2, ![1, m]⟩ off x hs) hc (ix1 q) = x (ix2 s q) := by
  refine (shapeCast_apply _ hc (ix1 q) (ix2 (0 : Fin 1) q) ?_).trans ?_
  · rw [Shape.rowMajor_val_two, Shape.rowMajor_val_one]
    show 0 * m + q.val = q.val
    omega
  · exact extractStridedSlice_apply off x hs _ (ix2 s q) (fun a => match a with
      | ⟨0, _⟩ => by show s.val = off 0 + 0; omega
      | ⟨1, _⟩ => by show q.val = off 1 + q.val; omega)

/-! ## The de-normalized arrays -/

/-- The de-normalized node features as one array. -/
def xdArr : S100000x6.Idx → EReal :=
  addf (F := Ideal) (φ := .f32) (mulf (F := Ideal) (φ := .f32) (B0 m c) (broadcastInDim S100000x6 ![0, 1] Gen.bcast_S1x6_S100000x6_0_1 (B5 m c)))
    (broadcastInDim S100000x6 ![0, 1] Gen.bcast_S1x6_S100000x6_0_1 (B4 m c))

/-- The de-normalized branch features as one array. -/
def eaArr : S1600000x2.Idx → EReal :=
  addf (F := Ideal) (φ := .f32) (mulf (F := Ideal) (φ := .f32) (B2 m c) (broadcastInDim S1600000x2 ![0, 1] Gen.bcast_S1x2_S1600000x2_0_1 (B7 m c)))
    (broadcastInDim S1600000x2 ![0, 1] Gen.bcast_S1x2_S1600000x2_0_1 (B6 m c))

theorem xdArr_apply (n : Fin 100000) (j : Fin 6) :
    xdArr m c (ix2 n j) = B0 m c (ix2 n j) * B5 m c (ix2 0 j) + B4 m c (ix2 0 j) := by
  unfold xdArr
  rw [addf_apply, mulf_apply,
    broadcastInDim_apply _ Gen.bcast_S1x6_S100000x6_0_1 (B5 m c) (ix2 n j) (ix2 0 j) (fun a => match a with | ⟨0, _⟩ => rfl | ⟨1, _⟩ => rfl),
    broadcastInDim_apply _ Gen.bcast_S1x6_S100000x6_0_1 (B4 m c) (ix2 n j) (ix2 0 j) (fun a => match a with | ⟨0, _⟩ => rfl | ⟨1, _⟩ => rfl)]

theorem eaArr_apply (k : Fin 1600000) (j : Fin 2) :
    eaArr m c (ix2 k j) = B2 m c (ix2 k j) * B7 m c (ix2 0 j) + B6 m c (ix2 0 j) := by
  unfold eaArr
  rw [addf_apply, mulf_apply,
    broadcastInDim_apply _ Gen.bcast_S1x2_S1600000x2_0_1 (B7 m c) (ix2 k j) (ix2 0 j) (fun a => match a with | ⟨0, _⟩ => rfl | ⟨1, _⟩ => rfl),
    broadcastInDim_apply _ Gen.bcast_S1x2_S1600000x2_0_1 (B6 m c) (ix2 k j) (ix2 0 j) (fun a => match a with | ⟨0, _⟩ => rfl | ⟨1, _⟩ => rfl)]

/-- Column `j` of the node features, as a vector over the nodes. -/
def xdCol (off : Fin 2 → Nat) (hs : S100000x6.Slices off S100000x1) : S100000.Idx → EReal :=
  shapeCast S100000 (extractStridedSlice S100000x1 off (xdArr m c) hs) Gen.shapeCasts_S100000x1_S100000

/-- Column `j` of the branch features, as a vector over the branches. -/
def eaCol (off : Fin 2 → Nat) (hs : S1600000x2.Slices off S1600000x1) : S1600000.Idx → EReal :=
  shapeCast S1600000 (extractStridedSlice S1600000x1 off (eaArr m c) hs) Gen.shapeCasts_S1600000x1_S1600000

/-- End `s` of every branch, as a vector of node indices. -/
def endIdx (off : Fin 2 → Nat) (hs : S2x1600000.Slices off S1x1600000) : S1600000.Idx → BitVec 32 :=
  shapeCast S1600000 (extractStridedSlice S1x1600000 off (B1 m c) hs) Gen.shapeCasts_S1x1600000_S1600000

theorem xdCol_apply (off : Fin 2 → Nat) (hs : S100000x6.Slices off S100000x1) (n : Fin 100000) (j : Fin 6)
    (h0 : off 0 = 0) (h1 : off 1 = j.val) :
    xdCol m c off hs (ix1 n) = B0 m c (ix2 n j) * B5 m c (ix2 0 j) + B4 m c (ix2 0 j) := by
  unfold xdCol
  rw [column_apply off (xdArr m c) hs Gen.shapeCasts_S100000x1_S100000 n j h0 h1, xdArr_apply]

theorem eaCol_apply (off : Fin 2 → Nat) (hs : S1600000x2.Slices off S1600000x1) (k : Fin 1600000) (j : Fin 2)
    (h0 : off 0 = 0) (h1 : off 1 = j.val) :
    eaCol m c off hs (ix1 k) = B2 m c (ix2 k j) * B7 m c (ix2 0 j) + B6 m c (ix2 0 j) := by
  unfold eaCol
  rw [column_apply off (eaArr m c) hs Gen.shapeCasts_S1600000x1_S1600000 k j h0 h1, eaArr_apply]

theorem endIdx_apply (off : Fin 2 → Nat) (hs : S2x1600000.Slices off S1x1600000) (s : Fin 2) (k : Fin 1600000)
    (h0 : off 0 = s.val) (h1 : off 1 = 0) :
    endIdx m c off hs (ix1 k) = B1 m c (ix2 s k) := by
  unfold endIdx
  exact row_apply off (B1 m c) hs Gen.shapeCasts_S1x1600000_S1600000 s k h0 h1

/-! ## The vectors the kernel is given, at an entry -/

/-- A take of a column of the node features at one end of the branches, arranged as rows of lanes: with every index
    inside the table, entry (row, lane) is that column at the node the branch's end names. -/
theorem take_entry (hidx : ∀ j, 0 ≤ (B1 m c j).toInt ∧ (B1 m c j).toInt < 100000)
    (offx : Fin 2 → Nat) (hsx : S100000x6.Slices offx S100000x1) (offi : Fin 2 → Nat) (hsi : S2x1600000.Slices offi S1x1600000)
    (s : Fin 2) (j : Fin 6) (h0x : offx 0 = 0) (h1x : offx 1 = j.val) (h0i : offi 0 = s.val) (h1i : offi 1 = 0)
    (i : S12500x128.Idx) :
    shapeCast S12500x128 (takeOf (xdCol m c offx hsx) (endIdx m c offi hsi)) Gen.shapeCasts_S1600000_S12500x128 i
      = Cert.Spec.xd (B0 m c) (B4 m c) (B5 m c) (Cert.Spec.node (B1 m c) s (kOf i)) j := by
  have hall : ∀ q, 0 ≤ (endIdx m c offi hsi q).toInt ∧ (endIdx m c offi hsi q).toInt < 100000 := by
    intro q
    obtain ⟨a, rfl⟩ : ∃ a, q = ix1 a := ⟨q 0, eq_ix1 q⟩
    rw [endIdx_apply m c offi hsi s a h0i h1i]
    exact hidx _
  have hn : (⟨min (endIdx m c offi hsi (ix1 (kOf i))).toInt.toNat 99999, by omega⟩ : Fin 100000)
      = Cert.Spec.node (B1 m c) s (kOf i) := by
    apply Fin.ext
    show min (endIdx m c offi hsi (ix1 (kOf i))).toInt.toNat 99999 = min (B1 m c (ix2 s (kOf i))).toInt.toNat 99999
    rw [endIdx_apply m c offi hsi s (kOf i) h0i h1i]
  rw [lanes_apply, takeOf_apply _ _ hall (kOf i), hn, xdCol_apply m c offx hsx _ j h0x h1x]
  rfl

/-- A column of the branch features arranged as rows of lanes: entry (row, lane) is that column at the branch. -/
theorem ea_entry (off : Fin 2 → Nat) (hs : S1600000x2.Slices off S1600000x1) (j : Fin 2) (h0 : off 0 = 0) (h1 : off 1 = j.val)
    (i : S12500x128.Idx) :
    shapeCast S12500x128 (eaCol m c off hs) Gen.shapeCasts_S1600000_S12500x128 i
      = Cert.Spec.ea (B2 m c) (B6 m c) (B7 m c) (kOf i) j := by
  rw [lanes_apply, eaCol_apply m c off hs (kOf i) j h0 h1]
  rfl

/-! ## The host operations before the kernel, stretch by stretch -/

section Stages

local macro "read_stretch" l:ident : tactic => `(tactic| (dsimp only [$l:ident]; after_results; try rfl))

/-- Contents moved to a typed reference's buffer and back are the contents. -/
theorem ofBuf_toBuf {Val : EltTy → Type} {T : BufTy} (x : TRef sig T) (v : T.Contents Val) : x.ofBuf (x.toBuf v) = v := by
  simp [TRef.ofBuf, TRef.toBuf]

variable (W : Valuation τ sig (Elt Ideal))

/-! At the literal references the moves between a buffer's contents and a typed reference's are the identity. -/

theorem ofBuf_v1 (h1 h2 h3) : ((TRef.of main_v1 h1 h2 h3 : TRef sig ⟨S1600000, .i32⟩).ofBuf (W (Proc.devRef .tc main_v1)) : S1600000.Idx → BitVec 32)
    = W (Proc.devRef .tc main_v1) := rfl
theorem ofBuf_v3 (h1 h2 h3) : ((TRef.of main_v3 h1 h2 h3 : TRef sig ⟨S1600000, .i32⟩).ofBuf (W (Proc.devRef .tc main_v3)) : S1600000.Idx → BitVec 32)
    = W (Proc.devRef .tc main_v3) := rfl
theorem ofBuf_v13 (h1 h2 h3) : ((TRef.of main_v13 h1 h2 h3 : TRef sig ⟨S100000, .f32⟩).ofBuf (W (Proc.devRef .tc main_v13)) : S100000.Idx → EReal)
    = W (Proc.devRef .tc main_v13) := rfl
theorem ofBuf_v15 (h1 h2 h3) : ((TRef.of main_v15 h1 h2 h3 : TRef sig ⟨S100000, .f32⟩).ofBuf (W (Proc.devRef .tc main_v15)) : S100000.Idx → EReal)
    = W (Proc.devRef .tc main_v15) := rfl
theorem toBuf_v16 (h1 h2 h3) (v : S1600000.Idx → EReal) :
    ((TRef.of main_v16 h1 h2 h3 : TRef sig ⟨S1600000, .f32⟩).toBuf (Val := Elt Ideal) v : S1600000.Idx → EReal) = v := rfl
theorem toBuf_v17 (h1 h2 h3) (v : S1600000.Idx → EReal) :
    ((TRef.of main_v17 h1 h2 h3 : TRef sig ⟨S1600000, .f32⟩).toBuf (Val := Elt Ideal) v : S1600000.Idx → EReal) = v := rfl
theorem toBuf_v18 (h1 h2 h3) (v : S1600000.Idx → EReal) :
    ((TRef.of main_v18 h1 h2 h3 : TRef sig ⟨S1600000, .f32⟩).toBuf (Val := Elt Ideal) v : S1600000.Idx → EReal) = v := rfl
theorem toBuf_v19 (h1 h2 h3) (v : S1600000.Idx → EReal) :
    ((TRef.of main_v19 h1 h2 h3 : TRef sig ⟨S1600000, .f32⟩).toBuf (Val := Elt Ideal) v : S1600000.Idx → EReal) = v := rfl

/-! The first stretch: the two ends, the de-normalized arrays and the node features' first two columns. -/

theorem s0_v1 : (after (Gen.hostOps0 (F := Ideal)) (fun b => m (c, b)) (Proc.devRef .tc main_v1) : S1600000.Idx → BitVec 32)
    = endIdx m c ![0, 0] Gen.slices_S2x1600000_S1x1600000_0_0 := by read_stretch Gen.hostOps0
theorem s0_v3 : (after (Gen.hostOps0 (F := Ideal)) (fun b => m (c, b)) (Proc.devRef .tc main_v3) : S1600000.Idx → BitVec 32)
    = endIdx m c ![1, 0] Gen.slices_S2x1600000_S1x1600000_1_0 := by read_stretch Gen.hostOps0
theorem s0_v13 : (after (Gen.hostOps0 (F := Ideal)) (fun b => m (c, b)) (Proc.devRef .tc main_v13) : S100000.Idx → EReal)
    = xdCol m c ![0, 0] Gen.slices_S100000x6_S100000x1_0_0 := by read_stretch Gen.hostOps0
theorem s0_v15 : (after (Gen.hostOps0 (F := Ideal)) (fun b => m (c, b)) (Proc.devRef .tc main_v15) : S100000.Idx → EReal)
    = xdCol m c ![0, 1] Gen.slices_S100000x6_S100000x1_0_1 := by read_stretch Gen.hostOps0
theorem s0_v11 : (after (Gen.hostOps0 (F := Ideal)) (fun b => m (c, b)) (Proc.devRef .tc main_v11) : S1600000x2.Idx → EReal)
    = eaArr m c := by read_stretch Gen.hostOps0

/-! The four takes, each over any contents before it, and what each leaves as it was. -/

set_option maxHeartbeats 2000000 in
theorem s1_v16 : (after (Gen.hostOps0_1 (F := Ideal)) W (Proc.devRef .tc main_v16) : S1600000.Idx → EReal)
    = takeOf (W (Proc.devRef .tc main_v13)) (W (Proc.devRef .tc main_v1)) := by
  dsimp only [Gen.hostOps0_1]
  after_results
  simp only [ofBuf_toBuf]
  rw [ofBuf_v1, ofBuf_v13]
  refine (toBuf_v16 _ _ _ _).trans ?_
  unfold takeOf inRange colIdx wrapIdx
  rfl
set_option maxHeartbeats 2000000 in
theorem s2_v17 : (after (Gen.hostOps0_2 (F := Ideal)) W (Proc.devRef .tc main_v17) : S1600000.Idx → EReal)
    = takeOf (W (Proc.devRef .tc main_v15)) (W (Proc.devRef .tc main_v1)) := by
  dsimp only [Gen.hostOps0_2]
  after_results
  simp only [ofBuf_toBuf]
  rw [ofBuf_v1, ofBuf_v15]
  refine (toBuf_v17 _ _ _ _).trans ?_
  unfold takeOf inRange colIdx wrapIdx
  rfl
set_option maxHeartbeats 2000000 in
theorem s3_v18 : (after (Gen.hostOps0_3 (F := Ideal)) W (Proc.devRef .tc main_v18) : S1600000.Idx → EReal)
    = takeOf (W (Proc.devRef .tc main_v13)) (W (Proc.devRef .tc main_v3)) := by
  dsimp only [Gen.hostOps0_3]
  after_results
  simp only [ofBuf_toBuf]
  rw [ofBuf_v3, ofBuf_v13]
  refine (toBuf_v18 _ _ _ _).trans ?_
  unfold takeOf inRange colIdx wrapIdx
  rfl
set_option maxHeartbeats 2000000 in
theorem s4_v19 : (after (Gen.hostOps0_4 (F := Ideal)) W (Proc.devRef .tc main_v19) : S1600000.Idx → EReal)
    = takeOf (W (Proc.devRef .tc main_v15)) (W (Proc.devRef .tc main_v3)) := by
  dsimp only [Gen.hostOps0_4]
  after_results
  simp only [ofBuf_toBuf]
  rw [ofBuf_v3, ofBuf_v15]
  refine (toBuf_v19 _ _ _ _).trans ?_
  unfold takeOf inRange colIdx wrapIdx
  rfl

theorem s1_v1 : after (Gen.hostOps0_1 (F := Ideal)) W (Proc.devRef .tc main_v1) = W (Proc.devRef .tc main_v1) := by read_stretch Gen.hostOps0_1
theorem s1_v3 : after (Gen.hostOps0_1 (F := Ideal)) W (Proc.devRef .tc main_v3) = W (Proc.devRef .tc main_v3) := by read_stretch Gen.hostOps0_1
theorem s1_v13 : after (Gen.hostOps0_1 (F := Ideal)) W (Proc.devRef .tc main_v13) = W (Proc.devRef .tc main_v13) := by read_stretch Gen.hostOps0_1
theorem s1_v15 : after (Gen.hostOps0_1 (F := Ideal)) W (Proc.devRef .tc main_v15) = W (Proc.devRef .tc main_v15) := by read_stretch Gen.hostOps0_1
theorem s1_v11 : after (Gen.hostOps0_1 (F := Ideal)) W (Proc.devRef .tc main_v11) = W (Proc.devRef .tc main_v11) := by read_stretch Gen.hostOps0_1

theorem s2_v3 : after (Gen.hostOps0_2 (F := Ideal)) W (Proc.devRef .tc main_v3) = W (Proc.devRef .tc main_v3) := by read_stretch Gen.hostOps0_2
theorem s2_v13 : after (Gen.hostOps0_2 (F := Ideal)) W (Proc.devRef .tc main_v13) = W (Proc.devRef .tc main_v13) := by read_stretch Gen.hostOps0_2
theorem s2_v15 : after (Gen.hostOps0_2 (F := Ideal)) W (Proc.devRef .tc main_v15) = W (Proc.devRef .tc main_v15) := by read_stretch Gen.hostOps0_2
theorem s2_v11 : after (Gen.hostOps0_2 (F := Ideal)) W (Proc.devRef .tc main_v11) = W (Proc.devRef .tc main_v11) := by read_stretch Gen.hostOps0_2
theorem s2_v16 : after (Gen.hostOps0_2 (F := Ideal)) W (Proc.devRef .tc main_v16) = W (Proc.devRef .tc main_v16) := by read_stretch Gen.hostOps0_2

theorem s3_v3 : after (Gen.hostOps0_3 (F := Ideal)) W (Proc.devRef .tc main_v3) = W (Proc.devRef .tc main_v3) := by read_stretch Gen.hostOps0_3
theorem s3_v15 : after (Gen.hostOps0_3 (F := Ideal)) W (Proc.devRef .tc main_v15) = W (Proc.devRef .tc main_v15) := by read_stretch Gen.hostOps0_3
theorem s3_v11 : after (Gen.hostOps0_3 (F := Ideal)) W (Proc.devRef .tc main_v11) = W (Proc.devRef .tc main_v11) := by read_stretch Gen.hostOps0_3
theorem s3_v16 : after (Gen.hostOps0_3 (F := Ideal)) W (Proc.devRef .tc main_v16) = W (Proc.devRef .tc main_v16) := by read_stretch Gen.hostOps0_3
theorem s3_v17 : after (Gen.hostOps0_3 (F := Ideal)) W (Proc.devRef .tc main_v17) = W (Proc.devRef .tc main_v17) := by read_stretch Gen.hostOps0_3

theorem s4_v11 : after (Gen.hostOps0_4 (F := Ideal)) W (Proc.devRef .tc main_v11) = W (Proc.devRef .tc main_v11) := by read_stretch Gen.hostOps0_4
theorem s4_v16 : after (Gen.hostOps0_4 (F := Ideal)) W (Proc.devRef .tc main_v16) = W (Proc.devRef .tc main_v16) := by read_stretch Gen.hostOps0_4
theorem s4_v17 : after (Gen.hostOps0_4 (F := Ideal)) W (Proc.devRef .tc main_v17) = W (Proc.devRef .tc main_v17) := by read_stretch Gen.hostOps0_4
theorem s4_v18 : after (Gen.hostOps0_4 (F := Ideal)) W (Proc.devRef .tc main_v18) = W (Proc.devRef .tc main_v18) := by read_stretch Gen.hostOps0_4

/-! The last stretch: the six vectors arranged as rows of lanes. -/

theorem s5_v24 : (after (Gen.hostOps0_5 (F := Ideal)) W (Proc.devRef .tc main_v24) : S12500x128.Idx → EReal)
    = shapeCast S12500x128 (W (Proc.devRef .tc main_v16) : S1600000.Idx → EReal) Gen.shapeCasts_S1600000_S12500x128 := by read_stretch Gen.hostOps0_5
theorem s5_v25 : (after (Gen.hostOps0_5 (F := Ideal)) W (Proc.devRef .tc main_v25) : S12500x128.Idx → EReal)
    = shapeCast S12500x128 (W (Proc.devRef .tc main_v17) : S1600000.Idx → EReal) Gen.shapeCasts_S1600000_S12500x128 := by read_stretch Gen.hostOps0_5
theorem s5_v26 : (after (Gen.hostOps0_5 (F := Ideal)) W (Proc.devRef .tc main_v26) : S12500x128.Idx → EReal)
    = shapeCast S12500x128 (W (Proc.devRef .tc main_v18) : S1600000.Idx → EReal) Gen.shapeCasts_S1600000_S12500x128 := by read_stretch Gen.hostOps0_5
theorem s5_v27 : (after (Gen.hostOps0_5 (F := Ideal)) W (Proc.devRef .tc main_v27) : S12500x128.Idx → EReal)
    = shapeCast S12500x128 (W (Proc.devRef .tc main_v19) : S1600000.Idx → EReal) Gen.shapeCasts_S1600000_S12500x128 := by read_stretch Gen.hostOps0_5
theorem s5_v28 : (after (Gen.hostOps0_5 (F := Ideal)) W (Proc.devRef .tc main_v28) : S12500x128.Idx → EReal)
    = shapeCast S12500x128 (shapeCast S1600000 (extractStridedSlice S1600000x1 ![0, 0] (W (Proc.devRef .tc main_v11) : S1600000x2.Idx → EReal)
        Gen.slices_S1600000x2_S1600000x1_0_0) Gen.shapeCasts_S1600000x1_S1600000) Gen.shapeCasts_S1600000_S12500x128 := by read_stretch Gen.hostOps0_5
theorem s5_v29 : (after (Gen.hostOps0_5 (F := Ideal)) W (Proc.devRef .tc main_v29) : S12500x128.Idx → EReal)
    = shapeCast S12500x128 (shapeCast S1600000 (extractStridedSlice S1600000x1 ![0, 1] (W (Proc.devRef .tc main_v11) : S1600000x2.Idx → EReal)
        Gen.slices_S1600000x2_S1600000x1_0_1) Gen.shapeCasts_S1600000x1_S1600000) Gen.shapeCasts_S1600000_S12500x128 := by read_stretch Gen.hostOps0_5

end Stages

/-- The contents when the kernel is entered, as the six stretches one after the other. -/
theorem V0_stretches : Gen.V0 (F := Ideal) m c =
    after Gen.hostOps0_5 (after Gen.hostOps0_4 (after Gen.hostOps0_3 (after Gen.hostOps0_2 (after Gen.hostOps0_1
      (after Gen.hostOps0 (fun b => m (c, b))))))) := by
  dsimp only [Gen.V0]
  rw [List.flatten_cons, List.flatten_cons, List.flatten_cons, List.flatten_cons, List.flatten_cons, List.flatten_cons, List.flatten_nil,
    List.append_nil, StableHlo.after_append, StableHlo.after_append, StableHlo.after_append, StableHlo.after_append, StableHlo.after_append]

theorem v24_eq : (Gen.V m c main_v24 : S12500x128.Idx → EReal) =
    shapeCast S12500x128 (takeOf (xdCol m c ![0, 0] Gen.slices_S100000x6_S100000x1_0_0)
      (endIdx m c ![0, 0] Gen.slices_S2x1600000_S1x1600000_0_0)) Gen.shapeCasts_S1600000_S12500x128 := by
  show Gen.V0 m c (Proc.devRef .tc main_v24) = _
  rw [V0_stretches, s5_v24, s4_v16, s3_v16, s2_v16, s1_v16, s0_v13, s0_v1]

theorem v25_eq : (Gen.V m c main_v25 : S12500x128.Idx → EReal) =
    shapeCast S12500x128 (takeOf (xdCol m c ![0, 1] Gen.slices_S100000x6_S100000x1_0_1)
      (endIdx m c ![0, 0] Gen.slices_S2x1600000_S1x1600000_0_0)) Gen.shapeCasts_S1600000_S12500x128 := by
  show Gen.V0 m c (Proc.devRef .tc main_v25) = _
  rw [V0_stretches, s5_v25, s4_v17, s3_v17, s2_v17, s1_v15, s1_v1, s0_v15, s0_v1]

theorem v26_eq : (Gen.V m c main_v26 : S12500x128.Idx → EReal) =
    shapeCast S12500x128 (takeOf (xdCol m c ![0, 0] Gen.slices_S100000x6_S100000x1_0_0)
      (endIdx m c ![1, 0] Gen.slices_S2x1600000_S1x1600000_1_0)) Gen.shapeCasts_S1600000_S12500x128 := by
  show Gen.V0 m c (Proc.devRef .tc main_v26) = _
  rw [V0_stretches, s5_v26, s4_v18, s3_v18, s2_v13, s2_v3, s1_v13, s1_v3, s0_v13, s0_v3]

theorem v27_eq : (Gen.V m c main_v27 : S12500x128.Idx → EReal) =
    shapeCast S12500x128 (takeOf (xdCol m c ![0, 1] Gen.slices_S100000x6_S100000x1_0_1)
      (endIdx m c ![1, 0] Gen.slices_S2x1600000_S1x1600000_1_0)) Gen.shapeCasts_S1600000_S12500x128 := by
  show Gen.V0 m c (Proc.devRef .tc main_v27) = _
  rw [V0_stretches, s5_v27, s4_v19, s3_v15, s3_v3, s2_v15, s2_v3, s1_v15, s1_v3, s0_v15, s0_v3]

theorem v28_eq : (Gen.V m c main_v28 : S12500x128.Idx → EReal) =
    shapeCast S12500x128 (eaCol m c ![0, 0] Gen.slices_S1600000x2_S1600000x1_0_0) Gen.shapeCasts_S1600000_S12500x128 := by
  show Gen.V0 m c (Proc.devRef .tc main_v28) = _
  rw [V0_stretches, s5_v28, s4_v11, s3_v11, s2_v11, s1_v11, s0_v11]
  rfl

theorem v29_eq : (Gen.V m c main_v29 : S12500x128.Idx → EReal) =
    shapeCast S12500x128 (eaCol m c ![0, 1] Gen.slices_S1600000x2_S1600000x1_0_1) Gen.shapeCasts_S1600000_S12500x128 := by
  show Gen.V0 m c (Proc.devRef .tc main_v29) = _
  rw [V0_stretches, s5_v29, s4_v11, s3_v11, s2_v11, s1_v11, s0_v11]
  rfl

/-! ## The six statements -/

theorem entry0 (hidx : ∀ j, 0 ≤ (B1 m c j).toInt ∧ (B1 m c j).toInt < 100000) (i : S12500x128.Idx) :
    (Gen.V m c main_v24 : S12500x128.Idx → EReal) i
      = Cert.Spec.xd (B0 m c) (B4 m c) (B5 m c) (Cert.Spec.node (B1 m c) 0 (kOf i)) 0 := by
  rw [v24_eq]
  exact take_entry m c hidx ![0, 0] Gen.slices_S100000x6_S100000x1_0_0 ![0, 0] Gen.slices_S2x1600000_S1x1600000_0_0 0 0 rfl rfl rfl rfl i

theorem entry1 (hidx : ∀ j, 0 ≤ (B1 m c j).toInt ∧ (B1 m c j).toInt < 100000) (i : S12500x128.Idx) :
    (Gen.V m c main_v25 : S12500x128.Idx → EReal) i
      = Cert.Spec.xd (B0 m c) (B4 m c) (B5 m c) (Cert.Spec.node (B1 m c) 0 (kOf i)) 1 := by
  rw [v25_eq]
  exact take_entry m c hidx ![0, 1] Gen.slices_S100000x6_S100000x1_0_1 ![0, 0] Gen.slices_S2x1600000_S1x1600000_0_0 0 1 rfl rfl rfl rfl i

theorem entry2 (hidx : ∀ j, 0 ≤ (B1 m c j).toInt ∧ (B1 m c j).toInt < 100000) (i : S12500x128.Idx) :
    (Gen.V m c main_v26 : S12500x128.Idx → EReal) i
      = Cert.Spec.xd (B0 m c) (B4 m c) (B5 m c) (Cert.Spec.node (B1 m c) 1 (kOf i)) 0 := by
  rw [v26_eq]
  exact take_entry m c hidx ![0, 0] Gen.slices_S100000x6_S100000x1_0_0 ![1, 0] Gen.slices_S2x1600000_S1x1600000_1_0 1 0 rfl rfl rfl rfl i

theorem entry3 (hidx : ∀ j, 0 ≤ (B1 m c j).toInt ∧ (B1 m c j).toInt < 100000) (i : S12500x128.Idx) :
    (Gen.V m c main_v27 : S12500x128.Idx → EReal) i
      = Cert.Spec.xd (B0 m c) (B4 m c) (B5 m c) (Cert.Spec.node (B1 m c) 1 (kOf i)) 1 := by
  rw [v27_eq]
  exact take_entry m c hidx ![0, 1] Gen.slices_S100000x6_S100000x1_0_1 ![1, 0] Gen.slices_S2x1600000_S1x1600000_1_0 1 1 rfl rfl rfl rfl i

theorem entry4 (i : S12500x128.Idx) :
    (Gen.V m c main_v28 : S12500x128.Idx → EReal) i = Cert.Spec.ea (B2 m c) (B6 m c) (B7 m c) (kOf i) 0 := by
  rw [v28_eq]
  exact ea_entry m c ![0, 0] Gen.slices_S1600000x2_S1600000x1_0_0 0 rfl rfl i

theorem entry5 (i : S12500x128.Idx) :
    (Gen.V m c main_v29 : S12500x128.Idx → EReal) i = Cert.Spec.ea (B2 m c) (B6 m c) (B7 m c) (kOf i) 1 := by
  rw [v29_eq]
  exact ea_entry m c ![0, 1] Gen.slices_S1600000x2_S1600000x1_0_1 1 rfl rfl i

end Cert.KernelEntry
end
-- ==== Proof.MsgLayout.lean ====
/-
  The table of messages read at an index.

  After the kernel, four 12500 × 128 arrays (active and reactive flow at the source end, active and reactive flow at
  the destination end) are each flattened row-major to 1,600,000 entries, made a column, the columns paired, and the
  two pairs stacked into a 3,200,000 × 2 table. Entry (k, col) of that table is therefore entry
  (k / 128, k % 128) of one of the four arrays for k < 1,600,000, and entry ((k − 1,600,000) / 128, (k − 1,600,000) % 128)
  of one of the other two otherwise; column 0 picks the active array, column 1 the reactive one.
  Conversely a flat array of 1,600,000 entries reshaped to 12500 × 128 reads, at (r, l), entry 128 r + l.
-/
import proofs.«428348_j773094113348_2_alg».proof.KernelIdeal
import Idealize.ShloMosaic.Lib.Pipeline.Value
import Idealize.ShloMosaic.Lib.ValueIdx

namespace Cert.KLayout

open Idealize.ShloMosaic Idealize.ShloMosaic.ValueIdx
open Cert.KernelIdeal Cert.KernelIdeal.Facts₀ Cert.KernelIdeal.Facts

variable [Cert.KernelIdeal.Facts]

/-- A flat array of 1,600,000 entries as 12500 rows of 128: entry (r, l) is entry 128 r + l. -/
theorem rows_apply {α : Type} (v : S1600000.Idx → α) (r : Fin 12500) (l : Fin 128) :
    shapeCast S12500x128 v shapeCasts_S1600000_S12500x128 (ValueIdx.ix2 r l)
      = v (ValueIdx.ix1 ⟨128 * r.val + l.val, by omega⟩) := by
  refine shapeCast_apply _ _ _ _ ?_
  rw [Shape.rowMajor_val_one, Shape.rowMajor_val_two]
  show 128 * r.val + l.val = r.val * 128 + l.val
  omega

/-- 12500 rows of 128 laid end to end: entry m is entry (m / 128, m % 128). -/
theorem flat_apply {α : Type} (P : S12500x128.Idx → α) (m : Fin 1600000) :
    shapeCast S1600000 P shapeCasts_S12500x128_S1600000 (ValueIdx.ix1 m)
      = P (ValueIdx.ix2 ⟨m.val / 128, by omega⟩ ⟨m.val % 128, Nat.mod_lt _ (by decide)⟩) := by
  refine shapeCast_apply _ _ _ _ ?_
  rw [Shape.rowMajor_val_one, Shape.rowMajor_val_two]
  show m.val / 128 * 128 + m.val % 128 = m.val
  omega

/-- A vector as a one-column matrix: entry (m, 0) is entry m. -/
theorem col_apply {α : Type} (v : S1600000.Idx → α) (m : Fin 1600000) (c : Fin 1) :
    broadcastInDim S1600000x1 ![0] bcast_S1600000_S1600000x1_0 v (ValueIdx.ix2 m c) = v (ValueIdx.ix1 m) :=
  broadcastInDim_apply _ _ _ _ _ (fun a => match a with | ⟨0, _⟩ => rfl)

/-- Two columns side by side: column 0 is the first, column 1 the second. -/
theorem pair_apply {α : Type} (a b : S1600000x1.Idx → α) (m : Fin 1600000) (col : Fin 2) :
    concatenate S1600000x2 1 [⟨S1600000x1, a⟩, ⟨S1600000x1, b⟩] concatenates_S1600000x1_S1600000x1_S1600000x2_d1
        (ValueIdx.ix2 m col)
      = if col = 0 then a (ValueIdx.ix2 m 0) else b (ValueIdx.ix2 m 0) := by
  by_cases hc : col = 0
  · subst hc
    rw [if_pos rfl]
    refine concatenate_pair_apply_left (t := S1600000x2) (s₁ := S1600000x1) (s₂ := S1600000x1) 1 a b _
      (ValueIdx.ix2 m 0) rfl (ValueIdx.ix2 m 0) ?_
    intro c
    match c with
    | ⟨0, _⟩ => rfl
    | ⟨1, _⟩ => rfl
  · have h1 : col = 1 := by
      apply Fin.ext
      have hlt := col.isLt
      have hne : col.val ≠ 0 := fun h => hc (Fin.ext h)
      show col.val = 1
      omega
    subst h1
    rw [if_neg hc]
    refine concatenate_pair_apply_right (t := S1600000x2) (s₁ := S1600000x1) (s₂ := S1600000x1) 1 a b _
      (ValueIdx.ix2 m 1) rfl rfl (ValueIdx.ix2 m 0) ?_ rfl
    intro c
    match c with
    | ⟨0, _⟩ => exact fun _ => rfl
    | ⟨1, _⟩ => exact fun hne => absurd rfl hne

/-- Two blocks of 1,600,000 rows stacked: rows below 1,600,000 are the first block's, the others the second's. -/
theorem stack_apply {α : Type} (x y : S1600000x2.Idx → α) (k : Fin 3200000) (col : Fin 2) :
    concatenate S3200000x2 0 [⟨S1600000x2, x⟩, ⟨S1600000x2, y⟩] concatenates_S1600000x2_S1600000x2_S3200000x2_d0
        (ValueIdx.ix2 k col)
      = if h : k.val < 1600000 then x (ValueIdx.ix2 ⟨k.val, h⟩ col)
        else y (ValueIdx.ix2 ⟨k.val - 1600000, by omega⟩ col) := by
  by_cases h : k.val < 1600000
  · rw [dif_pos h]
    refine concatenate_pair_apply_left (t := S3200000x2) (s₁ := S1600000x2) (s₂ := S1600000x2) 0 x y _
      (ValueIdx.ix2 k col) rfl (ValueIdx.ix2 ⟨k.val, h⟩ col) ?_
    intro c
    match c with
    | ⟨0, _⟩ => rfl
    | ⟨1, _⟩ => rfl
  · rw [dif_neg h]
    refine concatenate_pair_apply_right (t := S3200000x2) (s₁ := S1600000x2) (s₂ := S1600000x2) 0 x y _
      (ValueIdx.ix2 k col) rfl rfl (ValueIdx.ix2 ⟨k.val - 1600000, by omega⟩ col) ?_ ?_
    · intro c
      match c with
      | ⟨0, _⟩ => exact fun hne => absurd rfl hne
      | ⟨1, _⟩ => exact fun _ => rfl
    · show k.val - 1600000 + 1600000 = k.val
      omega

/-- One block of the table: a pair of flattened arrays, read at (m, col). -/
theorem block_apply {α : Type} (P Q : S12500x128.Idx → α) (m : Fin 1600000) (col : Fin 2) :
    concatenate S1600000x2 1
        [⟨S1600000x1, broadcastInDim S1600000x1 ![0] bcast_S1600000_S1600000x1_0 (shapeCast S1600000 P shapeCasts_S12500x128_S1600000)⟩,
         ⟨S1600000x1, broadcastInDim S1600000x1 ![0] bcast_S1600000_S1600000x1_0 (shapeCast S1600000 Q shapeCasts_S12500x128_S1600000)⟩]
        concatenates_S1600000x1_S1600000x1_S1600000x2_d1 (ValueIdx.ix2 m col)
      = (if col = 0 then P else Q) (ValueIdx.ix2 ⟨m.val / 128, by omega⟩ ⟨m.val % 128, Nat.mod_lt _ (by decide)⟩) := by
  rw [pair_apply, col_apply, col_apply, flat_apply, flat_apply]
  split <;> rfl

/-- The table of messages at (k, col). -/
theorem table_apply {α : Type} (P1 Q1 P2 Q2 : S12500x128.Idx → α) (k : Fin 3200000) (col : Fin 2) :
    concatenate S3200000x2 0 [⟨S1600000x2, concatenate S1600000x2 1 [⟨S1600000x1, broadcastInDim S1600000x1 ![0] bcast_S1600000_S1600000x1_0 (shapeCast S1600000 P1 shapeCasts_S12500x128_S1600000)⟩, ⟨S1600000x1, broadcastInDim S1600000x1 ![0] bcast_S1600000_S1600000x1_0 (shapeCast S1600000 Q1 shapeCasts_S12500x128_S1600000)⟩] concatenates_S1600000x1_S1600000x1_S1600000x2_d1⟩,
                                 ⟨S1600000x2, concatenate S1600000x2 1 [⟨S1600000x1, broadcastInDim S1600000x1 ![0] bcast_S1600000_S1600000x1_0 (shapeCast S1600000 P2 shapeCasts_S12500x128_S1600000)⟩, ⟨S1600000x1, broadcastInDim S1600000x1 ![0] bcast_S1600000_S1600000x1_0 (shapeCast S1600000 Q2 shapeCasts_S12500x128_S1600000)⟩] concatenates_S1600000x1_S1600000x1_S1600000x2_d1⟩] concatenates_S1600000x2_S1600000x2_S3200000x2_d0 (ValueIdx.ix2 k col)
    = if h : k.val < 1600000 then (if col = 0 then P1 else Q1) (ValueIdx.ix2 ⟨k.val / 128, by omega⟩ ⟨k.val % 128, Nat.mod_lt _ (by decide)⟩)
      else (if col = 0 then P2 else Q2) (ValueIdx.ix2 ⟨(k.val - 1600000) / 128, by omega⟩ ⟨(k.val - 1600000) % 128, Nat.mod_lt _ (by decide)⟩) := by
  rw [stack_apply]
  by_cases h : k.val < 1600000
  · rw [dif_pos h, dif_pos h, block_apply]
  · rw [dif_neg h, dif_neg h, block_apply]

end Cert.KLayout
-- ==== Proof.FlowAlgebra.lean ====
/-
  The shared-cross-term arrangement of the branch flows equals the one-direction-at-a-time arrangement, for real
  voltage magnitudes and angles and arbitrary (possibly infinite) series terms r, x.

  The voltages being real, the rectangular components e, f of both ends are reals; the two arrangements differ only
  in the order of the factors of the angle, in "0 - x" against "-x", and in where the signs of the polynomial
  factors sit. The latter are moved through the outer products, which is valid for any extended-real admittance:
  a - b·y = a + b·(-y) and (0 - g)·y = g·(-y); the inner factors are then compared as real polynomials.
-/
import proofs.«428348_j773094113348_2_alg».proof.Proof.Spec
import Mathlib.Data.EReal.Basic
import Mathlib.Data.EReal.Operations
import Mathlib.Data.EReal.Inv
import Mathlib.Tactic.Ring
import Mathlib.Tactic.NormNum

noncomputable section

namespace Cert.Spec

open Idealize.ShloMosaic

/-- The degree-to-radian word has a biased exponent strictly between 0 and 255: it denotes a real. -/
theorem deg_real : ∃ d : ℝ, deg = (d : EReal) := by
  have h : deg ≠ ⊤ ∧ deg ≠ ⊥ := by
    simp [deg, Ideal.ofBits, Ideal.ieee, -EReal.coe_mul]
  exact ⟨deg.toReal, (EReal.coe_toReal h.1 h.2).symm⟩

/-- The zero word denotes 0. -/
theorem zero_eq : zero = 0 := by
  simp [zero, Ideal.ofBits, Ideal.ieee]

/-! ## The components -/

/-- The angle factor commutes: the shared form's real part is the one-direction form's. -/
theorem es_eq_re (vm va : EReal) : es vm va = re vm va := by
  unfold es re; rw [mul_comm va deg]

theorem fs_eq_im (vm va : EReal) : fs vm va = im vm va := by
  unfold fs im; rw [mul_comm va deg]

theorem ed_eq_re (vm va : EReal) : ed vm va = re vm va := by
  unfold ed re; rw [mul_comm va deg]

theorem fd_eq_im (vm va : EReal) : fd vm va = im vm va := by
  unfold fd im; rw [mul_comm va deg]

/-- 0 - x = -x: the shared form's admittance is the one-direction form's. -/
theorem g'_eq_cond (r x : EReal) : g' r x = cond r x := rfl

theorem b'_eq_susc (r x : EReal) : b' r x = susc r x := by
  unfold b' susc den; rw [zero_eq, zero_sub]

/-- A real magnitude and a real angle give a real rectangular real part. -/
theorem re_real (vm va : ℝ) : ∃ e : ℝ, re vm va = (e : EReal) := by
  obtain ⟨d, hd⟩ := deg_real
  refine ⟨vm * Real.cos (d * va), ?_⟩
  unfold re
  rw [hd, ← EReal.coe_mul, Ideal.cos_coe, ← EReal.coe_mul]

theorem im_real (vm va : ℝ) : ∃ f : ℝ, im vm va = (f : EReal) := by
  obtain ⟨d, hd⟩ := deg_real
  refine ⟨vm * Real.sin (d * va), ?_⟩
  unfold im
  rw [hd, ← EReal.coe_mul, Ideal.sin_coe, ← EReal.coe_mul]

/-! ## The outer layer, for any admittance -/

/-- a - b·y = a + b·(-y). -/
theorem sub_mul_coe (a b : EReal) (y : ℝ) : a - b * (y : EReal) = a + b * ((-y : ℝ) : EReal) := by
  rw [sub_eq_add_neg, ← mul_neg, EReal.coe_neg]

/-- (0 - g)·y = g·(-y). -/
theorem zero_sub_mul_coe (g : EReal) (y : ℝ) : (zero - g) * (y : EReal) = g * ((-y : ℝ) : EReal) := by
  rw [zero_eq, zero_sub, neg_mul, ← mul_neg, EReal.coe_neg]

/-! ## The four flows -/

theorem sendP_eq (vms vas vmd vad : ℝ) (r x : EReal) :
    sendP vms vas vmd vad r x
      = flowP (cond r x) (susc r x) (re vms vas) (im vms vas) (re vmd vad) (im vmd vad) := by
  unfold sendP dotS cross flowP
  rw [es_eq_re, fs_eq_im, ed_eq_re, fd_eq_im, g'_eq_cond, b'_eq_susc]

theorem sendQ_eq (vms vas vmd vad : ℝ) (r x : EReal) :
    sendQ vms vas vmd vad r x
      = flowQ (cond r x) (susc r x) (re vms vas) (im vms vas) (re vmd vad) (im vmd vad) := by
  unfold sendQ dotS cross flowQ
  rw [es_eq_re, fs_eq_im, ed_eq_re, fd_eq_im, g'_eq_cond, b'_eq_susc]
  obtain ⟨es, hes⟩ := re_real vms vas
  obtain ⟨fs, hfs⟩ := im_real vms vas
  obtain ⟨ed, hed⟩ := re_real vmd vad
  obtain ⟨fd, hfd⟩ := im_real vmd vad
  rw [hes, hfs, hed, hfd]
  have hS : (((es : EReal) * ed - es * es) + fs * fd) - fs * fs
      = (((((es * ed - es * es) + fs * fd) - fs * fs : ℝ)) : EReal) := by norm_cast
  have hS' : ((((-(es : EReal)) * ed + es * es) - fs * fd) + fs * fs)
      = (((-(((es * ed - es * es) + fs * fd) - fs * fs) : ℝ)) : EReal) := by
    norm_cast; ring
  rw [hS, hS', sub_mul_coe]

theorem recvP_eq (vms vas vmd vad : ℝ) (r x : EReal) :
    recvP vms vas vmd vad r x
      = flowP (cond r x) (susc r x) (re vmd vad) (im vmd vad) (re vms vas) (im vms vas) := by
  unfold recvP dotD cross flowP
  rw [es_eq_re, fs_eq_im, ed_eq_re, fd_eq_im, g'_eq_cond, b'_eq_susc]
  obtain ⟨es, hes⟩ := re_real vms vas
  obtain ⟨fs, hfs⟩ := im_real vms vas
  obtain ⟨ed, hed⟩ := re_real vmd vad
  obtain ⟨fd, hfd⟩ := im_real vmd vad
  rw [hes, hfs, hed, hfd]
  have hD : (((es : EReal) * ed - ed * ed) + fs * fd) - fd * fd
      = (((ed : EReal) * es - ed * ed) + fd * fs) - fd * fd := by
    rw [mul_comm (es : EReal) ed, mul_comm (fs : EReal) fd]
  have hT : (fs : EReal) * ed - es * fd = (((fs * ed - es * fd : ℝ)) : EReal) := by norm_cast
  have hT' : (fd : EReal) * es - ed * fs = (((-(fs * ed - es * fd) : ℝ)) : EReal) := by
    norm_cast; ring
  rw [hD, hT, hT', sub_mul_coe]

theorem recvQ_eq (vms vas vmd vad : ℝ) (r x : EReal) :
    recvQ vms vas vmd vad r x
      = flowQ (cond r x) (susc r x) (re vmd vad) (im vmd vad) (re vms vas) (im vms vas) := by
  unfold recvQ dotD cross flowQ
  rw [es_eq_re, fs_eq_im, ed_eq_re, fd_eq_im, g'_eq_cond, b'_eq_susc]
  obtain ⟨es, hes⟩ := re_real vms vas
  obtain ⟨fs, hfs⟩ := im_real vms vas
  obtain ⟨ed, hed⟩ := re_real vmd vad
  obtain ⟨fd, hfd⟩ := im_real vmd vad
  rw [hes, hfs, hed, hfd]
  have hT : (fs : EReal) * ed - es * fd = (((fs * ed - es * fd : ℝ)) : EReal) := by norm_cast
  have hT' : (fd : EReal) * es - ed * fs = (((-(fs * ed - es * fd) : ℝ)) : EReal) := by
    norm_cast; ring
  have hD : (((es : EReal) * ed - ed * ed) + fs * fd) - fd * fd
      = (((((es * ed - ed * ed) + fs * fd) - fd * fd : ℝ)) : EReal) := by norm_cast
  have hD' : ((((-(ed : EReal)) * es + ed * ed) - fd * fs) + fd * fd)
      = (((-(((es * ed - ed * ed) + fs * fd) - fd * fd) : ℝ)) : EReal) := by
    norm_cast; ring
  rw [hT, hT', hD, hD', zero_sub_mul_coe, sub_mul_coe]

end Cert.Spec

end
-- ==== Proof.RefStages.lean ====
/-
  The reference program's stages read at one row: the shape operations at explicit coordinates, the gather of node rows
  at a column of index words, and each named stage of the reference's run as a scalar formula of the specification at
  the row's branch and its two end nodes.
-/
import proofs.«428348_j773094113348_2_alg».proof.Proof.RefRun
import proofs.«428348_j773094113348_2_alg».proof.Proof.Spec
import Idealize.ShloMosaic.Lib.ValueIdx
import Idealize.ShloMosaic.Lib.Pipeline.Value

noncomputable section

namespace Cert.RefRead

open Cert.ReferenceIdeal Cert.ReferenceIdeal.Gen Cert.ReferenceIdeal.Value Idealize.ShloMosaic Idealize.ShloMosaic.TcCoe
  Idealize.ShloMosaic.StableHlo Idealize.ShloMosaic.ValueIdx

/-! ## Reads of the shape operations at explicit coordinates -/

/-- A one-column slice of a two-axis table at column c reads, at row p, the table at (p, c). -/
theorem slice_col_apply {α : Type} {n m : Nat} (off : Nat) (c : Fin m) (hc : c.val = off)
    (x : (⟨2, ![n, m]⟩ : Shape).Idx → α) (h : (⟨2, ![n, m]⟩ : Shape).Slices ![0, off] ⟨2, ![n, 1]⟩) (p : Fin n) :
    extractStridedSlice ⟨2, ![n, 1]⟩ ![0, off] x h (ix2 p 0) = x (ix2 p c) :=
  extractStridedSlice_apply _ x h _ _ (fun a => by
    match a with
    | ⟨0, _⟩ => exact (Nat.zero_add _).symm
    | ⟨1, _⟩ => exact hc)

/-- A one-row slice of a two-row table at row r reads, at column q, the table at (r, q). -/
theorem slice_row_apply {α : Type} {m : Nat} (off : Nat) (r : Fin 2) (hr : r.val = off)
    (x : (⟨2, ![2, m]⟩ : Shape).Idx → α) (h : (⟨2, ![2, m]⟩ : Shape).Slices ![off, 0] ⟨2, ![1, m]⟩) (q : Fin m) :
    extractStridedSlice ⟨2, ![1, m]⟩ ![off, 0] x h (ix2 0 q) = x (ix2 r q) :=
  extractStridedSlice_apply _ x h _ _ (fun a => by
    match a with
    | ⟨0, _⟩ => exact hr
    | ⟨1, _⟩ => exact (Nat.zero_add _).symm)

/-- A one-row table flattened to a vector reads, at q, the table at (0, q). -/
theorem flatten_row_apply {α : Type} {m : Nat} (x : (⟨2, ![1, m]⟩ : Shape).Idx → α)
    (h : (⟨2, ![1, m]⟩ : Shape).ShapeCasts ⟨1, ![m]⟩) (q : Fin m) :
    shapeCast ⟨1, ![m]⟩ x h (ix1 q) = x (ix2 0 q) :=
  shapeCast_apply x h _ _ (by
    rw [Shape.rowMajor_val_two, Shape.rowMajor_val_one]
    show 0 * m + q.val = q.val
    omega)

/-- A row broadcast down the rows of a table reads, at (p, q), the row at (0, q). -/
theorem bcast_row_apply {α : Type} {n m : Nat} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 0 q) :=
  broadcastInDim_apply _ h v _ _ (fun a => by
    match a with
    | ⟨0, _⟩ => exact (if_pos rfl).symm
    | ⟨1, _⟩ =>
      show q.val = if m = 1 then 0 else q.val
      have := q.isLt
      split <;> omega)

/-- A vector kept as a one-column table reads, at (p, 0), the vector at p. -/
theorem bcast_col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p 0) = v (ix1 p) :=
  broadcastInDim_apply _ h v _ _ (fun a => by
    obtain rfl : a = 0 := Subsingleton.elim _ _
    show p.val = if n = 1 then 0 else p.val
    have := p.isLt
    split <;> omega)

/-- Two vectors of one length laid end to end: a position below that length reads the first … -/
theorem concat_vec_lo {α : Type} {n N : Nat} (h : Shape.Concatenates [⟨1, ![n]⟩, ⟨1, ![n]⟩] ⟨1, ![N]⟩ 0)
    (x y : (⟨1, ![n]⟩ : Shape).Idx → α) (k : Fin N) (hk : k.val < n) :
    concatenate ⟨1, ![N]⟩ 0 [⟨⟨1, ![n]⟩, x⟩, ⟨⟨1, ![n]⟩, y⟩] h (ix1 k) = x (ix1 ⟨k.val, hk⟩) :=
  concatenate_pair_apply_left 0 x y h _ rfl _ (fun b => by
    obtain rfl : b = 0 := Subsingleton.elim _ _
    rfl)

/-- … and a position at or past it reads the second, that length less. -/
theorem concat_vec_hi {α : Type} {n N : Nat} (h : Shape.Concatenates [⟨1, ![n]⟩, ⟨1, ![n]⟩] ⟨1, ![N]⟩ 0)
    (x y : (⟨1, ![n]⟩ : Shape).Idx → α) (k : Fin N) (hk : n ≤ k.val) (hk' : k.val - n < n) :
    concatenate ⟨1, ![N]⟩ 0 [⟨⟨1, ![n]⟩, x⟩, ⟨⟨1, ![n]⟩, y⟩] h (ix1 k) = y (ix1 ⟨k.val - n, hk'⟩) :=
  concatenate_pair_apply_right 0 x y h _ rfl rfl _ (fun b hb => absurd (Subsingleton.elim _ _) hb) (by
    show k.val - n + n = k.val
    omega)

/-- Two tables of one height stacked: a row below that height reads the first … -/
theorem concat_rows_lo {α : Type} {n N m : Nat} (h : Shape.Concatenates [⟨2, ![n, m]⟩, ⟨2, ![n, m]⟩] ⟨2, ![N, m]⟩ 0)
    (x y : (⟨2, ![n, m]⟩ : Shape).Idx → α) (k : Fin N) (j : Fin m) (hk : k.val < n) :
    concatenate ⟨2, ![N, m]⟩ 0 [⟨⟨2, ![n, m]⟩, x⟩, ⟨⟨2, ![n, m]⟩, y⟩] h (ix2 k j) = x (ix2 ⟨k.val, hk⟩ j) :=
  concatenate_pair_apply_left 0 x y h _ rfl _ (fun b => by
    match b with
    | ⟨0, _⟩ => rfl
    | ⟨1, _⟩ => rfl)

/-- … and a row at or past it reads the second, that height less. -/
theorem concat_rows_hi {α : Type} {n N m : Nat} (h : Shape.Concatenates [⟨2, ![n, m]⟩, ⟨2, ![n, m]⟩] ⟨2, ![N, m]⟩ 0)
    (x y : (⟨2, ![n, m]⟩ : Shape).Idx → α) (k : Fin N) (j : Fin m) (hk : n ≤ k.val) (hk' : k.val - n < n) :
    concatenate ⟨2, ![N, m]⟩ 0 [⟨⟨2, ![n, m]⟩, x⟩, ⟨⟨2, ![n, m]⟩, y⟩] h (ix2 k j) = y (ix2 ⟨k.val - n, hk'⟩ j) :=
  concatenate_pair_apply_right 0 x y h _ rfl rfl _ (fun b hb => by
    match b with
    | ⟨0, _⟩ => exact absurd rfl hb
    | ⟨1, _⟩ => rfl) (by
    show k.val - n + n = k.val
    omega)

/-- Two one-column tables side by side: column 0 reads the first … -/
theorem concat_cols_left {α : Type} {n : Nat} (h : Shape.Concatenates [⟨2, ![n, 1]⟩, ⟨2, ![n, 1]⟩] ⟨2, ![n, 2]⟩ 1)
    (x y : (⟨2, ![n, 1]⟩ : Shape).Idx → α) (k : Fin n) :
    concatenate ⟨2, ![n, 2]⟩ 1 [⟨⟨2, ![n, 1]⟩, x⟩, ⟨⟨2, ![n, 1]⟩, y⟩] h (ix2 k 0) = x (ix2 k 0) :=
  concatenate_pair_apply_left 1 x y h _ rfl _ (fun b => by
    match b with
    | ⟨0, _⟩ => rfl
    | ⟨1, _⟩ => rfl)

/-- … and column 1 the second. -/
theorem concat_cols_right {α : Type} {n : Nat} (h : Shape.Concatenates [⟨2, ![n, 1]⟩, ⟨2, ![n, 1]⟩] ⟨2, ![n, 2]⟩ 1)
    (x y : (⟨2, ![n, 1]⟩ : Shape).Idx → α) (k : Fin n) :
    concatenate ⟨2, ![n, 2]⟩ 1 [⟨⟨2, ![n, 1]⟩, x⟩, ⟨⟨2, ![n, 1]⟩, y⟩] h (ix2 k 1) = y (ix2 k 0) :=
  concatenate_pair_apply_right 1 x y h _ rfl rfl _ (fun b hb => by
    match b with
    | ⟨0, _⟩ => rfl
    | ⟨1, _⟩ => exact absurd rfl hb) rfl

/-! ## The index words -/

/-- An index word that is not negative passes the wrap-around (add the table length when negative) unchanged. -/
theorem wrap_apply {s : Shape} (h0 : S_.BroadcastsInDim s (![] : Fin 0 → Fin s.rank)) (w : IVec s 32) (i : s.Idx)
    (h : 0 ≤ (w i).toInt) :
    select (cmpi .slt w (broadcastInDim s ![] h0 (constantI S_ 32 0#32)))
      (addi w (broadcastInDim s ![] h0 (constantI S_ 32 100000#32))) w i = w i := by
  have hs : (w i).slt 0#32 = false := by
    simp [BitVec.slt]
    exact h
  have hc : IntOp.cmpi .slt (w i) 0#32 = 0#1 := by
    show BitVec.ofBool ((w i).slt 0#32) = 0#1
    rw [hs]
    rfl
  show Scalar.select (IntOp.cmpi .slt (w i) 0#32) _ _ = _
  rw [hc]
  exact select_zero _ _

/-! ## The gather of rows -/

/-- A gather of whole rows of the node table at a column of start indices reads, at row k and column j, the table at
    the row the start index names — read signed and kept inside the table — and column j. On the row axis the start is
    the clamped index word and nothing is added (the axis is collapsed, none is batching); on the column axis the
    start is 0 and the offset is j. -/
theorem gather_rows_apply₀ {α : Type} (x : S100000x6.Idx → α) (idx : IVec S3200000x1 32) (k : Fin 3200000) (j : Fin 6) :
    Host.gather gather_S100000x6_S3200000x1_S3200000x6_1_0_n_n_0_1_16 x idx (ix2 k j)
      = x (ix2 ⟨min (idx (ix2 k 0)).toInt.toNat 99999, by omega⟩ j) := by
  unfold Host.gather
  congr 1
  funext a
  refine Fin.ext ?_
  match a with
  | ⟨0, _⟩ =>
    show gather_S100000x6_S3200000x1_S3200000x6_1_0_n_n_0_1_16.start (ix2 k j) idx 0
      + gather_S100000x6_S3200000x1_S3200000x6_1_0_n_n_0_1_16.batchCoord (ix2 k j) 0
      + gather_S100000x6_S3200000x1_S3200000x6_1_0_n_n_0_1_16.offCoord (ix2 k j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x6_S3200000x1_S3200000x6_1_0_n_n_0_1_16.startIndexMap from
      List.mem_singleton.mpr rfl)]
    have hsi : gather_S100000x6_S3200000x1_S3200000x6_1_0_n_n_0_1_16.siIdx (ix2 k j)
        ⟨List.idxOf (0 : Fin 2) gather_S100000x6_S3200000x1_S3200000x6_1_0_n_n_0_1_16.startIndexMap,
          List.idxOf_lt_length_iff.2 (List.mem_singleton.mpr rfl)⟩ = ix2 k 0 := by
      funext b; refine Fin.ext ?_
      match b with
      | ⟨0, _⟩ => rfl
      | ⟨1, _⟩ => rfl
    rw [hsi]
    rfl
  | ⟨1, _⟩ =>
    show gather_S100000x6_S3200000x1_S3200000x6_1_0_n_n_0_1_16.start (ix2 k j) idx 1
      + gather_S100000x6_S3200000x1_S3200000x6_1_0_n_n_0_1_16.batchCoord (ix2 k j) 1
      + gather_S100000x6_S3200000x1_S3200000x6_1_0_n_n_0_1_16.offCoord (ix2 k j) 1 = j.val
    rw [GatherDims.batchCoord_eq_zero _ _ _ List.not_mem_nil]
    have hs : gather_S100000x6_S3200000x1_S3200000x6_1_0_n_n_0_1_16.start (ix2 k j) idx 1 = 0 := by
      unfold GatherDims.start
      rw [dif_neg (by decide)]
    rw [hs]
    simp only [Nat.add_zero, Nat.zero_add]
    rfl

/-- The same, at any row n whose number is the clamped index word. -/
theorem gather_rows_apply {α : Type} (x : S100000x6.Idx → α) (idx : IVec S3200000x1 32) (k : Fin 3200000) (j : Fin 6)
    (n : Fin 100000) (hn : n.val = min (idx (ix2 k 0)).toInt.toNat 99999) :
    Host.gather gather_S100000x6_S3200000x1_S3200000x6_1_0_n_n_0_1_16 x idx (ix2 k j) = x (ix2 n j) := by
  rw [gather_rows_apply₀]
  have e : (⟨min (idx (ix2 k 0)).toInt.toNat 99999, by omega⟩ : Fin 100000) = n := Fin.ext hn.symm
  rw [e]

/-! ## The reference's stages, read at a row

Row k of the doubled tables belongs to branch k mod 1,600,000; in the first half a row's flow is assigned to the source
end of its branch, in the second half to the destination end. -/

/-- The branch a row belongs to. -/
def br (k : Fin 3200000) : Fin 1600000 := ⟨k.val % 1600000, Nat.mod_lt _ (by norm_num)⟩
/-- The end of the branch a row's flow is assigned to (0 the source, 1 the destination). -/
def near (k : Fin 3200000) : Fin 2 := if k.val < 1600000 then 0 else 1
/-- The other end. -/
def far (k : Fin 3200000) : Fin 2 := if k.val < 1600000 then 1 else 0

theorem br_lo (k : Fin 3200000) (h : k.val < 1600000) : br k = ⟨k.val, h⟩ := Fin.ext (Nat.mod_eq_of_lt h)
theorem br_hi (k : Fin 3200000) (h : ¬ k.val < 1600000) (h' : k.val - 1600000 < 1600000) : br k = ⟨k.val - 1600000, h'⟩ :=
  Fin.ext (by
    show k.val % 1600000 = k.val - 1600000
    have := k.isLt
    omega)

/-- A host negation at an index negates the element. -/
theorem hostNegf_apply {s : Shape} {φ : FTy} (a : FVec Ideal s φ) (i : s.Idx) : Host.negf a i = -(a i) := rfl
/-- A host division at an index divides the elements. -/
theorem hostDivf_apply {s : Shape} {φ : FTy} (a b : FVec Ideal s φ) (i : s.Idx) : Host.divf a b i = Ideal.div (a i) (b i) := rfl

section Stages
variable (V0 : Valuation τ sig (Elt Ideal))

/-- The launch contents of the arguments the table is computed from. -/
abbrev A0 : S100000x6.Idx → EReal := V0 (Proc.devRef .tc main_arg0)
abbrev A1 : S2x1600000.Idx → BitVec 32 := V0 (Proc.devRef .tc main_arg1)
abbrev A2 : S1600000x2.Idx → EReal := V0 (Proc.devRef .tc main_arg2)
abbrev A4 : S1x6.Idx → EReal := V0 (Proc.devRef .tc main_arg4)
abbrev A5 : S1x6.Idx → EReal := V0 (Proc.devRef .tc main_arg5)
abbrev A6 : S1x2.Idx → EReal := V0 (Proc.devRef .tc main_arg6)
abbrev A7 : S1x2.Idx → EReal := V0 (Proc.devRef .tc main_arg7)

/-! ### The index words -/

theorem v1_apply (m : Fin 1600000) : res_main_v1 V0 (ix1 m) = A1 V0 (ix2 0 m) := by
  unfold res_main_v1
  exact (flatten_row_apply _ _ m).trans (slice_row_apply 0 0 rfl _ _ m)

theorem v3_apply (m : Fin 1600000) : res_main_v3 V0 (ix1 m) = A1 V0 (ix2 1 m) := by
  unfold res_main_v3
  exact (flatten_row_apply _ _ m).trans (slice_row_apply 1 1 rfl _ _ m)

/-- The scatter's index vector: sources, then destinations — the near end of each row. -/
theorem v4_apply (k : Fin 3200000) : res_main_v4 V0 (ix1 k) = A1 V0 (ix2 (near k) (br k)) := by
  unfold res_main_v4
  by_cases h : k.val < 1600000
  · rw [show near k = 0 from if_pos h, br_lo k h]
    exact (concat_vec_lo _ _ _ k h).trans (v1_apply V0 _)
  · have hk' : k.val - 1600000 < 1600000 := by have := k.isLt; omega
    rw [show near k = 1 from if_neg h, br_hi k h hk']
    exact (concat_vec_hi _ _ _ k (by omega) hk').trans (v3_apply V0 _)

/-- Destinations, then sources: the far end of each row. -/
theorem v5_apply (k : Fin 3200000) : res_main_v5 V0 (ix1 k) = A1 V0 (ix2 (far k) (br k)) := by
  unfold res_main_v5
  by_cases h : k.val < 1600000
  · rw [show far k = 1 from if_pos h, br_lo k h]
    exact (concat_vec_lo _ _ _ k h).trans (v3_apply V0 _)
  · have hk' : k.val - 1600000 < 1600000 := by have := k.isLt; omega
    rw [show far k = 0 from if_neg h, br_hi k h hk']
    exact (concat_vec_hi _ _ _ k (by omega) hk').trans (v1_apply V0 _)

/-- The column of start indices: the wrapped index vector, which under a non-negative word is the vector itself. -/
theorem idxcol_apply (w : IVec S3200000 32) (k : Fin 3200000) (h : 0 ≤ (w (ix1 k)).toInt) :
    broadcastInDim S3200000x1 ![0] bcast_S3200000_S3200000x1_0
      (select (cmpi .slt w (broadcastInDim S3200000 ![] bcast_S_S3200000 (constantI S_ 32 0#32)))
        (addi w (broadcastInDim S3200000 ![] bcast_S_S3200000 (constantI S_ 32 100000#32))) w) (ix2 k 0) = w (ix1 k) :=
  (bcast_col_apply _ _ k).trans (wrap_apply bcast_S_S3200000 w (ix1 k) h)

/-! ### The node features -/

theorem v10_apply (n : Fin 100000) (j : Fin 6) :
    res_main_v10 V0 (ix2 n j) = Cert.Spec.xd (A0 V0) (A4 V0) (A5 V0) n j := by
  unfold res_main_v10 Cert.Spec.xd
  rw [addf_apply, mulf_apply, bcast_row_apply, bcast_row_apply]

/-- The near end's features. -/
theorem v29_apply (hidx : ∀ i, 0 ≤ (A1 V0 i).toInt) (k : Fin 3200000) (j : Fin 6) :
    res_main_v29 V0 (ix2 k j) = Cert.Spec.xd (A0 V0) (A4 V0) (A5 V0) (Cert.Spec.node (A1 V0) (near k) (br k)) j := by
  unfold res_main_v29
  rw [gather_rows_apply _ _ k j (Cert.Spec.node (A1 V0) (near k) (br k)) ?_, v10_apply]
  rw [idxcol_apply _ k (by rw [v4_apply]; exact hidx _), v4_apply]
  rfl

/-- The far end's features. -/
theorem v36_apply (hidx : ∀ i, 0 ≤ (A1 V0 i).toInt) (k : Fin 3200000) (j : Fin 6) :
    res_main_v36 V0 (ix2 k j) = Cert.Spec.xd (A0 V0) (A4 V0) (A5 V0) (Cert.Spec.node (A1 V0) (far k) (br k)) j := by
  unfold res_main_v36
  rw [gather_rows_apply _ _ k j (Cert.Spec.node (A1 V0) (far k) (br k)) ?_, v10_apply]
  rw [idxcol_apply _ k (by rw [v5_apply]; exact hidx _), v5_apply]
  rfl

end Stages

section Stages2
variable (V0 : Valuation τ sig (Elt Ideal))

/-! ### The branch features, conductance and susceptance -/

/-- The branch table stacked on itself reads, at row k, the table at the row's branch. -/
theorem concat_rows_self {α : Type} (x : S1600000x2.Idx → α) (k : Fin 3200000) (j : Fin 2) :
    concatenate S3200000x2 0 [⟨S1600000x2, x⟩, ⟨S1600000x2, x⟩] concatenates_S1600000x2_S1600000x2_S3200000x2_d0 (ix2 k j)
      = x (ix2 (br k) j) := by
  by_cases h : k.val < 1600000
  · rw [br_lo k h]
    exact concat_rows_lo _ x x k j h
  · have hk' : k.val - 1600000 < 1600000 := by have := k.isLt; omega
    rw [br_hi k h hk']
    exact concat_rows_hi _ x x k j (by omega) hk'

theorem v14_apply (k : Fin 3200000) (j : Fin 2) :
    res_main_v14 V0 (ix2 k j) = Cert.Spec.ea (A2 V0) (A6 V0) (A7 V0) (br k) j := by
  unfold res_main_v14 Cert.Spec.ea
  rw [addf_apply, mulf_apply, bcast_row_apply, bcast_row_apply, concat_rows_self]

/-- The resistance column. -/
theorem v15_apply (k : Fin 3200000) : res_main_v15 V0 (ix2 k 0) = Cert.Spec.ea (A2 V0) (A6 V0) (A7 V0) (br k) 0 := by
  unfold res_main_v15
  exact (slice_col_apply 0 0 rfl _ _ k).trans (v14_apply V0 k 0)

/-- The reactance column. -/
theorem v16_apply (k : Fin 3200000) : res_main_v16 V0 (ix2 k 0) = Cert.Spec.ea (A2 V0) (A6 V0) (A7 V0) (br k) 1 := by
  unfold res_main_v16
  exact (slice_col_apply 1 1 rfl _ _ k).trans (v14_apply V0 k 1)

/-- r² + x². -/
theorem v19_apply (k : Fin 3200000) :
    res_main_v19 V0 (ix2 k 0) = Cert.Spec.ea (A2 V0) (A6 V0) (A7 V0) (br k) 0 * Cert.Spec.ea (A2 V0) (A6 V0) (A7 V0) (br k) 0
      + Cert.Spec.ea (A2 V0) (A6 V0) (A7 V0) (br k) 1 * Cert.Spec.ea (A2 V0) (A6 V0) (A7 V0) (br k) 1 := by
  unfold res_main_v19
  rw [addf_apply, mulf_apply, mulf_apply, v15_apply, v16_apply]

/-- The conductance. -/
theorem v20_apply (k : Fin 3200000) :
    res_main_v20 V0 (ix2 k 0)
      = Cert.Spec.cond (Cert.Spec.ea (A2 V0) (A6 V0) (A7 V0) (br k) 0) (Cert.Spec.ea (A2 V0) (A6 V0) (A7 V0) (br k) 1) := by
  unfold res_main_v20 Cert.Spec.cond
  rw [hostDivf_apply, v15_apply, v19_apply]

/-- The susceptance. -/
theorem v22_apply (k : Fin 3200000) :
    res_main_v22 V0 (ix2 k 0)
      = Cert.Spec.susc (Cert.Spec.ea (A2 V0) (A6 V0) (A7 V0) (br k) 0) (Cert.Spec.ea (A2 V0) (A6 V0) (A7 V0) (br k) 1) := by
  unfold res_main_v22 Cert.Spec.susc
  rw [hostDivf_apply, hostNegf_apply, v16_apply, v19_apply]

/-! ### The rectangular voltages at the two ends -/

variable (hidx : ∀ i, 0 ≤ (A1 V0 i).toInt)
include hidx

/-- The node at end s of a row's branch. -/
abbrev nd (s : Fin 2) (k : Fin 3200000) : Fin 100000 := Cert.Spec.node (A1 V0) s (br k)
/-- Its de-normalized feature j. -/
abbrev ft (s : Fin 2) (k : Fin 3200000) (j : Fin 6) : EReal := Cert.Spec.xd (A0 V0) (A4 V0) (A5 V0) (nd V0 s k) j

theorem v37_apply (k : Fin 3200000) : res_main_v37 V0 (ix2 k 0) = ft V0 (near k) k 0 := by
  unfold res_main_v37
  exact (slice_col_apply 0 0 rfl _ _ k).trans (v29_apply V0 hidx k 0)

theorem v40_apply (k : Fin 3200000) : res_main_v40 V0 (ix2 k 0) = Cert.Spec.deg * ft V0 (near k) k 1 := by
  unfold res_main_v40
  rw [mulf_apply, slice_col_apply 1 1 rfl, v29_apply V0 hidx]
  rfl

theorem v41_apply (k : Fin 3200000) : res_main_v41 V0 (ix2 k 0) = ft V0 (far k) k 0 := by
  unfold res_main_v41
  exact (slice_col_apply 0 0 rfl _ _ k).trans (v36_apply V0 hidx k 0)

theorem v44_apply (k : Fin 3200000) : res_main_v44 V0 (ix2 k 0) = Cert.Spec.deg * ft V0 (far k) k 1 := by
  unfold res_main_v44
  rw [mulf_apply, slice_col_apply 1 1 rfl, v36_apply V0 hidx]
  rfl

/-- e at the near end. -/
theorem v46_apply (k : Fin 3200000) :
    res_main_v46 V0 (ix2 k 0) = Cert.Spec.re (ft V0 (near k) k 0) (ft V0 (near k) k 1) := by
  unfold res_main_v46 Cert.Spec.re
  rw [mulf_apply, v37_apply V0 hidx]
  show _ * Ideal.cos (res_main_v40 V0 (ix2 k 0)) = _
  rw [v40_apply V0 hidx]

/-- f at the near end. -/
theorem v48_apply (k : Fin 3200000) :
    res_main_v48 V0 (ix2 k 0) = Cert.Spec.im (ft V0 (near k) k 0) (ft V0 (near k) k 1) := by
  unfold res_main_v48 Cert.Spec.im
  rw [mulf_apply, v37_apply V0 hidx]
  show _ * Ideal.sin (res_main_v40 V0 (ix2 k 0)) = _
  rw [v40_apply V0 hidx]

/-- e at the far end. -/
theorem v50_apply (k : Fin 3200000) :
    res_main_v50 V0 (ix2 k 0) = Cert.Spec.re (ft V0 (far k) k 0) (ft V0 (far k) k 1) := by
  unfold res_main_v50 Cert.Spec.re
  rw [mulf_apply, v41_apply V0 hidx]
  show _ * Ideal.cos (res_main_v44 V0 (ix2 k 0)) = _
  rw [v44_apply V0 hidx]

/-- f at the far end. -/
theorem v52_apply (k : Fin 3200000) :
    res_main_v52 V0 (ix2 k 0) = Cert.Spec.im (ft V0 (far k) k 0) (ft V0 (far k) k 1) := by
  unfold res_main_v52 Cert.Spec.im
  rw [mulf_apply, v41_apply V0 hidx]
  show _ * Ideal.sin (res_main_v44 V0 (ix2 k 0)) = _
  rw [v44_apply V0 hidx]

end Stages2

end Cert.RefRead

end
-- ==== Proof.RefUpdates.lean ====
/-
  The table of messages the reference scatters, named, and its value: row k, column c is the specification's message —
  the one-direction flow at the row's near end seen from its far end, which on real node features is the
  shared-cross-term form the specification's message is written in.
-/
import proofs.«428348_j773094113348_2_alg».proof.Proof.RefRun
import proofs.«428348_j773094113348_2_alg».proof.Proof.Spec
import proofs.«428348_j773094113348_2_alg».proof.Proof.FlowAlgebra
import proofs.«428348_j773094113348_2_alg».proof.Proof.RefStages
import Idealize.ShloMosaic.Lib.ValueIdx

noncomputable section

namespace Cert.RefRead

open Cert.ReferenceIdeal Cert.ReferenceIdeal.Gen Cert.ReferenceIdeal.Value Idealize.ShloMosaic Idealize.ShloMosaic.TcCoe
  Idealize.ShloMosaic.StableHlo Idealize.ShloMosaic.ValueIdx

/-- The table of messages the reference scatters: column 0 the active flow, column 1 the reactive flow, one row per
    branch end. -/
def updR (V0 : Valuation τ sig (Elt Ideal)) : S3200000x2.Idx → EReal :=
  concatenate S3200000x2 1 [⟨S3200000x1, (addf (mulf (res_main_v20 V0) (subf (addf (subf (mulf (res_main_v46 V0) (res_main_v50 V0)) (mulf (res_main_v46 V0) (res_main_v46 V0))) (mulf (res_main_v48 V0) (res_main_v52 V0))) (mulf (res_main_v48 V0) (res_main_v48 V0)))) (mulf (res_main_v22 V0) (subf (mulf (res_main_v48 V0) (res_main_v50 V0)) (mulf (res_main_v46 V0) (res_main_v52 V0)))))⟩, ⟨S3200000x1, (addf (mulf (res_main_v20 V0) (subf (mulf (res_main_v48 V0) (res_main_v50 V0)) (mulf (res_main_v46 V0) (res_main_v52 V0)))) (mulf (res_main_v22 V0) (addf (subf (addf (mulf (Host.negf (res_main_v46 V0)) (res_main_v50 V0)) (mulf (res_main_v46 V0) (res_main_v46 V0))) (mulf (res_main_v48 V0) (res_main_v52 V0))) (mulf (res_main_v48 V0) (res_main_v48 V0)))))⟩] concatenates_S3200000x1_S3200000x1_S3200000x2_d1

/-- The reference's scatter-add, with its table of messages named. -/
theorem res_main_v83_eq (V0 : Valuation τ sig (Elt Ideal)) :
    res_main_v83 (F := Ideal) V0 = Host.scatterAdd (F := Ideal) scatter_S100000x2_S3200000x1_S3200000x2_1_0_0_1
      (broadcastInDim S100000x2 ![] bcast_S_S100000x2 (constant S_ .f32 0x00000000#32))
      (broadcastInDim S3200000x1 ![0] bcast_S3200000_S3200000x1_0 (res_main_v4 V0)) (updR V0) := rfl

section Columns
variable (V0 : Valuation τ sig (Elt Ideal)) (hidx : ∀ i, 0 ≤ (A1 V0 i).toInt)
include hidx

/-- The branch's resistance and reactance at a row. -/
abbrev rr (k : Fin 3200000) : EReal := Cert.Spec.ea (A2 V0) (A6 V0) (A7 V0) (br k) 0
abbrev xx (k : Fin 3200000) : EReal := Cert.Spec.ea (A2 V0) (A6 V0) (A7 V0) (br k) 1

/-- Column 0: the active flow at the near end seen from the far end. -/
theorem updR_col0 (k : Fin 3200000) :
    updR V0 (ix2 k 0) = Cert.Spec.flowP (Cert.Spec.cond (rr V0 k) (xx V0 k)) (Cert.Spec.susc (rr V0 k) (xx V0 k))
      (Cert.Spec.re (ft V0 (near k) k 0) (ft V0 (near k) k 1)) (Cert.Spec.im (ft V0 (near k) k 0) (ft V0 (near k) k 1))
      (Cert.Spec.re (ft V0 (far k) k 0) (ft V0 (far k) k 1)) (Cert.Spec.im (ft V0 (far k) k 0) (ft V0 (far k) k 1)) := by
  unfold updR
  rw [concat_cols_left]
  simp only [addf_apply, mulf_apply, subf_apply]
  rw [v20_apply, v22_apply, v46_apply V0 hidx, v48_apply V0 hidx, v50_apply V0 hidx, v52_apply V0 hidx]
  rfl

/-- Column 1: the reactive flow at the near end seen from the far end. -/
theorem updR_col1 (k : Fin 3200000) :
    updR V0 (ix2 k 1) = Cert.Spec.flowQ (Cert.Spec.cond (rr V0 k) (xx V0 k)) (Cert.Spec.susc (rr V0 k) (xx V0 k))
      (Cert.Spec.re (ft V0 (near k) k 0) (ft V0 (near k) k 1)) (Cert.Spec.im (ft V0 (near k) k 0) (ft V0 (near k) k 1))
      (Cert.Spec.re (ft V0 (far k) k 0) (ft V0 (far k) k 1)) (Cert.Spec.im (ft V0 (far k) k 0) (ft V0 (far k) k 1)) := by
  unfold updR
  rw [concat_cols_right]
  simp only [addf_apply, mulf_apply, subf_apply, hostNegf_apply]
  rw [v20_apply, v22_apply, v46_apply V0 hidx, v48_apply V0 hidx, v50_apply V0 hidx, v52_apply V0 hidx]
  rfl

end Columns

/-! ## The table is the message of the specification -/

section Final
variable (V0 : Valuation τ sig (Elt Ideal))

/-- A column of a two-column table is column 0 or column 1. -/
theorem fin2_cases (c : Fin 2) : c = 0 ∨ c = 1 := by
  match c with
  | ⟨0, _⟩ => exact Or.inl rfl
  | ⟨1, _⟩ => exact Or.inr rfl

/-- A de-normalized node feature of real inputs is real. -/
theorem xd_real (h0 : ∀ i, ∃ r : ℝ, A0 V0 i = (r : EReal)) (h4 : ∀ i, ∃ r : ℝ, A4 V0 i = (r : EReal))
    (h5 : ∀ i, ∃ r : ℝ, A5 V0 i = (r : EReal)) (n : Fin 100000) (j : Fin 6) :
    ∃ r : ℝ, Cert.Spec.xd (A0 V0) (A4 V0) (A5 V0) n j = (r : EReal) := by
  obtain ⟨a, ha⟩ := h0 (ix2 n j)
  obtain ⟨b, hb⟩ := h5 (ix2 0 j)
  obtain ⟨c, hc⟩ := h4 (ix2 0 j)
  refine ⟨a * b + c, ?_⟩
  unfold Cert.Spec.xd
  rw [ha, hb, hc, EReal.coe_add, EReal.coe_mul]

/-- Row k, column c of the table is the specification's message, given that the one-direction flows are the
    shared-cross-term forms on real node features (hSP … hRQ). -/
theorem updR_apply_of
    (hSP : ∀ (vms vas vmd vad : ℝ) (r x : EReal), Cert.Spec.sendP vms vas vmd vad r x
      = Cert.Spec.flowP (Cert.Spec.cond r x) (Cert.Spec.susc r x) (Cert.Spec.re vms vas) (Cert.Spec.im vms vas) (Cert.Spec.re vmd vad) (Cert.Spec.im vmd vad))
    (hSQ : ∀ (vms vas vmd vad : ℝ) (r x : EReal), Cert.Spec.sendQ vms vas vmd vad r x
      = Cert.Spec.flowQ (Cert.Spec.cond r x) (Cert.Spec.susc r x) (Cert.Spec.re vms vas) (Cert.Spec.im vms vas) (Cert.Spec.re vmd vad) (Cert.Spec.im vmd vad))
    (hRP : ∀ (vms vas vmd vad : ℝ) (r x : EReal), Cert.Spec.recvP vms vas vmd vad r x
      = Cert.Spec.flowP (Cert.Spec.cond r x) (Cert.Spec.susc r x) (Cert.Spec.re vmd vad) (Cert.Spec.im vmd vad) (Cert.Spec.re vms vas) (Cert.Spec.im vms vas))
    (hRQ : ∀ (vms vas vmd vad : ℝ) (r x : EReal), Cert.Spec.recvQ vms vas vmd vad r x
      = Cert.Spec.flowQ (Cert.Spec.cond r x) (Cert.Spec.susc r x) (Cert.Spec.re vmd vad) (Cert.Spec.im vmd vad) (Cert.Spec.re vms vas) (Cert.Spec.im vms vas))
    (h0 : ∀ i, ∃ r : ℝ, A0 V0 i = (r : EReal)) (h4 : ∀ i, ∃ r : ℝ, A4 V0 i = (r : EReal))
    (h5 : ∀ i, ∃ r : ℝ, A5 V0 i = (r : EReal)) (hidx : ∀ i, 0 ≤ (A1 V0 i).toInt)
    (k : Fin 3200000) (c : Fin 2) :
    updR V0 (ix2 k c) = Cert.Spec.msg (A0 V0) (A1 V0) (A2 V0) (A4 V0) (A5 V0) (A6 V0) (A7 V0) k c := by
  obtain ⟨vms, e1⟩ := xd_real V0 h0 h4 h5 (Cert.Spec.node (A1 V0) 0 (br k)) 0
  obtain ⟨vas, e2⟩ := xd_real V0 h0 h4 h5 (Cert.Spec.node (A1 V0) 0 (br k)) 1
  obtain ⟨vmd, e3⟩ := xd_real V0 h0 h4 h5 (Cert.Spec.node (A1 V0) 1 (br k)) 0
  obtain ⟨vad, e4⟩ := xd_real V0 h0 h4 h5 (Cert.Spec.node (A1 V0) 1 (br k)) 1
  have c0 := updR_col0 V0 hidx k
  have c1 := updR_col1 V0 hidx k
  simp only [ft, nd, rr, xx] at c0 c1
  unfold Cert.Spec.msg
  by_cases h : k.val < 1600000
  · rw [dif_pos h, ← br_lo k h]
    rw [show near k = 0 from if_pos h, show far k = 1 from if_pos h, e1, e2, e3, e4] at c0 c1
    obtain rfl | rfl := fin2_cases c
    · rw [if_pos rfl, e1, e2, e3, e4]
      exact c0.trans (hSP vms vas vmd vad _ _).symm
    · rw [if_neg (by decide), e1, e2, e3, e4]
      exact c1.trans (hSQ vms vas vmd vad _ _).symm
  · have hk' : k.val - 1600000 < 1600000 := by have := k.isLt; omega
    rw [dif_neg h, ← br_hi k h hk']
    rw [show near k = 1 from if_neg h, show far k = 0 from if_neg h, e1, e2, e3, e4] at c0 c1
    obtain rfl | rfl := fin2_cases c
    · rw [if_pos rfl, e1, e2, e3, e4]
      exact c0.trans (hRP vms vas vmd vad _ _).symm
    · rw [if_neg (by decide), e1, e2, e3, e4]
      exact c1.trans (hRQ vms vas vmd vad _ _).symm

end Final

/-- THE TABLE OF MESSAGES: under real node features and statistics and in-range node numbers, the table the reference
    scatters is the specification's message, row by row and column by column. -/
theorem updR_eq (V0 : Valuation τ sig (Elt Ideal))
    (h0 : ∀ i, ∃ r : ℝ, (V0 (Proc.devRef .tc main_arg0) : S100000x6.Idx → EReal) i = (r : EReal))
    (h4 : ∀ i, ∃ r : ℝ, (V0 (Proc.devRef .tc main_arg4) : S1x6.Idx → EReal) i = (r : EReal))
    (h5 : ∀ i, ∃ r : ℝ, (V0 (Proc.devRef .tc main_arg5) : S1x6.Idx → EReal) i = (r : EReal))
    (hidx : ∀ i, 0 ≤ ((V0 (Proc.devRef .tc main_arg1) : S2x1600000.Idx → BitVec 32) i).toInt ∧ ((V0 (Proc.devRef .tc main_arg1) : S2x1600000.Idx → BitVec 32) i).toInt < 100000) :
    updR V0 = fun i => Cert.Spec.msg (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (i 0) (i 1) := by
  funext i
  exact (congrArg (updR V0) (eq_ix2 i)).trans
    (updR_apply_of V0 Cert.Spec.sendP_eq Cert.Spec.sendQ_eq Cert.Spec.recvP_eq Cert.Spec.recvQ_eq h0 h4 h5 (fun j => (hidx j).1) (i 0) (i 1))

end Cert.RefRead

end
-- ==== Proof.PreFacts.lean ====
import proofs.«428348_j773094113348_2_alg».proof.Pre_finite_inputs
import Idealize.ShloMosaic.PureOps.Ideal
import Idealize.ShloMosaic.Lib.ReduceAll
import Idealize.ShloMosaic.Lib.ValueIdx

/-!
  The precondition, read back: every float entry it tests is a real number, and every
  entry of the index array lies in `[0, 100000)`.
-/

namespace Cert.PreFacts

open Idealize.ShloMosaic Cert.Pre_finite_inputs

/-- The shape with no axes has one index. -/
instance : Subsingleton S_.Idx := ⟨fun a b => funext fun d => d.elim0⟩

/-- An extended real whose absolute value is strictly below `+∞` is a real number. -/
theorem real_of_abs_lt_top (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  induction x using EReal.rec with
  | bot => simp [Ideal.cmp] at hx
  | coe r => exact ⟨r, rfl⟩
  | top => simp [Ideal.cmp] at hx

/-- The conjunction of `|x i| < +∞` over all indices of an array is 1: every entry of `x` is a real number. -/
theorem all_real {s : Shape} {axes : List (Fin s.rank)} (hb : S_.BroadcastsInDim s (![] : Fin 0 → Fin s.rank))
    (hr : s.ReducesTo axes S_) (hu : 0 < S_.numel) (x : FVec Ideal s .f32) (j : S_.Idx)
    (e : Host.reduce IntOp.andi (cmpf .olt (Host.absf x) (broadcastInDim s ![] hb (constant S_ .f32 0x7F800000#32)))
      (constantI S_ 1 1#1) hr hu j = 1#1) (i : s.Idx) : ∃ r : ℝ, x i = (r : EReal) :=
  real_of_abs_lt_top (x i) (Host.reduce_andi_all _ _ hr hu j e i)

/-- The conjunction of `0 ≤ a i ∧ a i < 100000` (signed compares of 32-bit words) over all indices is 1: every entry lies in that range. -/
theorem all_in_range {s : Shape} {axes : List (Fin s.rank)} (hb : S_.BroadcastsInDim s (![] : Fin 0 → Fin s.rank))
    (hr : s.ReducesTo axes S_) (hu : 0 < S_.numel) (a : IVec s 32) (j : S_.Idx)
    (e : Host.reduce IntOp.andi
      (andi (cmpi .sge a (broadcastInDim s ![] hb (constantI S_ 32 0#32)))
        (cmpi .slt a (broadcastInDim s ![] hb (constantI S_ 32 100000#32))))
      (constantI S_ 1 1#1) hr hu j = 1#1) (i : s.Idx) : 0 ≤ (a i).toInt ∧ (a i).toInt < 100000 := by
  obtain ⟨h1, h2⟩ := IntOp.andi_eq_one.1 (Host.reduce_andi_all _ _ hr hu j e i)
  have h1' : (0#32).toInt ≤ (a i).toInt := IntOp.cmpi_sge.1 h1
  have h2' : (a i).toInt < (100000#32).toInt := IntOp.cmpi_slt.1 h2
  have e0 : (0#32).toInt = 0 := by decide
  have e1 : (100000#32).toInt = 100000 := by decide
  rw [e0] at h1'
  rw [e1] at h2'
  exact ⟨h1', h2'⟩

/-- The precondition holds: the first `100000×6` array and the two `1×6` rows are real, and every entry of the index array lies in `[0, 100000)`. -/
theorem decode [Cert.Pre_finite_inputs.Facts] (a0 : FVec Ideal Cert.Pre_finite_inputs.S100000x6 .f32)
    (a1 : IVec Cert.Pre_finite_inputs.S2x1600000 32) (a2 : FVec Ideal Cert.Pre_finite_inputs.S1600000x2 .f32)
    (a3 : FVec Ideal Cert.Pre_finite_inputs.S100000x6 .f32) (a4 a5 : FVec Ideal Cert.Pre_finite_inputs.S1x6 .f32)
    (a6 a7 : FVec Ideal Cert.Pre_finite_inputs.S1x2 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a4 i = (r : EReal)) ∧ (∀ i, ∃ r : ℝ, a5 i = (r : EReal))
      ∧ (∀ i, 0 ≤ (a1 i).toInt ∧ (a1 i).toInt < 100000) := by
  have h0 := congrFun h ValueIdx.ix0
  dsimp only [fn, fn_part1, fn_part2] at h0
  obtain ⟨h33, h39⟩ := IntOp.andi_eq_one.1 h0
  obtain ⟨h28, -⟩ := IntOp.andi_eq_one.1 h33
  obtain ⟨h23, -⟩ := IntOp.andi_eq_one.1 h28
  obtain ⟨h18, h22⟩ := IntOp.andi_eq_one.1 h23
  obtain ⟨h13, h17⟩ := IntOp.andi_eq_one.1 h18
  obtain ⟨h8, -⟩ := IntOp.andi_eq_one.1 h13
  obtain ⟨h3, -⟩ := IntOp.andi_eq_one.1 h8
  exact ⟨all_real _ _ _ a0 _ h3, all_real _ _ _ a4 _ h17, all_real _ _ _ a5 _ h22, all_in_range _ _ _ a1 _ h39⟩

end Cert.PreFacts
-- ==== Proof.Bridge.lean ====
/-
  The two programs' results are one function of the arguments.

  Both programs end with the same host computation: the table of 3,200,000 messages is scatter-added by the branch ends
  into a 100000 x 2 array of zeros, subtracted from columns 2 and 3 of the de-normalized node features, squared, averaged,
  and added to the mean squared difference of x and y. So the results agree as soon as the two tables of messages do,
  and both tables are the specification's `msg`: the kernel's by its pointwise body read through the row-major layout of
  its four result arrays (row k of the first pair is position (k / 128, k % 128)), the reference's by the flow formulas,
  which the shared-cross-term forms equal wherever the node features are real. In-range node numbers make the kernel's
  masked take and the reference's clamped gather read the same node.
-/
import proofs.«428348_j773094113348_2_alg».proof.Defs
import proofs.«428348_j773094113348_2_alg».proof.Proof.Gen.Pre_finite_inputs
import proofs.«428348_j773094113348_2_alg».proof.Proof.KOut
import proofs.«428348_j773094113348_2_alg».proof.Proof.KTail
import proofs.«428348_j773094113348_2_alg».proof.Proof.KernelEntry
import proofs.«428348_j773094113348_2_alg».proof.Proof.MsgLayout
import proofs.«428348_j773094113348_2_alg».proof.Proof.RefUpdates
import proofs.«428348_j773094113348_2_alg».proof.Proof.PreFacts

set_option maxRecDepth 16384

noncomputable section

namespace Cert.Bridge

open Idealize.ShloMosaic Idealize.ShloMosaic.TcCoe Idealize.ShloMosaic.ValueIdx Idealize.SL.Sem

/-! ## The kernel's side -/

section Kernel

open Cert.KernelIdeal Cert.KernelIdeal.Gen Cert.KernelEntry

variable (m : (ℓ : Loc nD τ sig) → Buf (Elt Ideal) ℓ) (c : Dev nD)

/-- At the ideal instance the body's four words are the shared-cross-term flows. -/
theorem w6_eq (a b c' d e f : EReal) : Body.w6 (F := Ideal) a b c' d e f = Cert.Spec.sendP a b c' d e f := rfl
theorem w7_eq (a b c' d e f : EReal) : Body.w7 (F := Ideal) a b c' d e f = Cert.Spec.sendQ a b c' d e f := rfl
theorem w8_eq (a b c' d e f : EReal) : Body.w8 (F := Ideal) a b c' d e f = Cert.Spec.recvP a b c' d e f := rfl
theorem w9_eq (a b c' d e f : EReal) : Body.w9 (F := Ideal) a b c' d e f = Cert.Spec.recvQ a b c' d e f := rfl

/-- Position (k / 128, k % 128) of the 12500 x 128 arrangement is branch k. -/
theorem kOf_div_mod (k : Nat) (h : k < 1600000) (h1 : k / 128 < 12500) (h2 : k % 128 < 128) :
    kOf (ix2 (⟨k / 128, h1⟩ : Fin 12500) (⟨k % 128, h2⟩ : Fin 128)) = ⟨k, h⟩ :=
  Fin.ext (Nat.div_add_mod k 128)

theorem fin2_cases (x : Fin 2) : x = 0 ∨ x = 1 := by
  match x with
  | ⟨0, _⟩ => exact .inl rfl
  | ⟨1, _⟩ => exact .inr rfl

/-- The four result arrays at a position, as flows of the branch there. -/
theorem G6_apply (hidx : ∀ j, 0 ≤ (B1 m c j).toInt ∧ (B1 m c j).toInt < 100000) (i : S12500x128.Idx) :
    Out.G6 m c i = Cert.Spec.sendP
      (Cert.Spec.xd (B0 m c) (B4 m c) (B5 m c) (Cert.Spec.node (B1 m c) 0 (kOf i)) 0) (Cert.Spec.xd (B0 m c) (B4 m c) (B5 m c) (Cert.Spec.node (B1 m c) 0 (kOf i)) 1)
      (Cert.Spec.xd (B0 m c) (B4 m c) (B5 m c) (Cert.Spec.node (B1 m c) 1 (kOf i)) 0) (Cert.Spec.xd (B0 m c) (B4 m c) (B5 m c) (Cert.Spec.node (B1 m c) 1 (kOf i)) 1)
      (Cert.Spec.ea (B2 m c) (B6 m c) (B7 m c) (kOf i) 0) (Cert.Spec.ea (B2 m c) (B6 m c) (B7 m c) (kOf i) 1) := by
  unfold Out.G6
  rw [entry0 m c hidx i, entry1 m c hidx i, entry2 m c hidx i, entry3 m c hidx i, entry4 m c i, entry5 m c i, w6_eq]
theorem G7_apply (hidx : ∀ j, 0 ≤ (B1 m c j).toInt ∧ (B1 m c j).toInt < 100000) (i : S12500x128.Idx) :
    Out.G7 m c i = Cert.Spec.sendQ
      (Cert.Spec.xd (B0 m c) (B4 m c) (B5 m c) (Cert.Spec.node (B1 m c) 0 (kOf i)) 0) (Cert.Spec.xd (B0 m c) (B4 m c) (B5 m c) (Cert.Spec.node (B1 m c) 0 (kOf i)) 1)
      (Cert.Spec.xd (B0 m c) (B4 m c) (B5 m c) (Cert.Spec.node (B1 m c) 1 (kOf i)) 0) (Cert.Spec.xd (B0 m c) (B4 m c) (B5 m c) (Cert.Spec.node (B1 m c) 1 (kOf i)) 1)
      (Cert.Spec.ea (B2 m c) (B6 m c) (B7 m c) (kOf i) 0) (Cert.Spec.ea (B2 m c) (B6 m c) (B7 m c) (kOf i) 1) := by
  unfold Out.G7
  rw [entry0 m c hidx i, entry1 m c hidx i, entry2 m c hidx i, entry3 m c hidx i, entry4 m c i, entry5 m c i, w7_eq]
theorem G8_apply (hidx : ∀ j, 0 ≤ (B1 m c j).toInt ∧ (B1 m c j).toInt < 100000) (i : S12500x128.Idx) :
    Out.G8 m c i = Cert.Spec.recvP
      (Cert.Spec.xd (B0 m c) (B4 m c) (B5 m c) (Cert.Spec.node (B1 m c) 0 (kOf i)) 0) (Cert.Spec.xd (B0 m c) (B4 m c) (B5 m c) (Cert.Spec.node (B1 m c) 0 (kOf i)) 1)
      (Cert.Spec.xd (B0 m c) (B4 m c) (B5 m c) (Cert.Spec.node (B1 m c) 1 (kOf i)) 0) (Cert.Spec.xd (B0 m c) (B4 m c) (B5 m c) (Cert.Spec.node (B1 m c) 1 (kOf i)) 1)
      (Cert.Spec.ea (B2 m c) (B6 m c) (B7 m c) (kOf i) 0) (Cert.Spec.ea (B2 m c) (B6 m c) (B7 m c) (kOf i) 1) := by
  unfold Out.G8
  rw [entry0 m c hidx i, entry1 m c hidx i, entry2 m c hidx i, entry3 m c hidx i, entry4 m c i, entry5 m c i, w8_eq]
theorem G9_apply (hidx : ∀ j, 0 ≤ (B1 m c j).toInt ∧ (B1 m c j).toInt < 100000) (i : S12500x128.Idx) :
    Out.G9 m c i = Cert.Spec.recvQ
      (Cert.Spec.xd (B0 m c) (B4 m c) (B5 m c) (Cert.Spec.node (B1 m c) 0 (kOf i)) 0) (Cert.Spec.xd (B0 m c) (B4 m c) (B5 m c) (Cert.Spec.node (B1 m c) 0 (kOf i)) 1)
      (Cert.Spec.xd (B0 m c) (B4 m c) (B5 m c) (Cert.Spec.node (B1 m c) 1 (kOf i)) 0) (Cert.Spec.xd (B0 m c) (B4 m c) (B5 m c) (Cert.Spec.node (B1 m c) 1 (kOf i)) 1)
      (Cert.Spec.ea (B2 m c) (B6 m c) (B7 m c) (kOf i) 0) (Cert.Spec.ea (B2 m c) (B6 m c) (B7 m c) (kOf i) 1) := by
  unfold Out.G9
  rw [entry0 m c hidx i, entry1 m c hidx i, entry2 m c hidx i, entry3 m c hidx i, entry4 m c i, entry5 m c i, w9_eq]

/-- The kernel's table of messages is the specification's. -/
theorem table_eq (hidx : ∀ j, 0 ≤ (B1 m c j).toInt ∧ (B1 m c j).toInt < 100000) :
    Tail.table (Out.G6 m c) (Out.G7 m c) (Out.G8 m c) (Out.G9 m c)
      = fun i => Cert.Spec.msg (B0 m c) (B1 m c) (B2 m c) (B4 m c) (B5 m c) (B6 m c) (B7 m c) (i 0) (i 1) := by
  funext i
  obtain ⟨k, col, rfl⟩ : ∃ (k : Fin 3200000) (col : Fin 2), i = ix2 k col := ⟨i 0, i 1, eq_ix2 i⟩
  show Tail.table (Out.G6 m c) (Out.G7 m c) (Out.G8 m c) (Out.G9 m c) (ix2 k col)
    = Cert.Spec.msg (B0 m c) (B1 m c) (B2 m c) (B4 m c) (B5 m c) (B6 m c) (B7 m c) k col
  unfold Tail.table
  rw [Cert.KLayout.table_apply]
  unfold Cert.Spec.msg
  by_cases h : k.val < 1600000
  · rw [dif_pos h, dif_pos h]
    rcases fin2_cases col with rfl | rfl
    · rw [if_pos rfl, if_pos rfl, G6_apply m c hidx, kOf_div_mod k.val h]
    · rw [if_neg (by decide), if_neg (by decide), G7_apply m c hidx, kOf_div_mod k.val h]
  · rw [dif_neg h, dif_neg h]
    have h' : k.val - 1600000 < 1600000 := by have := k.isLt; omega
    rcases fin2_cases col with rfl | rfl
    · rw [if_pos rfl, if_pos rfl, G8_apply m c hidx, kOf_div_mod (k.val - 1600000) h']
    · rw [if_neg (by decide), if_neg (by decide), G9_apply m c hidx, kOf_div_mod (k.val - 1600000) h']

/-- The kernel program's result, as the common last stretch applied to the specification's table. -/
theorem kernel_value (hidx : ∀ j, 0 ≤ (B1 m c j).toInt ∧ (B1 m c j).toInt < 100000) :
    Pipeline.afterTail₀ cfgs (Body.dats m) 0 (V0 m) [hostOps1] c main_v69
      = Tail.value (B0 m c) (m ((c : Thread nD τ).loc main_arg3))
          (addf (F := Ideal) (φ := .f32) (mulf (F := Ideal) (φ := .f32) (B0 m c) (broadcastInDim S100000x6 ![0, 1] bcast_S1x6_S100000x6_0_1 (B5 m c)))
            (broadcastInDim S100000x6 ![0, 1] bcast_S1x6_S100000x6_0_1 (B4 m c)))
          (concatenate S3200000 0
            [⟨S1600000, shapeCast S1600000 (extractStridedSlice S1x1600000 ![0, 0] (B1 m c) slices_S2x1600000_S1x1600000_0_0) shapeCasts_S1x1600000_S1600000⟩,
             ⟨S1600000, shapeCast S1600000 (extractStridedSlice S1x1600000 ![1, 0] (B1 m c) slices_S2x1600000_S1x1600000_1_0) shapeCasts_S1x1600000_S1600000⟩]
            concatenates_S1600000_S1600000_S3200000_d0)
          (fun i => Cert.Spec.msg (B0 m c) (B1 m c) (B2 m c) (B4 m c) (B5 m c) (B6 m c) (B7 m c) (i 0) (i 1)) := by
  rw [Tail.tail_eq m (Body.dats m) c, Out.out_6 m c, Out.out_7 m c, Out.out_8 m c, Out.out_9 m c, table_eq m c hidx,
    Tail.V_v7 m c, Tail.V_v1 m c, Tail.V_v3 m c]

end Kernel

/-! ## The reference's side -/

section Reference

open Cert.ReferenceIdeal Cert.ReferenceIdeal.Gen Cert.ReferenceIdeal.Value

/-- The reference program's result (the term its run ends at), as the same last stretch applied to its own table. -/
theorem ref_value (V0 : Valuation τ sig (Elt Ideal)) :
    (addf (mulf (constant S_ .f32 0x3F000000#32) (Host.divf (Host.reduceAdd (mulf (res_main_v101 V0) (res_main_v101 V0)) (constant S_ .f32 0x00000000#32) reducesTo_S100000x6_S_d0_1 h_S_) (constant S_ .f32 0x49127C00#32))) (mulf (constant S_ .f32 0x3C23D70A#32) (Host.divf (Host.reduceAdd (addf (mulf (res_main_v89 V0) (res_main_v89 V0)) (mulf (res_main_v95 V0) (res_main_v95 V0))) (constant S_ .f32 0x00000000#32) reducesTo_S100000_S_d0 h_S_) (constant S_ .f32 0x47C35000#32))) : S_.Idx → EReal)
      = Cert.KernelIdeal.Tail.value (V0 (Proc.devRef .tc main_arg0)) (V0 (Proc.devRef .tc main_arg3)) (res_main_v10 V0) (res_main_v4 V0)
          (Cert.RefRead.updR V0) := by
  unfold res_main_v89 res_main_v95 res_main_v101
  rw [Cert.RefRead.res_main_v83_eq]
  rfl

/-- The same with the table read: from arrays the launch valuation holds at the arguments — real node features and
    statistics, node numbers inside the table — the reference's result is the last stretch applied to the specification's
    table of messages over those arrays. -/
theorem ref_value_msg (V0 : Valuation τ sig (Elt Ideal))
    (A0 A3 : Cert.KernelIdeal.S100000x6.Idx → EReal) (A1 : Cert.KernelIdeal.S2x1600000.Idx → BitVec 32)
    (A2 : Cert.KernelIdeal.S1600000x2.Idx → EReal) (A4 A5 : Cert.KernelIdeal.S1x6.Idx → EReal) (A6 A7 : Cert.KernelIdeal.S1x2.Idx → EReal)
    (e0 : V0 (Proc.devRef .tc main_arg0) = A0) (e1 : V0 (Proc.devRef .tc main_arg1) = A1) (e2 : V0 (Proc.devRef .tc main_arg2) = A2)
    (e3 : V0 (Proc.devRef .tc main_arg3) = A3) (e4 : V0 (Proc.devRef .tc main_arg4) = A4) (e5 : V0 (Proc.devRef .tc main_arg5) = A5)
    (e6 : V0 (Proc.devRef .tc main_arg6) = A6) (e7 : V0 (Proc.devRef .tc main_arg7) = A7)
    (h0 : ∀ i, ∃ r : ℝ, A0 i = (r : EReal)) (h4 : ∀ i, ∃ r : ℝ, A4 i = (r : EReal)) (h5 : ∀ i, ∃ r : ℝ, A5 i = (r : EReal))
    (hidx : ∀ i, 0 ≤ (A1 i).toInt ∧ (A1 i).toInt < 100000) :
    (addf (mulf (constant S_ .f32 0x3F000000#32) (Host.divf (Host.reduceAdd (mulf (res_main_v101 V0) (res_main_v101 V0)) (constant S_ .f32 0x00000000#32) reducesTo_S100000x6_S_d0_1 h_S_) (constant S_ .f32 0x49127C00#32))) (mulf (constant S_ .f32 0x3C23D70A#32) (Host.divf (Host.reduceAdd (addf (mulf (res_main_v89 V0) (res_main_v89 V0)) (mulf (res_main_v95 V0) (res_main_v95 V0))) (constant S_ .f32 0x00000000#32) reducesTo_S100000_S_d0 h_S_) (constant S_ .f32 0x47C35000#32))) : S_.Idx → EReal)
      = Cert.KernelIdeal.Tail.value A0 A3
          (addf (F := Ideal) (φ := .f32) (mulf (F := Ideal) (φ := .f32) A0 (broadcastInDim Cert.KernelIdeal.S100000x6 ![0, 1] Cert.KernelIdeal.Gen.bcast_S1x6_S100000x6_0_1 A5))
            (broadcastInDim Cert.KernelIdeal.S100000x6 ![0, 1] Cert.KernelIdeal.Gen.bcast_S1x6_S100000x6_0_1 A4))
          (concatenate Cert.KernelIdeal.S3200000 0
            [⟨Cert.KernelIdeal.S1600000, shapeCast Cert.KernelIdeal.S1600000 (extractStridedSlice Cert.KernelIdeal.S1x1600000 ![0, 0] A1 Cert.KernelIdeal.Gen.slices_S2x1600000_S1x1600000_0_0) Cert.KernelIdeal.Gen.shapeCasts_S1x1600000_S1600000⟩,
             ⟨Cert.KernelIdeal.S1600000, shapeCast Cert.KernelIdeal.S1600000 (extractStridedSlice Cert.KernelIdeal.S1x1600000 ![1, 0] A1 Cert.KernelIdeal.Gen.slices_S2x1600000_S1x1600000_1_0) Cert.KernelIdeal.Gen.shapeCasts_S1x1600000_S1600000⟩]
            Cert.KernelIdeal.Gen.concatenates_S1600000_S1600000_S3200000_d0)
          (fun i => Cert.Spec.msg A0 A1 A2 A4 A5 A6 A7 (i 0) (i 1)) := by
  subst e0 e1 e2 e3 e4 e5 e6 e7
  rw [ref_value V0, Cert.RefRead.updR_eq V0 h0 h4 h5 hidx]
  unfold res_main_v10 res_main_v4 res_main_v1 res_main_v3
  rfl

end Reference

end Cert.Bridge

end
-- ==== Proof.lean ====
/-
  The certificate of the branch-message kernel against its jnp reference, over the extended reals.

  The program computes, for every directed branch of a power network, the active and reactive flow its two ends see
  (a pointwise Pallas kernel over 12500 x 128 arrangements of the 1,600,000 branches, in blocks of 1568 rows, the last
  block cut at the arrays' end), adds the flows up per node, and returns a weighted sum of the mean squared power
  imbalance and the mean squared error of x against y. The reference computes the same flows one direction at a time
  over a table of 3,200,000 rows.

  The statement carries one conjunct beside finiteness: every entry of the branch-end table is a node number in
  [0, 100000). Outside it the reference's own lookup is out of range (it reads a clamped row) while the kernel's take
  answers its fill value; inside it both read the same node.

  The three frames: the kernel's two by the pipeline library's run around one region, the body run once for both float
  instances (KBody, KBodyBits); the reference's is its run with the result dropped. The idealization rewrote nothing.
  The value claim: both programs end at one function of the arguments (Bridge), the kernel's table of messages read
  through the layout of its four result arrays, the reference's through the flow formulas, equal wherever the
  de-normalized node features are real numbers — which finiteness of x and of its statistics gives.
-/
import proofs.«428348_j773094113348_2_alg».proof.Defs
import proofs.«428348_j773094113348_2_alg».proof.Proof.Gen.Kernel
import proofs.«428348_j773094113348_2_alg».proof.Proof.Gen.KernelIdeal
import proofs.«428348_j773094113348_2_alg».proof.Proof.Gen.ReferenceIdeal
import proofs.«428348_j773094113348_2_alg».proof.Proof.Gen.Pre_finite_inputs
import proofs.«428348_j773094113348_2_alg».proof.Proof.KBody
import proofs.«428348_j773094113348_2_alg».proof.Proof.KBodyBits
import proofs.«428348_j773094113348_2_alg».proof.Proof.RefRun
import proofs.«428348_j773094113348_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-! ## The value claim -/

section Value

open Cert.ReferenceIdeal Cert.ReferenceIdeal.Gen Cert.ReferenceIdeal.Value

/-- Under the precondition, from memories agreeing on the arguments, the term the reference's run ends at is the
    kernel program's result. -/
theorem value_eq (m : (ℓ : Loc Cert.KernelIdeal.nD Cert.KernelIdeal.τ Cert.KernelIdeal.sig) → Buf (Elt Ideal) ℓ)
    (m' : (ℓ : Loc nD τ sig) → Buf (Elt Ideal) ℓ)
    (hpre : Cert.Pre_KernelIdeal m) (c : Dev Cert.KernelIdeal.nD)
    (e0 : m' ((c.tc : Thread nD τ).loc main_arg0) = m ((c.tc : Thread Cert.KernelIdeal.nD Cert.KernelIdeal.τ).loc Cert.KernelIdeal.main_arg0))
    (e1 : m' ((c.tc : Thread nD τ).loc main_arg1) = m ((c.tc : Thread Cert.KernelIdeal.nD Cert.KernelIdeal.τ).loc Cert.KernelIdeal.main_arg1))
    (e2 : m' ((c.tc : Thread nD τ).loc main_arg2) = m ((c.tc : Thread Cert.KernelIdeal.nD Cert.KernelIdeal.τ).loc Cert.KernelIdeal.main_arg2))
    (e3 : m' ((c.tc : Thread nD τ).loc main_arg3) = m ((c.tc : Thread Cert.KernelIdeal.nD Cert.KernelIdeal.τ).loc Cert.KernelIdeal.main_arg3))
    (e4 : m' ((c.tc : Thread nD τ).loc main_arg4) = m ((c.tc : Thread Cert.KernelIdeal.nD Cert.KernelIdeal.τ).loc Cert.KernelIdeal.main_arg4))
    (e5 : m' ((c.tc : Thread nD τ).loc main_arg5) = m ((c.tc : Thread Cert.KernelIdeal.nD Cert.KernelIdeal.τ).loc Cert.KernelIdeal.main_arg5))
    (e6 : m' ((c.tc : Thread nD τ).loc main_arg6) = m ((c.tc : Thread Cert.KernelIdeal.nD Cert.KernelIdeal.τ).loc Cert.KernelIdeal.main_arg6))
    (e7 : m' ((c.tc : Thread nD τ).loc main_arg7) = m ((c.tc : Thread Cert.KernelIdeal.nD Cert.KernelIdeal.τ).loc Cert.KernelIdeal.main_arg7)) :
    (addf (mulf (constant S_ .f32 0x3F000000#32) (Host.divf (Host.reduceAdd (mulf (res_main_v101 (StableHlo.launchContents m' c)) (res_main_v101 (StableHlo.launchContents m' c))) (constant S_ .f32 0x00000000#32) reducesTo_S100000x6_S_d0_1 h_S_) (constant S_ .f32 0x49127C00#32))) (mulf (constant S_ .f32 0x3C23D70A#32) (Host.divf (Host.reduceAdd (addf (mulf (res_main_v89 (StableHlo.launchContents m' c)) (res_main_v89 (StableHlo.launchContents m' c))) (mulf (res_main_v95 (StableHlo.launchContents m' c)) (res_main_v95 (StableHlo.launchContents m' c)))) (constant S_ .f32 0x00000000#32) reducesTo_S100000_S_d0 h_S_) (constant S_ .f32 0x47C35000#32))) : S_.Idx → EReal)
      = Pipeline.afterTail₀ Cert.KernelIdeal.cfgs (Cert.KernelIdeal.Body.dats m) 0 (Cert.KernelIdeal.Gen.V0 m) [Cert.KernelIdeal.Gen.hostOps1] c Cert.KernelIdeal.main_v69 := by
  obtain ⟨h0, h4, h5, hidx⟩ := Cert.PreFacts.decode _ _ _ _ _ _ _ _ (hpre c)
  rw [Cert.Bridge.kernel_value m c hidx]
  exact Cert.Bridge.ref_value_msg (StableHlo.launchContents m' c) _ _ _ _ _ _ _ _ e0 e1 e2 e3 e4 e5 e6 e7 h0 h4 h5 hidx

end Value

/-- At the ideal instance the two programs, run from memories agreeing on the arguments, end with equal results and
    unchanged arguments. -/
theorem algebraic : Cert.algebraic_KernelIdeal_ReferenceIdeal := by
  intro m ρ m' ρ' hpre hagree
  refine ⟨fun c => Pipeline.afterTail₀ Cert.KernelIdeal.cfgs (Cert.KernelIdeal.Body.dats m) 0 (Cert.KernelIdeal.Gen.V0 m)
    [Cert.KernelIdeal.Gen.hostOps1] c Cert.KernelIdeal.main_v69, ?_, ?_⟩
  · exact (θ_run Cert.KernelIdeal.defs _ _).mono
      (fun r h c => ⟨(h c).2 Cert.KernelIdeal.main_v69 (Pipeline.mem_restRefs_of Cert.KernelIdeal.main_v69 (by decide) (by decide)),
        ((h c).2 Cert.KernelIdeal.main_arg0 (Pipeline.mem_restRefs_of Cert.KernelIdeal.main_arg0 (by decide) (by decide))).trans (Cert.KernelIdeal.Gen.W_main_arg0 m (Cert.KernelIdeal.Body.dats m) c),
        ((h c).2 Cert.KernelIdeal.main_arg1 (Pipeline.mem_restRefs_of Cert.KernelIdeal.main_arg1 (by decide) (by decide))).trans (Cert.KernelIdeal.Gen.W_main_arg1 m (Cert.KernelIdeal.Body.dats m) c),
        ((h c).2 Cert.KernelIdeal.main_arg2 (Pipeline.mem_restRefs_of Cert.KernelIdeal.main_arg2 (by decide) (by decide))).trans (Cert.KernelIdeal.Gen.W_main_arg2 m (Cert.KernelIdeal.Body.dats m) c),
        ((h c).2 Cert.KernelIdeal.main_arg3 (Pipeline.mem_restRefs_of Cert.KernelIdeal.main_arg3 (by decide) (by decide))).trans (Cert.KernelIdeal.Gen.W_main_arg3 m (Cert.KernelIdeal.Body.dats m) c),
        ((h c).2 Cert.KernelIdeal.main_arg4 (Pipeline.mem_restRefs_of Cert.KernelIdeal.main_arg4 (by decide) (by decide))).trans (Cert.KernelIdeal.Gen.W_main_arg4 m (Cert.KernelIdeal.Body.dats m) c),
        ((h c).2 Cert.KernelIdeal.main_arg5 (Pipeline.mem_restRefs_of Cert.KernelIdeal.main_arg5 (by decide) (by decide))).trans (Cert.KernelIdeal.Gen.W_main_arg5 m (Cert.KernelIdeal.Body.dats m) c),
        ((h c).2 Cert.KernelIdeal.main_arg6 (Pipeline.mem_restRefs_of Cert.KernelIdeal.main_arg6 (by decide) (by decide))).trans (Cert.KernelIdeal.Gen.W_main_arg6 m (Cert.KernelIdeal.Body.dats m) c),
        ((h c).2 Cert.KernelIdeal.main_arg7 (Pipeline.mem_restRefs_of Cert.KernelIdeal.main_arg7 (by decide) (by decide))).trans (Cert.KernelIdeal.Gen.W_main_arg7 m (Cert.KernelIdeal.Body.dats m) c)⟩)
      (Cert.KernelIdeal.Body.run_main m ρ)
  · exact (θ_run Cert.ReferenceIdeal.defs _ _).mono
      (fun r h c => ⟨(h c).1.trans (value_eq m m' hpre c (hagree c).1 (hagree c).2.1 (hagree c).2.2.1 (hagree c).2.2.2.1 (hagree c).2.2.2.2.1
          (hagree c).2.2.2.2.2.1 (hagree c).2.2.2.2.2.2.1 (hagree c).2.2.2.2.2.2.2), (h c).2⟩)
      (Cert.ReferenceIdeal.Value.run (F := Ideal) m' ρ')

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
